-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4x131072 : Shape := ⟨2, ![4, 131072]⟩
abbrev S32768 : Shape := ⟨1, ![32768]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x131072 : S_.BroadcastsInDim S4x131072 (![] : Fin 0 → Fin S4x131072.rank)
  reducesTo_S4x131072_S_d0_1 : S4x131072.ReducesTo [0, 1] S_

variable [Facts]

def fn {F : FTy → Type} [FloatOps F] (main_arg0 : FVec F S32768x512 .f32) (main_arg1 : FVec F S4x131072 .f32) (main_arg2 : IVec S32768 32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S4x131072 .f32 := Host.absf main_arg1
  let main_cst_0 : FVec F S_ .f32 := constant S_ .f32 0x7F800000#32
  let main_v5 : FVec F S4x131072 .f32 := broadcastInDim S4x131072 ![] bcast_S_S4x131072 main_cst_0
  let main_v6 : IVec S4x131072 1 := cmpf .olt main_v4 main_v5
  let main_c_1 : IVec S_ 1 := constantI S_ 1 1#1
  let main_v7 : IVec S_ 1 := (fun x v => Host.reduce IntOp.andi x v reducesTo_S4x131072_S_d0_1 h_S_) main_v6 main_c_1
  let main_v8 : IVec S_ 1 := andi main_v3 main_v7
  main_v8
-- ==== Kernel.lean ====
abbrev S32768x512 : Shape := ⟨2, ![32768, 512]⟩
abbrev S4x131072 : Shape := ⟨2, ![4, 131072]⟩
abbrev S32768 : Shape := ⟨1, ![32768]⟩
abbrev S_ : Shape := ⟨0, ![]⟩
abbrev S4x512x512 : Shape := ⟨3, ![4, 512, 512]⟩
abbrev S4x16384 : Shape := ⟨2, ![4, 16384]⟩
abbrev S4x128x128 : Shape := ⟨3, ![4, 128, 128]⟩
abbrev S1 : Shape := ⟨1, ![1]⟩
abbrev S2 : Shape := ⟨1, ![2]⟩
abbrev S32768x1 : Shape := ⟨2, ![32768, 1]⟩
abbrev S1024x512 : Shape := ⟨2, ![1024, 512]⟩
abbrev S1024x1 : Shape := ⟨2, ![1024, 1]⟩
abbrev S1x512x512 : Shape := ⟨3, ![1, 512, 512]⟩
abbrev S512x512 : Shape := ⟨2, ![512, 512]⟩

abbrev nBuf : Space → Nat
  | .hbm => 96
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S4x131072, .f32⟩
  | .hbm, ⟨2, _⟩ => ⟨S32768, .i32⟩
  | .hbm, ⟨3, _⟩ => ⟨S_, .f32⟩
  | .hbm, ⟨4, _⟩ => ⟨S4x512x512, .f32⟩
  | .hbm, ⟨5, _⟩ => ⟨S4x16384, .f32⟩
  | .hbm, ⟨6, _⟩ => ⟨S4x128x128, .f32⟩
  | .hbm, ⟨7, _⟩ => ⟨S_, .f32⟩
  | .hbm, ⟨8, _⟩ => ⟨S4x128x128, .f32⟩
  | .hbm, ⟨9, _⟩ => ⟨S4x128x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S4x512x512, .f32⟩
  | .hbm, ⟨16, _⟩ => ⟨S4x16384, .f32⟩
  | .hbm, ⟨17, _⟩ => ⟨S4x128x128, .f32⟩
  | .hbm, ⟨18, _⟩ => ⟨S_, .f32⟩
  | .hbm, ⟨19, _⟩ => ⟨S4x128x128, .f32⟩
  | .hbm, ⟨20, _⟩ => ⟨S4x128x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S4x512x512, .f32⟩
  | .hbm, ⟨27, _⟩ => ⟨S4x16384, .f32⟩
  | .hbm, ⟨28, _⟩ => ⟨S4x128x128, .f32⟩
  | .hbm, ⟨29, _⟩ => ⟨S_, .f32⟩
  | .hbm, ⟨30, _⟩ => ⟨S4x128x128, .f32⟩
  | .hbm, ⟨31, _⟩ => ⟨S4x128x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S4x512x512, .f32⟩
  | .hbm, ⟨38, _⟩ => ⟨S4x16384, .f32⟩
  | .hbm, ⟨39, _⟩ => ⟨S4x128x128, .f32⟩
  | .hbm, ⟨40, _⟩ => ⟨S_, .f32⟩
  | .hbm, ⟨41, _⟩ => ⟨S4x128x128, .f32⟩
  | .hbm, ⟨42, _⟩ => ⟨S4x128x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S4x512x512, .f32⟩
  | .hbm, ⟨49, _⟩ => ⟨S4x16384, .f32⟩
  | .hbm, ⟨50, _⟩ => ⟨S4x128x128, .f32⟩
  | .hbm, ⟨51, _⟩ => ⟨S_, .f32⟩
  | .hbm, ⟨52, _⟩ => ⟨S4x128x128, .f32⟩
  | .hbm, ⟨53, _⟩ => ⟨S4x128x128, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S4x512x512, .f32⟩
  | .hbm, ⟨60, _⟩ => ⟨S4x16384, .f32⟩
  | .hbm, ⟨61, _⟩ => ⟨S4x128x128, .f32⟩
  | .hbm, ⟨62, _⟩ => ⟨S_, .f32⟩
  | .hbm, ⟨63, _⟩ => ⟨S4x128x128, .f32⟩
  | .hbm, ⟨64, _⟩ => ⟨S4x128x128, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S4x512x512, .f32⟩
  | .hbm, ⟨71, _⟩ => ⟨S4x16384, .f32⟩
  | .hbm, ⟨72, _⟩ => ⟨S4x128x128, .f32⟩
  | .hbm, ⟨73, _⟩ => ⟨S_, .f32⟩
  | .hbm, ⟨74, _⟩ => ⟨S4x128x128, .f32⟩
  | .hbm, ⟨75, _⟩ => ⟨S4x128x128, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S4x512x512, .f32⟩
  | .hbm, ⟨82, _⟩ => ⟨S4x16384, .f32⟩
  | .hbm, ⟨83, _⟩ => ⟨S4x128x128, .f32⟩
  | .hbm, ⟨84, _⟩ => ⟨S_, .f32⟩
  | .hbm, ⟨85, _⟩ => ⟨S4x128x128, .f32⟩
  | .hbm, ⟨86, _⟩ => ⟨S4x128x128, .f32⟩
  | .hbm, ⟨87, _⟩ => ⟨S_, .i32⟩
  | .hbm, ⟨88, _⟩ => ⟨S1, .i32⟩
  | .hbm, ⟨89, _⟩ => ⟨S_, .i32⟩
  | .hbm, ⟨90, _⟩ => ⟨S1, .i32⟩
  | .hbm, ⟨91, _⟩ => ⟨S2, .i32⟩
  | .hbm, ⟨92, _⟩ => ⟨S4x512x512, .f32⟩
  | .hbm, ⟨93, _⟩ => ⟨S4x512x512, .bf16⟩
  | .hbm, ⟨94, _⟩ => ⟨S32768x1, .i32⟩
  | .hbm, ⟨95, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S4x512x512, .bf16⟩
  | .local _ .vmem, ⟨3, _⟩ => ⟨S1024x1, .i32⟩
  | .local _ .vmem, ⟨4, _⟩ => ⟨S1024x1, .i32⟩
  | .local _ .vmem, ⟨5, _⟩ => ⟨S1024x512, .f32⟩
  | .local _ .vmem, ⟨6, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_c_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_c_12 : Ref sig .tc := ⟨.hbm, 54, rfl⟩
abbrev main_v37 : Ref sig .tc := ⟨.hbm, 55, rfl⟩
abbrev main_c_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_14 : Ref sig .tc := ⟨.hbm, 62, rfl⟩
abbrev main_v43 : Ref sig .tc := ⟨.hbm, 63, rfl⟩
abbrev main_v44 : Ref sig .tc := ⟨.hbm, 64, rfl⟩
abbrev main_c_15 : Ref sig .tc := ⟨.hbm, 65, rfl⟩
abbrev main_v45 : Ref sig .tc := ⟨.hbm, 66, rfl⟩
abbrev main_c_16 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_17 : Ref sig .tc := ⟨.hbm, 73, rfl⟩
abbrev main_v51 : Ref sig .tc := ⟨.hbm, 74, rfl⟩
abbrev main_v52 : Ref sig .tc := ⟨.hbm, 75, rfl⟩
abbrev main_c_18 : Ref sig .tc := ⟨.hbm, 76, rfl⟩
abbrev main_v53 : Ref sig .tc := ⟨.hbm, 77, rfl⟩
abbrev main_c_19 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_20 : Ref sig .tc := ⟨.hbm, 84, rfl⟩
abbrev main_v59 : Ref sig .tc := ⟨.hbm, 85, rfl⟩
abbrev main_v60 : Ref sig .tc := ⟨.hbm, 86, rfl⟩
abbrev main_c_21 : Ref sig .tc := ⟨.hbm, 87, rfl⟩
abbrev main_v61 : Ref sig .tc := ⟨.hbm, 88, rfl⟩
abbrev main_c_22 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4x512x512 : S_.BroadcastsInDim S4x512x512 (![] : Fin 0 → Fin S4x512x512.rank)
  slices_S4x131072_S4x16384_0_0 : S4x131072.Slices ![0, 0] S4x16384
  shapeCasts_S4x16384_S4x128x128 : S4x16384.ShapeCasts S4x128x128
  bcast_S_S4x128x128 : S_.BroadcastsInDim S4x128x128 (![] : Fin 0 → Fin S4x128x128.rank)
  bcast_S_S1 : S_.BroadcastsInDim S1 (![] : Fin 0 → Fin S1.rank)
  concatenates_S1_S1_S2_d0 : Shape.Concatenates [S1, S1] S2 0
  slices_S4x131072_S4x16384_0_16384 : S4x131072.Slices ![0, 16384] S4x16384
  slices_S4x131072_S4x16384_0_32768 : S4x131072.Slices ![0, 32768] S4x16384
  slices_S4x131072_S4x16384_0_49152 : S4x131072.Slices ![0, 49152] S4x16384
  slices_S4x131072_S4x16384_0_65536 : S4x131072.Slices ![0, 65536] S4x16384
  slices_S4x131072_S4x16384_0_81920 : S4x131072.Slices ![0, 81920] S4x16384
  slices_S4x131072_S4x16384_0_98304 : S4x131072.Slices ![0, 98304] S4x16384
  slices_S4x131072_S4x16384_0_114688 : S4x131072.Slices ![0, 114688] S4x16384
  bitsLt_bf16_f32 : FTy.bits .bf16 < FTy.bits .f32
  shapeCasts_S32768_S32768x1 : S32768.ShapeCasts S32768x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  natLt_1_32 : 1 < 32
  broadcasts_S1024x1_S1024x512 : S1024x1.Broadcasts S1024x512
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  scatter_S4x512x512_S2_S4x128x128_012_n_12_0_wf : ScatterDims.WF S4x512x512 S2 S4x128x128 [0, 1, 2] [] [1, 2] 0
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x512x512.size a
  hwx0_1 : ∀ i : grid0.Coords, EltTy.bits .bf16 = 32 ∨ (Rect.block (s := S4x512x512) S4x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .i32 = 32 ∨ (Rect.block (s := S32768x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .f32 = 32 ∨ (Rect.block (s := S32768x512) S1024x512.size (cc0_transform_3 i) (hinb0_3 i)).WholeWords (EltTy.packing .f32)

variable [Facts₀]

def scatter_S4x512x512_S2_S4x128x128_012_n_12_0 : ScatterDims S4x512x512 S2 S4x128x128 where
  updateWindowDims := [0, 1, 2]
  insertedWindowDims := []
  scatterDimsToOperandDims := [1, 2]
  indexVectorDim := 0
  wf := scatter_S4x512x512_S2_S4x128x128_012_n_12_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S4x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S4x131072 : Shape := ⟨2, ![4, 131072]⟩
abbrev S32768 : Shape := ⟨1, ![32768]⟩
abbrev S32768x1 : Shape := ⟨2, ![32768, 1]⟩
abbrev S1x4 : Shape := ⟨2, ![1, 4]⟩
abbrev S32768x4 : Shape := ⟨2, ![32768, 4]⟩
abbrev S_ : Shape := ⟨0, ![]⟩
abbrev S32768x128 : Shape := ⟨2, ![32768, 128]⟩
abbrev S4x16384 : Shape := ⟨2, ![4, 16384]⟩
abbrev S4x128x128 : Shape := ⟨3, ![4, 128, 128]⟩
abbrev S1x128x128 : Shape := ⟨3, ![1, 128, 128]⟩
abbrev S128x128 : Shape := ⟨2, ![128, 128]⟩
abbrev S1 : Shape := ⟨1, ![1]⟩

abbrev nBuf : Space → Nat
  | .hbm => 323
  | .vmem => 0
  | .smem => 0
  | _ => 0

abbrev hbmTy0_0 (i : Nat) : BufTy := match i % 128 with
  | 0 => ⟨S32768x512, .f32⟩
  | 1 => ⟨S4x131072, .f32⟩
  | 2 => ⟨S32768, .i32⟩
  | 3 => ⟨S32768x1, .i32⟩
  | 4 => ⟨S1x4, .i32⟩
  | 5 => ⟨S32768x4, .i32⟩
  | 6 => ⟨S32768x4, .i32⟩
  | 7 => ⟨S32768x4, .i1⟩
  | 8 => ⟨S32768x4, .f32⟩
  | 9 => ⟨S_, .f32⟩
  | 10 => ⟨S32768x512, .f32⟩
  | 11 => ⟨S32768x128, .f32⟩
  | 12 => ⟨S4x16384, .f32⟩
  | 13 => ⟨S4x128x128, .f32⟩
  | 14 => ⟨S_, .f32⟩
  | 15 => ⟨S32768x128, .f32⟩
  | 16 => ⟨S32768x1, .f32⟩
  | 17 => ⟨S1x128x128, .f32⟩
  | 18 => ⟨S128x128, .f32⟩
  | 19 => ⟨S32768x128, .f32⟩
  | 20 => ⟨S32768x128, .f32⟩
  | 21 => ⟨S32768x128, .f32⟩
  | 22 => ⟨S32768x128, .f32⟩
  | 23 => ⟨S32768x1, .f32⟩
  | 24 => ⟨S1x128x128, .f32⟩
  | 25 => ⟨S128x128, .f32⟩
  | 26 => ⟨S32768x128, .f32⟩
  | 27 => ⟨S32768x128, .f32⟩
  | 28 => ⟨S32768x128, .f32⟩
  | 29 => ⟨S32768x128, .f32⟩
  | 30 => ⟨S32768x1, .f32⟩
  | 31 => ⟨S1x128x128, .f32⟩
  | 32 => ⟨S128x128, .f32⟩
  | 33 => ⟨S32768x128, .f32⟩
  | 34 => ⟨S32768x128, .f32⟩
  | 35 => ⟨S32768x128, .f32⟩
  | 36 => ⟨S32768x128, .f32⟩
  | 37 => ⟨S32768x1, .f32⟩
  | 38 => ⟨S1x128x128, .f32⟩
  | 39 => ⟨S128x128, .f32⟩
  | 40 => ⟨S32768x128, .f32⟩
  | 41 => ⟨S32768x128, .f32⟩
  | 42 => ⟨S32768x128, .f32⟩
  | 43 => ⟨S32768x128, .f32⟩
  | 44 => ⟨S_, .f32⟩
  | 45 => ⟨S32768x128, .f32⟩
  | 46 => ⟨S32768x128, .f32⟩
  | 47 => ⟨S_, .i32⟩
  | 48 => ⟨S1, .i32⟩
  | 49 => ⟨S32768x512, .f32⟩
  | 50 => ⟨S32768x128, .f32⟩
  | 51 => ⟨S4x16384, .f32⟩
  | 52 => ⟨S4x128x128, .f32⟩
  | 53 => ⟨S_, .f32⟩
  | 54 => ⟨S32768x128, .f32⟩
  | 55 => ⟨S32768x1, .f32⟩
  | 56 => ⟨S1x128x128, .f32⟩
  | 57 => ⟨S128x128, .f32⟩
  | 58 => ⟨S32768x128, .f32⟩
  | 59 => ⟨S32768x128, .f32⟩
  | 60 => ⟨S32768x128, .f32⟩
  | 61 => ⟨S32768x128, .f32⟩
  | 62 => ⟨S32768x1, .f32⟩
  | 63 => ⟨S1x128x128, .f32⟩
  | 64 => ⟨S128x128, .f32⟩
  | 65 => ⟨S32768x128, .f32⟩
  | 66 => ⟨S32768x128, .f32⟩
  | 67 => ⟨S32768x128, .f32⟩
  | 68 => ⟨S32768x128, .f32⟩
  | 69 => ⟨S32768x1, .f32⟩
  | 70 => ⟨S1x128x128, .f32⟩
  | 71 => ⟨S128x128, .f32⟩
  | 72 => ⟨S32768x128, .f32⟩
  | 73 => ⟨S32768x128, .f32⟩
  | 74 => ⟨S32768x128, .f32⟩
  | 75 => ⟨S32768x128, .f32⟩
  | 76 => ⟨S32768x1, .f32⟩
  | 77 => ⟨S1x128x128, .f32⟩
  | 78 => ⟨S128x128, .f32⟩
  | 79 => ⟨S32768x128, .f32⟩
  | 80 => ⟨S32768x128, .f32⟩
  | 81 => ⟨S32768x128, .f32⟩
  | 82 => ⟨S32768x128, .f32⟩
  | 83 => ⟨S_, .f32⟩
  | 84 => ⟨S32768x128, .f32⟩
  | 85 => ⟨S32768x128, .f32⟩
  | 86 => ⟨S_, .i32⟩
  | 87 => ⟨S1, .i32⟩
  | 88 => ⟨S32768x512, .f32⟩
  | 89 => ⟨S32768x128, .f32⟩
  | 90 => ⟨S4x16384, .f32⟩
  | 91 => ⟨S4x128x128, .f32⟩
  | 92 => ⟨S_, .f32⟩
  | 93 => ⟨S32768x128, .f32⟩
  | 94 => ⟨S32768x1, .f32⟩
  | 95 => ⟨S1x128x128, .f32⟩
  | 96 => ⟨S128x128, .f32⟩
  | 97 => ⟨S32768x128, .f32⟩
  | 98 => ⟨S32768x128, .f32⟩
  | 99 => ⟨S32768x128, .f32⟩
  | 100 => ⟨S32768x128, .f32⟩
  | 101 => ⟨S32768x1, .f32⟩
  | 102 => ⟨S1x128x128, .f32⟩
  | 103 => ⟨S128x128, .f32⟩
  | 104 => ⟨S32768x128, .f32⟩
  | 105 => ⟨S32768x128, .f32⟩
  | 106 => ⟨S32768x128, .f32⟩
  | 107 => ⟨S32768x128, .f32⟩
  | 108 => ⟨S32768x1, .f32⟩
  | 109 => ⟨S1x128x128, .f32⟩
  | 110 => ⟨S128x128, .f32⟩
  | 111 => ⟨S32768x128, .f32⟩
  | 112 => ⟨S32768x128, .f32⟩
  | 113 => ⟨S32768x128, .f32⟩
  | 114 => ⟨S32768x128, .f32⟩
  | 115 => ⟨S32768x1, .f32⟩
  | 116 => ⟨S1x128x128, .f32⟩
  | 117 => ⟨S128x128, .f32⟩
  | 118 => ⟨S32768x128, .f32⟩
  | 119 => ⟨S32768x128, .f32⟩
  | 120 => ⟨S32768x128, .f32⟩
  | 121 => ⟨S32768x128, .f32⟩
  | 122 => ⟨S_, .f32⟩
  | 123 => ⟨S32768x128, .f32⟩
  | 124 => ⟨S32768x128, .f32⟩
  | 125 => ⟨S_, .i32⟩
  | 126 => ⟨S1, .i32⟩
  | 127 => ⟨S32768x512, .f32⟩
  | _ => ⟨S32768x512, .f32⟩

abbrev hbmTy0_1 (i : Nat) : BufTy := match i % 128 with
  | 0 => ⟨S32768x128, .f32⟩
  | 1 => ⟨S4x16384, .f32⟩
  | 2 => ⟨S4x128x128, .f32⟩
  | 3 => ⟨S_, .f32⟩
  | 4 => ⟨S32768x128, .f32⟩
  | 5 => ⟨S32768x1, .f32⟩
  | 6 => ⟨S1x128x128, .f32⟩
  | 7 => ⟨S128x128, .f32⟩
  | 8 => ⟨S32768x128, .f32⟩
  | 9 => ⟨S32768x128, .f32⟩
  | 10 => ⟨S32768x128, .f32⟩
  | 11 => ⟨S32768x128, .f32⟩
  | 12 => ⟨S32768x1, .f32⟩
  | 13 => ⟨S1x128x128, .f32⟩
  | 14 => ⟨S128x128, .f32⟩
  | 15 => ⟨S32768x128, .f32⟩
  | 16 => ⟨S32768x128, .f32⟩
  | 17 => ⟨S32768x128, .f32⟩
  | 18 => ⟨S32768x128, .f32⟩
  | 19 => ⟨S32768x1, .f32⟩
  | 20 => ⟨S1x128x128, .f32⟩
  | 21 => ⟨S128x128, .f32⟩
  | 22 => ⟨S32768x128, .f32⟩
  | 23 => ⟨S32768x128, .f32⟩
  | 24 => ⟨S32768x128, .f32⟩
  | 25 => ⟨S32768x128, .f32⟩
  | 26 => ⟨S32768x1, .f32⟩
  | 27 => ⟨S1x128x128, .f32⟩
  | 28 => ⟨S128x128, .f32⟩
  | 29 => ⟨S32768x128, .f32⟩
  | 30 => ⟨S32768x128, .f32⟩
  | 31 => ⟨S32768x128, .f32⟩
  | 32 => ⟨S32768x128, .f32⟩
  | 33 => ⟨S_, .f32⟩
  | 34 => ⟨S32768x128, .f32⟩
  | 35 => ⟨S32768x128, .f32⟩
  | 36 => ⟨S_, .i32⟩
  | 37 => ⟨S1, .i32⟩
  | 38 => ⟨S32768x512, .f32⟩
  | 39 => ⟨S32768x128, .f32⟩
  | 40 => ⟨S4x16384, .f32⟩
  | 41 => ⟨S4x128x128, .f32⟩
  | 42 => ⟨S_, .f32⟩
  | 43 => ⟨S32768x128, .f32⟩
  | 44 => ⟨S32768x1, .f32⟩
  | 45 => ⟨S1x128x128, .f32⟩
  | 46 => ⟨S128x128, .f32⟩
  | 47 => ⟨S32768x128, .f32⟩
  | 48 => ⟨S32768x128, .f32⟩
  | 49 => ⟨S32768x128, .f32⟩
  | 50 => ⟨S32768x128, .f32⟩
  | 51 => ⟨S32768x1, .f32⟩
  | 52 => ⟨S1x128x128, .f32⟩
  | 53 => ⟨S128x128, .f32⟩
  | 54 => ⟨S32768x128, .f32⟩
  | 55 => ⟨S32768x128, .f32⟩
  | 56 => ⟨S32768x128, .f32⟩
  | 57 => ⟨S32768x128, .f32⟩
  | 58 => ⟨S32768x1, .f32⟩
  | 59 => ⟨S1x128x128, .f32⟩
  | 60 => ⟨S128x128, .f32⟩
  | 61 => ⟨S32768x128, .f32⟩
  | 62 => ⟨S32768x128, .f32⟩
  | 63 => ⟨S32768x128, .f32⟩
  | 64 => ⟨S32768x128, .f32⟩
  | 65 => ⟨S32768x1, .f32⟩
  | 66 => ⟨S1x128x128, .f32⟩
  | 67 => ⟨S128x128, .f32⟩
  | 68 => ⟨S32768x128, .f32⟩
  | 69 => ⟨S32768x128, .f32⟩
  | 70 => ⟨S32768x128, .f32⟩
  | 71 => ⟨S32768x128, .f32⟩
  | 72 => ⟨S_, .f32⟩
  | 73 => ⟨S32768x128, .f32⟩
  | 74 => ⟨S32768x128, .f32⟩
  | 75 => ⟨S_, .i32⟩
  | 76 => ⟨S1, .i32⟩
  | 77 => ⟨S32768x512, .f32⟩
  | 78 => ⟨S32768x128, .f32⟩
  | 79 => ⟨S4x16384, .f32⟩
  | 80 => ⟨S4x128x128, .f32⟩
  | 81 => ⟨S_, .f32⟩
  | 82 => ⟨S32768x128, .f32⟩
  | 83 => ⟨S32768x1, .f32⟩
  | 84 => ⟨S1x128x128, .f32⟩
  | 85 => ⟨S128x128, .f32⟩
  | 86 => ⟨S32768x128, .f32⟩
  | 87 => ⟨S32768x128, .f32⟩
  | 88 => ⟨S32768x128, .f32⟩
  | 89 => ⟨S32768x128, .f32⟩
  | 90 => ⟨S32768x1, .f32⟩
  | 91 => ⟨S1x128x128, .f32⟩
  | 92 => ⟨S128x128, .f32⟩
  | 93 => ⟨S32768x128, .f32⟩
  | 94 => ⟨S32768x128, .f32⟩
  | 95 => ⟨S32768x128, .f32⟩
  | 96 => ⟨S32768x128, .f32⟩
  | 97 => ⟨S32768x1, .f32⟩
  | 98 => ⟨S1x128x128, .f32⟩
  | 99 => ⟨S128x128, .f32⟩
  | 100 => ⟨S32768x128, .f32⟩
  | 101 => ⟨S32768x128, .f32⟩
  | 102 => ⟨S32768x128, .f32⟩
  | 103 => ⟨S32768x128, .f32⟩
  | 104 => ⟨S32768x1, .f32⟩
  | 105 => ⟨S1x128x128, .f32⟩
  | 106 => ⟨S128x128, .f32⟩
  | 107 => ⟨S32768x128, .f32⟩
  | 108 => ⟨S32768x128, .f32⟩
  | 109 => ⟨S32768x128, .f32⟩
  | 110 => ⟨S32768x128, .f32⟩
  | 111 => ⟨S_, .f32⟩
  | 112 => ⟨S32768x128, .f32⟩
  | 113 => ⟨S32768x128, .f32⟩
  | 114 => ⟨S_, .i32⟩
  | 115 => ⟨S1, .i32⟩
  | 116 => ⟨S32768x512, .f32⟩
  | 117 => ⟨S32768x128, .f32⟩
  | 118 => ⟨S4x16384, .f32⟩
  | 119 => ⟨S4x128x128, .f32⟩
  | 120 => ⟨S_, .f32⟩
  | 121 => ⟨S32768x128, .f32⟩
  | 122 => ⟨S32768x1, .f32⟩
  | 123 => ⟨S1x128x128, .f32⟩
  | 124 => ⟨S128x128, .f32⟩
  | 125 => ⟨S32768x128, .f32⟩
  | 126 => ⟨S32768x128, .f32⟩
  | 127 => ⟨S32768x128, .f32⟩
  | _ => ⟨S32768x512, .f32⟩

abbrev hbmTy0_2 (i : Nat) : BufTy := match i % 128 with
  | 0 => ⟨S32768x128, .f32⟩
  | 1 => ⟨S32768x1, .f32⟩
  | 2 => ⟨S1x128x128, .f32⟩
  | 3 => ⟨S128x128, .f32⟩
  | 4 => ⟨S32768x128, .f32⟩
  | 5 => ⟨S32768x128, .f32⟩
  | 6 => ⟨S32768x128, .f32⟩
  | 7 => ⟨S32768x128, .f32⟩
  | 8 => ⟨S32768x1, .f32⟩
  | 9 => ⟨S1x128x128, .f32⟩
  | 10 => ⟨S128x128, .f32⟩
  | 11 => ⟨S32768x128, .f32⟩
  | 12 => ⟨S32768x128, .f32⟩
  | 13 => ⟨S32768x128, .f32⟩
  | 14 => ⟨S32768x128, .f32⟩
  | 15 => ⟨S32768x1, .f32⟩
  | 16 => ⟨S1x128x128, .f32⟩
  | 17 => ⟨S128x128, .f32⟩
  | 18 => ⟨S32768x128, .f32⟩
  | 19 => ⟨S32768x128, .f32⟩
  | 20 => ⟨S32768x128, .f32⟩
  | 21 => ⟨S32768x128, .f32⟩
  | 22 => ⟨S_, .f32⟩
  | 23 => ⟨S32768x128, .f32⟩
  | 24 => ⟨S32768x128, .f32⟩
  | 25 => ⟨S_, .i32⟩
  | 26 => ⟨S1, .i32⟩
  | 27 => ⟨S32768x512, .f32⟩
  | 28 => ⟨S32768x128, .f32⟩
  | 29 => ⟨S4x16384, .f32⟩
  | 30 => ⟨S4x128x128, .f32⟩
  | 31 => ⟨S_, .f32⟩
  | 32 => ⟨S32768x128, .f32⟩
  | 33 => ⟨S32768x1, .f32⟩
  | 34 => ⟨S1x128x128, .f32⟩
  | 35 => ⟨S128x128, .f32⟩
  | 36 => ⟨S32768x128, .f32⟩
  | 37 => ⟨S32768x128, .f32⟩
  | 38 => ⟨S32768x128, .f32⟩
  | 39 => ⟨S32768x128, .f32⟩
  | 40 => ⟨S32768x1, .f32⟩
  | 41 => ⟨S1x128x128, .f32⟩
  | 42 => ⟨S128x128, .f32⟩
  | 43 => ⟨S32768x128, .f32⟩
  | 44 => ⟨S32768x128, .f32⟩
  | 45 => ⟨S32768x128, .f32⟩
  | 46 => ⟨S32768x128, .f32⟩
  | 47 => ⟨S32768x1, .f32⟩
  | 48 => ⟨S1x128x128, .f32⟩
  | 49 => ⟨S128x128, .f32⟩
  | 50 => ⟨S32768x128, .f32⟩
  | 51 => ⟨S32768x128, .f32⟩
  | 52 => ⟨S32768x128, .f32⟩
  | 53 => ⟨S32768x128, .f32⟩
  | 54 => ⟨S32768x1, .f32⟩
  | 55 => ⟨S1x128x128, .f32⟩
  | 56 => ⟨S128x128, .f32⟩
  | 57 => ⟨S32768x128, .f32⟩
  | 58 => ⟨S32768x128, .f32⟩
  | 59 => ⟨S32768x128, .f32⟩
  | 60 => ⟨S32768x128, .f32⟩
  | 61 => ⟨S_, .f32⟩
  | 62 => ⟨S32768x128, .f32⟩
  | 63 => ⟨S32768x128, .f32⟩
  | 64 => ⟨S_, .i32⟩
  | 65 => ⟨S1, .i32⟩
  | 66 => ⟨S32768x512, .f32⟩
  | _ => ⟨S32768x512, .f32⟩

abbrev hbmTy (i : Nat) : BufTy := match i / 128 with
  | 0 => hbmTy0_0 i
  | 1 => hbmTy0_1 i
  | 2 => hbmTy0_2 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_3 : Ref sig .tc := ⟨.hbm, 83, rfl⟩
abbrev main_v70 : Ref sig .tc := ⟨.hbm, 84, rfl⟩
abbrev main_v71 : Ref sig .tc := ⟨.hbm, 85, rfl⟩
abbrev main_c_4 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_5 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_6 : Ref sig .tc := ⟨.hbm, 122, rfl⟩
abbrev main_v106 : Ref sig .tc := ⟨.hbm, 123, rfl⟩
abbrev main_v107 : Ref sig .tc := ⟨.hbm, 124, rfl⟩
abbrev main_c_7 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_8 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_cst_9 : Ref sig .tc := ⟨.hbm, 161, rfl⟩
abbrev main_v142 : Ref sig .tc := ⟨.hbm, 162, rfl⟩
abbrev main_v143 : Ref sig .tc := ⟨.hbm, 163, rfl⟩
abbrev main_c_10 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_cst_11 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_cst_12 : Ref sig .tc := ⟨.hbm, 200, rfl⟩
abbrev main_v178 : Ref sig .tc := ⟨.hbm, 201, rfl⟩
abbrev main_v179 : Ref sig .tc := ⟨.hbm, 202, rfl⟩
abbrev main_c_13 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_cst_14 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_cst_15 : Ref sig .tc := ⟨.hbm, 239, rfl⟩
abbrev main_v214 : Ref sig .tc := ⟨.hbm, 240, rfl⟩
abbrev main_v215 : Ref sig .tc := ⟨.hbm, 241, rfl⟩
abbrev main_c_16 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_cst_17 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_cst_18 : Ref sig .tc := ⟨.hbm, 278, rfl⟩
abbrev main_v250 : Ref sig .tc := ⟨.hbm, 279, rfl⟩
abbrev main_v251 : Ref sig .tc := ⟨.hbm, 280, rfl⟩
abbrev main_c_19 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_cst_20 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_cst_21 : Ref sig .tc := ⟨.hbm, 317, rfl⟩
abbrev main_v286 : Ref sig .tc := ⟨.hbm, 318, rfl⟩
abbrev main_v287 : Ref sig .tc := ⟨.hbm, 319, rfl⟩
abbrev main_c_22 : Ref sig .tc := ⟨.hbm, 320, rfl⟩
abbrev main_v288 : Ref sig .tc := ⟨.hbm, 321, rfl⟩
abbrev main_v289 : Ref sig .tc := ⟨.hbm, 322, rfl⟩

abbrev nD : Nat := 1
abbrev τ : Topo := Topo.v7x

variable {F : FTy → Type} [FloatOps F]

class Facts₀ : Prop where
  bcast_S32768_S32768x1_0 : S32768.BroadcastsInDim S32768x1 (![0] : Fin 1 → Fin S32768x1.rank)
  bcast_S32768x1_S32768x4_0_1 : S32768x1.BroadcastsInDim S32768x4 (![0, 1] : Fin 2 → Fin S32768x4.rank)
  bcast_S1x4_S32768x4_0_1 : S1x4.BroadcastsInDim S32768x4 (![0, 1] : Fin 2 → Fin S32768x4.rank)
  bcast_S_S32768x512 : S_.BroadcastsInDim S32768x512 (![] : Fin 0 → Fin S32768x512.rank)
  slices_S32768x512_S32768x128_0_0 : S32768x512.Slices ![0, 0] S32768x128
  slices_S4x131072_S4x16384_0_0 : S4x131072.Slices ![0, 0] S4x16384
  shapeCasts_S4x16384_S4x128x128 : S4x16384.ShapeCasts S4x128x128
  bcast_S_S32768x128 : S_.BroadcastsInDim S32768x128 (![] : Fin 0 → Fin S32768x128.rank)
  slices_S32768x4_S32768x1_0_0 : S32768x4.Slices ![0, 0] S32768x1
  slices_S4x128x128_S1x128x128_0_0_0 : S4x128x128.Slices ![0, 0, 0] S1x128x128
  shapeCasts_S1x128x128_S128x128 : S1x128x128.ShapeCasts S128x128
  bcast_S32768x1_S32768x128_0_1 : S32768x1.BroadcastsInDim S32768x128 (![0, 1] : Fin 2 → Fin S32768x128.rank)
  slices_S32768x4_S32768x1_0_1 : S32768x4.Slices ![0, 1] S32768x1
  slices_S4x128x128_S1x128x128_1_0_0 : S4x128x128.Slices ![1, 0, 0] S1x128x128
  slices_S32768x4_S32768x1_0_2 : S32768x4.Slices ![0, 2] S32768x1
  slices_S4x128x128_S1x128x128_2_0_0 : S4x128x128.Slices ![2, 0, 0] S1x128x128
  slices_S32768x4_S32768x1_0_3 : S32768x4.Slices ![0, 3] S32768x1
  slices_S4x128x128_S1x128x128_3_0_0 : S4x128x128.Slices ![3, 0, 0] S1x128x128
  bcast_S_S1 : S_.BroadcastsInDim S1 (![] : Fin 0 → Fin S1.rank)
  slices_S32768x512_S32768x128_0_128 : S32768x512.Slices ![0, 128] S32768x128
  slices_S4x131072_S4x16384_0_16384 : S4x131072.Slices ![0, 16384] S4x16384
  slices_S32768x512_S32768x128_0_256 : S32768x512.Slices ![0, 256] S32768x128
  slices_S4x131072_S4x16384_0_32768 : S4x131072.Slices ![0, 32768] S4x16384
  slices_S32768x512_S32768x128_0_384 : S32768x512.Slices ![0, 384] S32768x128
  slices_S4x131072_S4x16384_0_49152 : S4x131072.Slices ![0, 49152] S4x16384
  slices_S4x131072_S4x16384_0_65536 : S4x131072.Slices ![0, 65536] S4x16384
  slices_S4x131072_S4x16384_0_81920 : S4x131072.Slices ![0, 81920] S4x16384
  slices_S4x131072_S4x16384_0_98304 : S4x131072.Slices ![0, 98304] S4x16384
  slices_S4x131072_S4x16384_0_114688 : S4x131072.Slices ![0, 114688] S4x16384
  dot_S32768x128_S128x128_S32768x128_1_0_0_1_n_n_wf : DotDims.WF S32768x128 S128x128 S32768x128 [1] [0] [0] [1] [] []
  scatter_S32768x512_S1_S32768x128_01_n_1_0_wf : ScatterDims.WF S32768x512 S1 S32768x128 [0, 1] [] [1] 0

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def scatter_S32768x512_S1_S32768x128_01_n_1_0 : ScatterDims S32768x512 S1 S32768x128 where
  updateWindowDims := [0, 1]
  insertedWindowDims := []
  scatterDimsToOperandDims := [1]
  indexVectorDim := 0
  wf := scatter_S32768x512_S1_S32768x128_01_n_1_0_wf

class Facts : Prop extends Facts₀ where

variable [Facts]
-- ==== Proof.Spec.lean ====
/-
  The mathematics of the segmented, expert-selected linear layer, stated once over plain index types.

  A row `b` carries an expert id `wid b`; the input row is four segments of 128 entries, the weight row of expert `e`
  is eight 128×128 blocks, the output row four segments of 128 entries. Path `(i, j, k, α)` adds
  `α · (segment i of the row) · (block j of the selected expert)` into output segment `k`; the eight paths are
  `(s, s, s, 1)` and `(s, 4 + s, s + 1, 1/2)` for `s = 0 … 3` (segments counted modulo four).

  One side folds the eight blocks of an expert into a dense 512×512 matrix (`dense`) and sums, over the four
  experts, a mask times the full product (`viaDense`). The other side sums, path by path, a mask-weighted sum of
  128×128 products (`viaPaths`). Over finite entries the two are one real number (proved in the algebra module).
-/
import Idealize.ShloMosaic.PureOps.Ideal
import Idealize.ShloMosaic.Lib.ValueIdx

noncomputable section

namespace Cert.Spec

open Idealize.ShloMosaic Idealize.ShloMosaic.ValueIdx

/-- The input and output arrays `[32768, 512]`. -/
abbrev SX : Shape := ⟨2, ![32768, 512]⟩
/-- The weights `[4, 131072]`: per expert, eight 128×128 blocks in row-major order. -/
abbrev SW : Shape := ⟨2, ![4, 131072]⟩
/-- The expert ids `[32768]`. -/
abbrev SI : Shape := ⟨1, ![32768]⟩
/-- The dense per-expert weights `[4, 512, 512]`. -/
abbrev SD : Shape := ⟨3, ![4, 512, 512]⟩

/-- Entry `u` of segment `s` of row `b`. -/
abbrev xi (b : Fin 32768) (s : Fin 4) (u : Fin 128) : SX.Idx :=
  ix2 b (⟨128 * s.val + u.val, by have := s.isLt; have := u.isLt; omega⟩ : Fin 512)

/-- Entry `(u, v)` of block `j` of expert `e`'s weight row. -/
abbrev wi (e : Fin 4) (j : Fin 8) (u v : Fin 128) : SW.Idx :=
  ix2 e (⟨16384 * j.val + 128 * u.val + v.val, by have := j.isLt; have := u.isLt; have := v.isLt; omega⟩ : Fin 131072)

/-- Entry `(128 s + u, 128 k + v)` of expert `e`'s dense matrix. -/
abbrev di (e : Fin 4) (s : Fin 4) (u : Fin 128) (k : Fin 4) (v : Fin 128) : SD.Idx :=
  ix3 e (⟨128 * s.val + u.val, by have := s.isLt; have := u.isLt; omega⟩ : Fin 512)
    (⟨128 * k.val + v.val, by have := k.isLt; have := v.isLt; omega⟩ : Fin 512)

/-- Every index of a `[32768, 512]` array is an entry of a segment of a row. -/
theorem eq_xi (i : SX.Idx) :
    i = xi (i 0) ⟨(i 1).val / 128, by have h : (i 1).val < 512 := (i 1).isLt; omega⟩ ⟨(i 1).val % 128, Nat.mod_lt _ (by norm_num)⟩ := by
  funext a
  match a with
  | ⟨0, _⟩ => rfl
  | ⟨1, _⟩ => exact Fin.ext (by show (i 1).val = 128 * ((i 1).val / 128) + (i 1).val % 128; omega)

/-- The weight one half. -/
def half : EReal := ((1 / 2 : ℝ) : EReal)

/-- The mask of expert `e`: one where the row's id is `e`, zero elsewhere (any other id selects nothing). -/
def msk (id : BitVec 32) (e : Fin 4) : EReal := if id = BitVec.ofNat 32 e.val then 1 else 0

/-- The dense matrix of expert `e` at `(128 s + u, 128 k + v)`: block `s` on the diagonal `k = s`, half of block
    `4 + s` on the next diagonal `k = s + 1` (modulo four), zero elsewhere. -/
def dense (w : SW.Idx → EReal) (e : Fin 4) (s : Fin 4) (u : Fin 128) (k : Fin 4) (v : Fin 128) : EReal :=
  if k = s then w (wi e ⟨s.val, by have := s.isLt; omega⟩ u v) * 1
  else if k = s + 1 then w (wi e ⟨4 + s.val, by have := s.isLt; omega⟩ u v) * half
  else 0

/-- Row `b` against expert `e`'s dense matrix, at column `128 k + v`. -/
def rowDense (x : SX.Idx → EReal) (w : SW.Idx → EReal) (b : Fin 32768) (e : Fin 4) (k : Fin 4) (v : Fin 128) : EReal :=
  ∑ s : Fin 4, ∑ u : Fin 128, x (xi b s u) * dense w e s u k v

/-- The dense side: the masked products of the four experts, accumulated from zero in order. -/
def viaDense (x : SX.Idx → EReal) (w : SW.Idx → EReal) (wid : SI.Idx → BitVec 32) (b : Fin 32768) (k : Fin 4) (v : Fin 128) : EReal :=
  (((0 + msk (wid (ix1 b)) 0 * rowDense x w b 0 k v) + msk (wid (ix1 b)) 1 * rowDense x w b 1 k v)
    + msk (wid (ix1 b)) 2 * rowDense x w b 2 k v) + msk (wid (ix1 b)) 3 * rowDense x w b 3 k v

/-- Segment `i` of row `b` against block `j` of expert `e`, at column `v` of the block. -/
def seg (x : SX.Idx → EReal) (w : SW.Idx → EReal) (b : Fin 32768) (i : Fin 4) (j : Fin 8) (e : Fin 4) (v : Fin 128) : EReal :=
  ∑ u : Fin 128, x (xi b i u) * w (wi e j u v)

/-- One path's contribution before its weight: the masked segment products of the four experts, from zero in order. -/
def path (x : SX.Idx → EReal) (w : SW.Idx → EReal) (wid : SI.Idx → BitVec 32) (b : Fin 32768) (i : Fin 4) (j : Fin 8) (v : Fin 128) : EReal :=
  (((0 + msk (wid (ix1 b)) 0 * seg x w b i j 0 v) + msk (wid (ix1 b)) 1 * seg x w b i j 1 v)
    + msk (wid (ix1 b)) 2 * seg x w b i j 2 v) + msk (wid (ix1 b)) 3 * seg x w b i j 3 v

/-- The path side at column `128 k + v`: from zero, first the weight-one path `(k, k, k)`, then the weight-half path
    `(k + 3, 4 + (k + 3), k)` (segments modulo four). -/
def viaPaths (x : SX.Idx → EReal) (w : SW.Idx → EReal) (wid : SI.Idx → BitVec 32) (b : Fin 32768) (k : Fin 4) (v : Fin 128) : EReal :=
  (0 + 1 * path x w wid b k ⟨k.val, by have := k.isLt; omega⟩ v)
    + half * path x w wid b (k + 3) ⟨4 + (k + 3).val, by have := (k + 3).isLt; omega⟩ v

/-- The expert ids as a column `[32768, 1]`. -/
abbrev SI1 : Shape := ⟨2, ![32768, 1]⟩

/-- Row `i 0` against the whole dense matrix `d` of expert `e`, at column `i 1`. -/
def rowFull (x : SX.Idx → EReal) (d : SD.Idx → EReal) (e : Fin 4) (i : SX.Idx) : EReal :=
  ∑ r : Fin 512, x (ix2 (i 0) r) * d (ix3 e r (i 1))

/-- The dense side over ANY dense array `d` and id column `idc`: the masked full products of the four experts,
    accumulated from zero in order. -/
def kdense (x : SX.Idx → EReal) (d : SD.Idx → EReal) (idc : SI1.Idx → BitVec 32) (i : SX.Idx) : EReal :=
  (((0 + msk (idc (ix2 (i 0) (0 : Fin 1))) 0 * rowFull x d 0 i) + msk (idc (ix2 (i 0) (0 : Fin 1))) 1 * rowFull x d 1 i)
    + msk (idc (ix2 (i 0) (0 : Fin 1))) 2 * rowFull x d 2 i) + msk (idc (ix2 (i 0) (0 : Fin 1))) 3 * rowFull x d 3 i

/-! ## The three float literals of the two programs, as extended reals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_half : Ideal.ofBits .f32 0x3F000000#32 = half := by
  unfold half
  simp [Ideal.ofBits, Ideal.ieee, -EReal.coe_mul]; norm_num

end Cert.Spec

end
-- ==== Proof.Algebra.lean ====
/-
  Over finite entries the dense side and the path side are one real number.
-/
import proofs.«170114_j59356448030869_1_alg».proof.Proof.Spec

noncomputable section

namespace Cert.Algebra

open Idealize.ShloMosaic Idealize.ShloMosaic.ValueIdx Cert.Spec

/-- A sum over the 512 entries of a row is the sum over its four segments of the sums over each segment's 128 entries. -/
theorem sum_fin512 (g : Fin 512 → EReal) :
    ∑ r : Fin 512, g r = ∑ s : Fin 4, ∑ u : Fin 128, g ⟨128 * s.val + u.val, by have := s.isLt; have := u.isLt; omega⟩ := by
  -- a row index is a pair (segment, entry): r = u + 128 s
  rw [← (finProdFinEquiv : Fin 4 × Fin 128 ≃ Fin 512).sum_comp g, Fintype.sum_prod_type]
  refine Finset.sum_congr rfl (fun s _ => Finset.sum_congr rfl (fun u _ => ?_))
  congr 1
  apply Fin.ext
  show u.val + 128 * s.val = 128 * s.val + u.val
  omega

/-! ### The real-number mirror of the vocabulary -/

/-- A finite sum of real numbers, read in the extended reals, is the sum of the readings. -/
theorem coe_sum {ι : Type} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The mask as a real number. -/
def mskR (id : BitVec 32) (e : Fin 4) : ℝ := if id = BitVec.ofNat 32 e.val then 1 else 0

theorem msk_coe (id : BitVec 32) (e : Fin 4) : msk id e = ((mskR id e : ℝ) : EReal) := by
  unfold msk mskR
  split_ifs <;> simp

/-- The dense matrix over real weights. -/
def denseR (w : SW.Idx → ℝ) (e : Fin 4) (s : Fin 4) (u : Fin 128) (k : Fin 4) (v : Fin 128) : ℝ :=
  if k = s then w (wi e ⟨s.val, by have := s.isLt; omega⟩ u v) * 1
  else if k = s + 1 then w (wi e ⟨4 + s.val, by have := s.isLt; omega⟩ u v) * (1 / 2)
  else 0

theorem dense_coe (w : SW.Idx → ℝ) (e : Fin 4) (s : Fin 4) (u : Fin 128) (k : Fin 4) (v : Fin 128) :
    dense (fun i => ((w i : ℝ) : EReal)) e s u k v = ((denseR w e s u k v : ℝ) : EReal) := by
  unfold dense denseR half
  split_ifs
  · rw [EReal.coe_mul, EReal.coe_one]
  · rw [EReal.coe_mul]
  · rw [EReal.coe_zero]

/-- A row against the dense matrix, over real entries. -/
def rowDenseR (x : SX.Idx → ℝ) (w : SW.Idx → ℝ) (b : Fin 32768) (e : Fin 4) (k : Fin 4) (v : Fin 128) : ℝ :=
  ∑ s : Fin 4, ∑ u : Fin 128, x (xi b s u) * denseR w e s u k v

theorem rowDense_coe (x : SX.Idx → ℝ) (w : SW.Idx → ℝ) (b : Fin 32768) (e : Fin 4) (k : Fin 4) (v : Fin 128) :
    rowDense (fun i => ((x i : ℝ) : EReal)) (fun i => ((w i : ℝ) : EReal)) b e k v
      = ((rowDenseR x w b e k v : ℝ) : EReal) := by
  unfold rowDense rowDenseR
  rw [← coe_sum]
  refine Finset.sum_congr rfl (fun s _ => ?_)
  rw [← coe_sum]
  refine Finset.sum_congr rfl (fun u _ => ?_)
  rw [dense_coe, EReal.coe_mul]

/-- A segment against a block, over real entries. -/
def segR (x : SX.Idx → ℝ) (w : SW.Idx → ℝ) (b : Fin 32768) (i : Fin 4) (j : Fin 8) (e : Fin 4) (v : Fin 128) : ℝ :=
  ∑ u : Fin 128, x (xi b i u) * w (wi e j u v)

theorem seg_coe (x : SX.Idx → ℝ) (w : SW.Idx → ℝ) (b : Fin 32768) (i : Fin 4) (j : Fin 8) (e : Fin 4) (v : Fin 128) :
    seg (fun i => ((x i : ℝ) : EReal)) (fun i => ((w i : ℝ) : EReal)) b i j e v
      = ((segR x w b i j e v : ℝ) : EReal) := by
  unfold seg segR
  rw [← coe_sum]
  refine Finset.sum_congr rfl (fun u _ => ?_)
  rw [EReal.coe_mul]

/-- One path's masked sum over the experts, over real entries. -/
def pathR (x : SX.Idx → ℝ) (w : SW.Idx → ℝ) (wid : SI.Idx → BitVec 32) (b : Fin 32768) (i : Fin 4) (j : Fin 8) (v : Fin 128) : ℝ :=
  (((0 + mskR (wid (ix1 b)) 0 * segR x w b i j 0 v) + mskR (wid (ix1 b)) 1 * segR x w b i j 1 v)
    + mskR (wid (ix1 b)) 2 * segR x w b i j 2 v) + mskR (wid (ix1 b)) 3 * segR x w b i j 3 v

theorem path_coe (x : SX.Idx → ℝ) (w : SW.Idx → ℝ) (wid : SI.Idx → BitVec 32) (b : Fin 32768) (i : Fin 4) (j : Fin 8) (v : Fin 128) :
    path (fun i => ((x i : ℝ) : EReal)) (fun i => ((w i : ℝ) : EReal)) wid b i j v
      = ((pathR x w wid b i j v : ℝ) : EReal) := by
  unfold path pathR
  simp only [seg_coe, msk_coe, ← EReal.coe_mul, ← EReal.coe_add, ← EReal.coe_zero]

/-- The dense side over real entries. -/
def viaDenseR (x : SX.Idx → ℝ) (w : SW.Idx → ℝ) (wid : SI.Idx → BitVec 32) (b : Fin 32768) (k : Fin 4) (v : Fin 128) : ℝ :=
  (((0 + mskR (wid (ix1 b)) 0 * rowDenseR x w b 0 k v) + mskR (wid (ix1 b)) 1 * rowDenseR x w b 1 k v)
    + mskR (wid (ix1 b)) 2 * rowDenseR x w b 2 k v) + mskR (wid (ix1 b)) 3 * rowDenseR x w b 3 k v

theorem viaDense_coe (x : SX.Idx → ℝ) (w : SW.Idx → ℝ) (wid : SI.Idx → BitVec 32) (b : Fin 32768) (k : Fin 4) (v : Fin 128) :
    viaDense (fun i => ((x i : ℝ) : EReal)) (fun i => ((w i : ℝ) : EReal)) wid b k v
      = ((viaDenseR x w wid b k v : ℝ) : EReal) := by
  unfold viaDense viaDenseR
  simp only [rowDense_coe, msk_coe, ← EReal.coe_mul, ← EReal.coe_add, ← EReal.coe_zero]

/-- The path side over real entries. -/
def viaPathsR (x : SX.Idx → ℝ) (w : SW.Idx → ℝ) (wid : SI.Idx → BitVec 32) (b : Fin 32768) (k : Fin 4) (v : Fin 128) : ℝ :=
  (0 + 1 * pathR x w wid b k ⟨k.val, by have := k.isLt; omega⟩ v)
    + (1 / 2) * pathR x w wid b (k + 3) ⟨4 + (k + 3).val, by have := (k + 3).isLt; omega⟩ v

theorem viaPaths_coe (x : SX.Idx → ℝ) (w : SW.Idx → ℝ) (wid : SI.Idx → BitVec 32) (b : Fin 32768) (k : Fin 4) (v : Fin 128) :
    viaPaths (fun i => ((x i : ℝ) : EReal)) (fun i => ((w i : ℝ) : EReal)) wid b k v
      = ((viaPathsR x w wid b k v : ℝ) : EReal) := by
  unfold viaPaths viaPathsR half
  simp only [path_coe, ← EReal.coe_mul, ← EReal.coe_add, ← EReal.coe_zero, ← EReal.coe_one]

/-! ### The identity over the reals -/

/-- For a fixed output segment `k` only two input segments meet a nonzero block of the dense matrix: segment `k`
    (block `k`, weight one) and segment `k + 3` (block `4 + (k + 3)`, weight one half). -/
theorem rowDenseR_eq (x : SX.Idx → ℝ) (w : SW.Idx → ℝ) (b : Fin 32768) (e : Fin 4) (k : Fin 4) (v : Fin 128) :
    rowDenseR x w b e k v
      = segR x w b k ⟨k.val, by have := k.isLt; omega⟩ e v
        + (1 / 2) * segR x w b (k + 3) ⟨4 + (k + 3).val, by have := (k + 3).isLt; omega⟩ e v := by
  -- the three facts about segments counted modulo four that the case split of the dense matrix needs
  have h1 : k ≠ k + 3 := by revert k; decide
  have h2 : k = k + 3 + 1 := by revert k; decide
  have h3 : ∀ s : Fin 4, s ≠ k → s ≠ k + 3 → k ≠ s + 1 := by revert k; decide
  unfold rowDenseR segR
  -- of the four input segments only `k` and `k + 3` contribute
  rw [Finset.sum_eq_add k (k + 3) h1]
  · congr 1
    · -- segment `k` meets the diagonal block, weight one
      refine Finset.sum_congr rfl (fun u _ => ?_)
      unfold denseR
      rw [if_pos rfl, mul_one]
    · -- segment `k + 3` meets the block on the next diagonal, weight one half
      rw [Finset.mul_sum]
      refine Finset.sum_congr rfl (fun u _ => ?_)
      unfold denseR
      rw [if_neg h1, if_pos h2]
      ring
  · -- every other segment meets a zero block
    intro s _ hs
    refine Finset.sum_eq_zero (fun u _ => ?_)
    unfold denseR
    rw [if_neg (fun h => hs.1 h.symm), if_neg (h3 s hs.1 hs.2), mul_zero]
  · intro h; exact absurd (Finset.mem_univ _) h
  · intro h; exact absurd (Finset.mem_univ _) h

/-- Over the reals the dense side equals the path side. -/
theorem viaDenseR_eq_viaPathsR (x : SX.Idx → ℝ) (w : SW.Idx → ℝ) (wid : SI.Idx → BitVec 32) (b : Fin 32768) (k : Fin 4) (v : Fin 128) :
    viaDenseR x w wid b k v = viaPathsR x w wid b k v := by
  unfold viaDenseR viaPathsR pathR
  simp only [rowDenseR_eq]
  ring

/-- With every input entry a real number, the dense side equals the path side. -/
theorem viaDense_eq_viaPaths (x : SX.Idx → EReal) (w : SW.Idx → EReal) (wid : SI.Idx → BitVec 32)
    (hx : ∀ i, ∃ r : ℝ, x i = (r : EReal)) (hw : ∀ i, ∃ r : ℝ, w i = (r : EReal))
    (b : Fin 32768) (k : Fin 4) (v : Fin 128) :
    viaDense x w wid b k v = viaPaths x w wid b k v := by
  choose xr hxr using hx
  choose wr hwr using hw
  obtain rfl : x = fun i => ((xr i : ℝ) : EReal) := funext hxr
  obtain rfl : w = fun i => ((wr i : ℝ) : EReal) := funext hwr
  rw [viaDense_coe, viaPaths_coe, viaDenseR_eq_viaPathsR]

end Cert.Algebra

end
-- ==== Proof.Bridge.lean ====
/-
  The dense side read in segment coordinates: fed a dense array whose entries are `Spec.dense` and an id column whose
  entries are the ids, the masked full products at entry `v` of output segment `k` of row `b` are `Spec.viaDense`
  (a row's 512 products summed segment by segment).
-/
import proofs.«170114_j59356448030869_1_alg».proof.Proof.Spec
import proofs.«170114_j59356448030869_1_alg».proof.Proof.Algebra

noncomputable section

namespace Cert.Bridge

open Idealize.ShloMosaic Idealize.ShloMosaic.ValueIdx Cert.Spec

/-- One expert's full row product, segment by segment. -/
theorem rowFull_eq_rowDense (x : SX.Idx → EReal) (d : SD.Idx → EReal) (w : SW.Idx → EReal)
    (hd : ∀ (e s : Fin 4) (u : Fin 128) (k : Fin 4) (v : Fin 128), d (di e s u k v) = dense w e s u k v)
    (b : Fin 32768) (e k : Fin 4) (v : Fin 128) :
    rowFull x d e (xi b k v) = rowDense x w b e k v := by
  unfold rowFull rowDense
  rw [Cert.Algebra.sum_fin512]
  refine Finset.sum_congr rfl fun s _ => Finset.sum_congr rfl fun u _ => ?_
  show x (xi b s u) * d (di e s u k v) = _
  rw [hd]

/-- The dense side over such arrays is `viaDense`. -/
theorem kdense_eq_viaDense (x : SX.Idx → EReal) (d : SD.Idx → EReal) (idc : SI1.Idx → BitVec 32) (w : SW.Idx → EReal)
    (wid : SI.Idx → BitVec 32)
    (hd : ∀ (e s : Fin 4) (u : Fin 128) (k : Fin 4) (v : Fin 128), d (di e s u k v) = dense w e s u k v)
    (hid : ∀ b : Fin 32768, idc (ix2 b (0 : Fin 1)) = wid (ix1 b))
    (b : Fin 32768) (k : Fin 4) (v : Fin 128) :
    kdense x d idc (xi b k v) = viaDense x w wid b k v := by
  unfold kdense viaDense
  rw [rowFull_eq_rowDense x d w hd b 0 k v, rowFull_eq_rowDense x d w hd b 1 k v,
    rowFull_eq_rowDense x d w hd b 2 k v, rowFull_eq_rowDense x d w hd b 3 k v]
  show (((0 + msk (idc (ix2 b (0 : Fin 1))) 0 * _) + msk (idc (ix2 b (0 : Fin 1))) 1 * _)
    + msk (idc (ix2 b (0 : Fin 1))) 2 * _) + msk (idc (ix2 b (0 : Fin 1))) 3 * _ = _
  rw [hid b]

end Cert.Bridge

end
-- ==== Proof.Finite.lean ====
/-
  The precondition says every float input entry is finite: each is a real number.
-/
import proofs.«170114_j59356448030869_1_alg».proof.Pre_finite_inputs
import proofs.«170114_j59356448030869_1_alg».proof.Proof.Gen.Pre_finite_inputs
import proofs.«170114_j59356448030869_1_alg».proof.Proof.Spec
import Idealize.ShloMosaic.PureOps.Ideal
import Idealize.ShloMosaic.Lib.ReduceAll

noncomputable section

namespace Cert.Finite

open Idealize.ShloMosaic Idealize.ShloMosaic.ValueIdx

/-- The rank-zero shape has exactly one index. -/
instance subsingleton_scalar_idx : Subsingleton Cert.Pre_finite_inputs.S_.Idx :=
  ⟨fun _ _ => funext fun d => d.elim0⟩

/-- The single-precision pattern with all exponent bits set and no fraction bit is plus infinity. -/
theorem ofBits_inf : Ideal.ofBits .f32 0x7F800000#32 = (⊤ : EReal) := by
  simp [Ideal.ofBits, Ideal.ieee]

/-- An extended real whose absolute value `max x (-x)` lies strictly below plus infinity is a real number:
    at `⊤` the absolute value is `⊤`, at `⊥` it is `-⊥ = ⊤`, and `⊤ < ⊤` is false. -/
theorem real_of_abs_lt_top (x : EReal) (hx : Ideal.cmp .olt (max x (-x)) (⊤ : EReal) = 1#1) :
    ∃ r : ℝ, x = (r : EReal) := by
  induction x using EReal.rec with
  | bot => simp [Ideal.cmp] at hx
  | coe r => exact ⟨r, rfl⟩
  | top => simp [Ideal.cmp] at hx

/-- If the finiteness predicate is all ones on `(x0, x1, x2)`, every entry of `x0` and of `x1` is a real number. -/
theorem real_of_pre (x0 : Spec.SX.Idx → EReal) (x1 : Spec.SW.Idx → EReal) (x2 : Spec.SI.Idx → BitVec 32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  -- the final conjunction is one exactly when both of its operands are
  obtain ⟨ha, hb⟩ := IntOp.andi_eq_one.1 h0
  refine ⟨fun i => ?_, fun i => ?_⟩
  · -- a conjunction over all entries that is one is one at each entry
    have e := Host.reduce_andi_all _ _ _ _ _ ha i
    -- at an entry the compared pair is the entry's absolute value and the constant plus infinity
    have e' : Ideal.cmp .olt (max (x0 i) (-(x0 i))) (Ideal.ofBits .f32 0x7F800000#32) = 1#1 := e
    rw [ofBits_inf] at e'
    exact real_of_abs_lt_top (x0 i) e'
  · have e := Host.reduce_andi_all _ _ _ _ _ hb i
    have e' : Ideal.cmp .olt (max (x1 i) (-(x1 i))) (Ideal.ofBits .f32 0x7F800000#32) = 1#1 := e
    rw [ofBits_inf] at e'
    exact real_of_abs_lt_top (x1 i) e'

end Cert.Finite

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelArray.lean ====
/-
  The kernel's output array after the run, index by index: the masked full products of the four experts.

  A grid point `t` holds rows `1024 t … 1024 t + 1023` of the input and of the id column, and the whole dense array.
  Its body leaves in the output block, at `(p, q)`, the sum over the four experts `e`, from zero and in order, of the
  mask of row `p` (one where the row's id is `e`) times the product of row `p` of the input block with column `q` of
  expert `e`'s 512×512 matrix. Rounding the input to the matrix unit's format changes nothing on the extended reals, and
  a product into a zero accumulator is the plain sum over the contracted axis. The 32 blocks tile the output array (row
  `r` lies in block `r / 1024`), so the array ends as that function of the three arrays the region reads.
-/
import proofs.«170114_j59356448030869_1_alg».proof.Proof.Gen.KernelIdeal.Value
import proofs.«170114_j59356448030869_1_alg».proof.Proof.Spec
import proofs.«170114_j59356448030869_1_alg».proof.Proof.LibRowOps
import Idealize.ShloMosaic.Lib.ValueLayout

noncomputable section

namespace Cert.KernelSide

open Idealize.ShloMosaic Idealize.ShloMosaic.ValueIdx Idealize.ShloMosaic.TcCoe Idealize.SL.Sem
open Cert.KernelIdeal Cert.KernelIdeal.Gen

/-! ## One expert's term at an index -/

/-- The mask of an expert as the body computes it — the bit of `id = k`, widened to a word and read as a real — is one
    where the id is `k` and zero elsewhere. -/
theorem maskWord (id k : BitVec 32) :
    (((((IntOp.cmpi .eq id k).setWidth 32).toInt : ℝ)) : EReal) = if id = k then 1 else 0 := by
  by_cases h : id = k
  · subst h
    rw [if_pos rfl]
    have : IntOp.cmpi .eq id id = 1#1 := by simp [IntOp.cmpi]
    rw [this]
    norm_num
  · rw [if_neg h]
    have hb : (id == k) = false := beq_eq_false_iff_ne.mpr h
    have : IntOp.cmpi .eq id k = 0#1 := by simp only [IntOp.cmpi, hb]; rfl
    rw [this]
    norm_num

/-- One expert's term at `(p, q)`, over any left operand `a` and any `[1, 512, 512]` slice `d`: the mask of row `p`
    (its id compared with `k`) times the sum over `r` of `a (p, r) · d (0, r, q)`. -/
theorem term_apply (a : FVec Ideal S1024x512 .bf16) (d : FVec Ideal S1x512x512 .bf16) (ids : IVec S1024x1 32) (k : BitVec 32)
    (h1 : 1 < 32) (hb : S1024x1.Broadcasts S1024x512) (hs : S1x512x512.ShapeCasts S512x512) (p : Fin 1024) (q : Fin 512) :
    mulf (broadcastTo S1024x512 (sitofp (F := Ideal) .f32 (extui 32 (cmpi .eq ids (broadcast S1024x1 k)) h1)) hb)
        (matmul dot_S1024x512_S512x512_S1024x512_1_0_0_1_n_n none a (shapeCast S512x512 d hs) (constant S1024x512 .f32 0x00000000#32))
        (ix2 p q)
      = (if ids (ix2 p (0 : Fin 1)) = k then 1 else 0) * ∑ r : Fin 512, a (ix2 p r) * d (ix3 (0 : Fin 1) r q) := by
  rw [mulf_apply, Cert.RowOps.broadcastTo_a1_ab_apply]
  show (((((IntOp.cmpi .eq (ids (ix2 p (0 : Fin 1))) k).setWidth 32).toInt : ℝ)) : EReal) * _ = _
  rw [maskWord]
  congr 1
  refine (Cert.RowOps.matmul_apply _ none a (shapeCast S512x512 d hs) p q).trans ?_
  refine Finset.sum_congr rfl fun r _ => ?_
  rw [shapeCast_1ab_ab_apply]

theorem zeros2 : (![0, 0] : Fin 2 → Nat) = fun _ => 0 := funext fun a => by fin_cases a <;> rfl

/-- The slice of extents `[1, 512, 512]` at offsets `[e, 0, 0]` of the dense block, read at `(0, r, q)`, is the block at
    `(e, r, q)`: expert `e`'s matrix. -/
theorem ld_expert (x1 : Vec Ideal S4x512x512 .bf16) (e : Fin 4) (off : Fin 3 → Nat) (hoff : off = ![e.val, 0, 0])
    (inb : ∀ a, off a + S1x512x512.size a ≤ S4x512x512.size a) (r q : Fin 512) :
    View.ld x1 (Rect.unit (s := S4x512x512) off S1x512x512.size inb) (ix3 (0 : Fin 1) r q) = x1 (ix3 e r q) := by
  subst hoff
  show x1 _ = x1 _
  refine congrArg x1 (funext fun a => Fin.ext ?_)
  match a with
  | ⟨0, _⟩ => show e.val + 1 * 0 = e.val; omega
  | ⟨1, _⟩ => show 0 + 1 * r.val = r.val; omega
  | ⟨2, _⟩ => show 0 + 1 * q.val = q.val; omega

/-- One expert's term over the blocks themselves: the input block rounded to the matrix unit's format (the identity on
    the extended reals) against expert `e`'s slice of the dense block, masked by the comparison of the ids with `k`. -/
theorem term_full (x0 : FVec Ideal S1024x512 .f32) (x1 : Vec Ideal S4x512x512 .bf16) (ids : IVec S1024x1 32) (k : BitVec 32)
    (e : Fin 4) (off : Fin 3 → Nat) (hoff : off = ![e.val, 0, 0])
    {inb : ∀ a, off a + S1x512x512.size a ≤ S4x512x512.size a} {ht : FTy.bits .bf16 < FTy.bits .f32}
    {h1 : 1 < 32} {hb : S1024x1.Broadcasts S1024x512} {hs : S1x512x512.ShapeCasts S512x512} (p : Fin 1024) (q : Fin 512) :
    mulf (broadcastTo S1024x512 (sitofp (F := Ideal) .f32 (extui 32 (cmpi .eq ids (broadcast S1024x1 k)) h1)) hb)
        (matmul (φ₁ := .bf16) (φ₂ := .bf16) dot_S1024x512_S512x512_S1024x512_1_0_0_1_n_n none (truncf .bf16 x0 ht)
          (shapeCast (α := Ideal .bf16) S512x512 (View.ld x1 (Rect.unit (s := S4x512x512) off S1x512x512.size inb)) hs)
          (constant S1024x512 .f32 0x00000000#32))
        (ix2 p q)
      = (if ids (ix2 p (0 : Fin 1)) = k then 1 else 0) * ∑ r : Fin 512, x0 (ix2 p r) * x1 (ix3 e r q) := by
  rw [term_apply]
  congr 1
  refine Finset.sum_congr rfl fun r _ => ?_
  rw [ld_expert x1 e off hoff, truncf_apply]

/-! ## The body's result at an index -/

/-- What the body leaves in the output block at `(p, q)`, over any three input blocks: from zero, expert by expert, the
    mask of row `p` times row `p` of the input block against the expert's matrix at column `q`. -/
theorem out_apply (x0 : Vec Ideal S1024x512 .f32) (x1 : Vec Ideal S4x512x512 .bf16) (x2 : Vec Ideal S1024x1 .i32)
    (p : Fin 1024) (q : Fin 512) :
    out0_3 x0 x1 x2 (ix2 p q)
      = (((0 + Spec.msk (x2 (ix2 p (0 : Fin 1))) 0 * ∑ r : Fin 512, x0 (ix2 p r) * x1 (ix3 (0 : Fin 4) r q))
          + Spec.msk (x2 (ix2 p (0 : Fin 1))) 1 * ∑ r : Fin 512, x0 (ix2 p r) * x1 (ix3 (1 : Fin 4) r q))
          + Spec.msk (x2 (ix2 p (0 : Fin 1))) 2 * ∑ r : Fin 512, x0 (ix2 p r) * x1 (ix3 (2 : Fin 4) r q))
          + Spec.msk (x2 (ix2 p (0 : Fin 1))) 3 * ∑ r : Fin 512, x0 (ix2 p r) * x1 (ix3 (3 : Fin 4) r q) := by
  unfold out0_3
  rw [View.canon_unit_zero zeros2]
  simp only [View.ld_unit_zero (S := S1024x512) zeros2, View.ld_unit_zero (S := S1024x1) zeros2]
  unfold k0_pay1 k0_pay4 k0_pay3 k0_pay2
  dsimp only
  rw [shapeCast_self, addf_apply, addf_apply, addf_apply, addf_apply,
    term_full x0 x1 x2 0#32 0 ![0, 0, 0] rfl, term_full x0 x1 x2 1#32 1 ![1, 0, 0] rfl,
    term_full x0 x1 x2 2#32 2 ![2, 0, 0] rfl, term_full x0 x1 x2 3#32 3 ![3, 0, 0] rfl, broadcast_apply]
  show Ideal.ofBits .f32 0x00000000#32 + _ + _ + _ + _ = _
  rw [Spec.ofBits_zero]
  rfl

/-! ## The blocks of a grid point, read off the arrays -/

section Blocks

variable (m : (ℓ : Loc nD τ sig) → Buf (Elt Ideal) ℓ)

/-- The index maps over the 32 grid points: the three row windows (input, ids, output) sit at block `(t, 0)`, the dense
    window at block `(0, 0, 0)`. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the block at point `t` is row `1024 t + p` of the array. -/
abbrev rowAt (t : Fin cfg0.N) (p : Fin 1024) : Fin 32768 :=
  ⟨1024 * t.val + p.val, by have := t.isLt; have hN : cfg0.N = 32 := N_0; have := p.isLt; omega⟩

/-- The input block at point `t`, at `(p, r)`, is the input array at `(1024 t + p, r)`. -/
theorem xblk_apply (c : Dev nD) (t : Fin cfg0.N) (p : Fin 1024) (r : Fin 512) :
    (iblk m c 0 t : Vec Ideal S1024x512 .f32) (ix2 p r) = (V m c main_arg0 : S32768x512.Idx → EReal) (ix2 (rowAt t p) r) := by
  obtain ⟨e0, e1, -⟩ := idx_facts t
  show V m c main_arg0 (((cfg0.win 0).blk t).view.emb (ix2 p r)) = V m c main_arg0 _
  refine congrArg (V m c main_arg0) (funext fun a => Fin.ext ?_)
  match a with
  | ⟨0, _⟩ => show win0_0.index t (0 : Fin 2) * 1024 + 1 * p.val = 1024 * t.val + p.val; omega
  | ⟨1, _⟩ => show win0_0.index t (1 : Fin 2) * 512 + 1 * r.val = r.val; omega

/-- The dense block at every point is the whole dense array. -/
theorem dblk_apply (c : Dev nD) (t : Fin cfg0.N) (e : Fin 4) (r q : Fin 512) :
    (iblk m c 1 t : Vec Ideal S4x512x512 .bf16) (ix3 e r q) = (V m c main_v65 : S4x512x512.Idx → EReal) (ix3 e r q) := by
  obtain ⟨-, -, e0, e1, e2, -⟩ := idx_facts t
  show V m c main_v65 (((cfg0.win 1).blk t).view.emb (ix3 e r q)) = V m c main_v65 _
  refine congrArg (V m c main_v65) (funext fun a => Fin.ext ?_)
  match a with
  | ⟨0, _⟩ => show win0_1.index t (0 : Fin 3) * 4 + 1 * e.val = e.val; omega
  | ⟨1, _⟩ => show win0_1.index t (1 : Fin 3) * 512 + 1 * r.val = r.val; omega
  | ⟨2, _⟩ => show win0_1.index t (2 : Fin 3) * 512 + 1 * q.val = q.val; omega

/-- The id block at point `t`, at `(p, 0)`, is the id column at `(1024 t + p, 0)`. -/
theorem idblk_apply (c : Dev nD) (t : Fin cfg0.N) (p : Fin 1024) :
    (iblk m c 2 t : Vec Ideal S1024x1 .i32) (ix2 p (0 : Fin 1)) = (V m c main_v66 : S32768x1.Idx → BitVec 32) (ix2 (rowAt t p) (0 : Fin 1)) := by
  obtain ⟨-, -, -, -, -, e0, e1, -⟩ := idx_facts t
  show V m c main_v66 (((cfg0.win 2).blk t).view.emb (ix2 p (0 : Fin 1))) = V m c main_v66 _
  refine congrArg (V m c main_v66) (funext fun a => Fin.ext ?_)
  match a with
  | ⟨0, _⟩ => show win0_2.index t (0 : Fin 2) * 1024 + 1 * p.val = 1024 * t.val + p.val; omega
  | ⟨1, _⟩ => show win0_2.index t (1 : Fin 2) * 1 + 1 * 0 = 0; omega

/-! ## From the blocks to the array -/

/-- What grid point `t` writes back is block `t` of the dense-side function of the three arrays the region reads. -/
theorem flushed_eq (c : Dev nD) (t : Fin cfg0.N) :
    (dats m 0 c).flushed 3 t = ((cfg0.win 3).blk t).view.read (Elt Ideal)
      (Spec.kdense (V m c main_arg0 : S32768x512.Idx → EReal) (V m c main_v65 : S4x512x512.Idx → EReal)
        (V m c main_v66 : S32768x1.Idx → BitVec 32)) := by
  rw [Value.flushed3]
  funext j
  obtain ⟨p, q, rfl⟩ : ∃ (p : Fin 1024) (q : Fin 512), j = ix2 p q := ⟨j 0, j 1, eq_ix2 j⟩
  obtain ⟨-, -, -, -, -, -, -, e0, e1⟩ := idx_facts t
  have hemb : ((cfg0.win 3).blk t).view.emb (ix2 p q) = (ix2 (rowAt t p) q : S32768x512.Idx) := by
    refine funext fun a => Fin.ext ?_
    match a with
    | ⟨0, _⟩ => show win0_3.index t (0 : Fin 2) * 1024 + 1 * p.val = 1024 * t.val + p.val; omega
    | ⟨1, _⟩ => show win0_3.index t (1 : Fin 2) * 512 + 1 * q.val = q.val; omega
  show out0_3 (iblk m c 0 t) (iblk m c 1 t) (iblk m c 2 t) (ix2 p q)
    = Spec.kdense (V m c main_arg0 : S32768x512.Idx → EReal) (V m c main_v65 : S4x512x512.Idx → EReal)
        (V m c main_v66 : S32768x1.Idx → BitVec 32) (((cfg0.win 3).blk t).view.emb (ix2 p q))
  rw [hemb]
  refine (out_apply (iblk m c 0 t) (iblk m c 1 t) (iblk m c 2 t) p q).trans ?_
  rw [idblk_apply m c t p]
  simp only [xblk_apply m c t p, dblk_apply m c t]
  rfl

/-- An index of the array is in point `t`'s block iff each coordinate is in the block's range on its axis. -/
theorem mem_blk (t : Fin cfg0.N) (i : S32768x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v67).slice (win0_3.rect t)).set ↔ _
  rw [View.set_slice_whole, Rect.mem_set_unit]
  exact Iff.rfl

/-- Every index is in the block of the point `row / 1024`: the output's 32 blocks cover the array. -/
theorem covered (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 32 := N_0
  let t : Fin cfg0.N := ⟨(i 0).val / 1024, by omega⟩
  obtain ⟨-, -, -, -, -, -, -, e0, e1⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

end Blocks

/-- After the run the output array, at every index, is the dense-side function of the three arrays the region reads:
    the input, the dense weights and the id column as the region finds them. -/
theorem kernel_array (m : (ℓ : Loc nD τ sig) → Buf (Elt Ideal) ℓ) (c : Dev nD) :
    ((dats m 0 c).arrAt 3 cfg0.N : S32768x512.Idx → EReal)
      = Spec.kdense (V m c main_arg0 : S32768x512.Idx → EReal) (V m c main_v65 : S4x512x512.Idx → EReal)
          (V m c main_v66 : S32768x1.Idx → BitVec 32) :=
  (dats m 0 c).arrAt_eq_of_cover 3 _ (fun t _ => flushed_eq m c t) covered

end Cert.KernelSide

end
-- ==== Proof.LibScatter.lean ====
/-
  General lemmas: a host `scatter` read at an index.

  `Host.scatter` folds over the update indices in row-major order; each update index `j` lands at the operand index
  `resultIdx? j` (or nowhere). When at most one update index lands at `i`, the fold's value at `i` is the body applied
  once to the operand's entry and that update's entry (`scatter_hit`); when none lands there it is the operand's entry
  (`scatter_miss`).

  Two layouts are then read in coordinates, both with every axis of the updates a window axis and ONE start index:
  * a `[E, P, Q]` operand, `[E, p, q]` updates and a start `(R, C)` on axes 1 and 2: the update `(e, u, v)` lands at
    `(e, R + u, C + v)`;
  * a `[B, Q]` operand, `[B, q]` updates and a start `C` on axis 1: the update `(b, v)` lands at `(b, C + v)`.
-/
import Idealize.ShloMosaic.PureOps.ShapeOps
import Idealize.ShloMosaic.Lib.ValueIdx

noncomputable section

namespace Cert.ScatterLib

open Idealize.ShloMosaic Idealize.ShloMosaic.ValueIdx

/-! ## A fold of pointwise overwrites, read at one index -/

section Fold

variable {ι α κ : Type} [DecidableEq ι]

/-- If no step of the fold lands at `i`, the value at `i` is untouched. -/
theorem foldl_at_miss (g : κ → Option ι) (f : α → α → α) (val : κ → α) (stp : (ι → α) → κ → (ι → α))
    (hs : ∀ r k i0, g k = some i0 → ∀ i', stp r k i' = if i' = i0 then f (r i0) (val k) else r i')
    (hn : ∀ r k, g k = none → stp r k = r) (i : ι) :
    ∀ (l : List κ) (r : ι → α), (∀ k ∈ l, g k ≠ some i) → l.foldl stp r i = r i
  | [], _, _ => rfl
  | k :: l, r, h => by
    rw [List.foldl_cons, foldl_at_miss g f val stp hs hn i l (stp r k) (fun k' hk' => h k' (List.mem_cons_of_mem _ hk'))]
    cases hg : g k with
    | none => rw [hn r k hg]
    | some i0 =>
      rw [hs r k i0 hg i, if_neg]
      intro hi
      exact h k (List.mem_cons_self ..) (by rw [hg, hi])

/-- If exactly one step `k0` of a duplicate-free fold lands at `i`, the value at `i` is the body applied once. -/
theorem foldl_at_hit (g : κ → Option ι) (f : α → α → α) (val : κ → α) (stp : (ι → α) → κ → (ι → α))
    (hs : ∀ r k i0, g k = some i0 → ∀ i', stp r k i' = if i' = i0 then f (r i0) (val k) else r i')
    (hn : ∀ r k, g k = none → stp r k = r) (i : ι) (k0 : κ) (hk0 : g k0 = some i) :
    ∀ (l : List κ) (r : ι → α), l.Nodup → k0 ∈ l → (∀ k ∈ l, g k = some i → k = k0) → l.foldl stp r i = f (r i) (val k0)
  | [], _, _, hmem, _ => absurd hmem (List.not_mem_nil)
  | k :: l, r, hnd, hmem, huniq => by
    rw [List.foldl_cons]
    have hnd' := List.nodup_cons.1 hnd
    by_cases hk : k = k0
    · subst hk
      rw [foldl_at_miss g f val stp hs hn i l (stp r k)
        (fun k' hk' hg' => hnd'.1 ((huniq k' (List.mem_cons_of_mem _ hk') hg') ▸ hk'))]
      rw [hs r k i hk0 i, if_pos rfl]
    · have hmem' : k0 ∈ l := (List.mem_cons.1 hmem).resolve_left (fun h => hk h.symm)
      rw [foldl_at_hit g f val stp hs hn i k0 hk0 l (stp r k) hnd'.2 hmem'
        (fun k' hk' => huniq k' (List.mem_cons_of_mem _ hk'))]
      have hkeep : stp r k i = r i := by
        cases hg : g k with
        | none => rw [hn r k hg]
        | some i0 =>
          rw [hs r k i0 hg i, if_neg]
          intro hi
          exact hk (huniq k (List.mem_cons_self ..) (by rw [hg, hi]))
      rw [hkeep]

end Fold

/-! ## The scatter at an index -/

section Scatter

variable {s si u : Shape} {α : Type} {w : ℕ}

/-- No update index lands at `i`: the scatter leaves the operand's entry. -/
theorem scatter_miss (d : ScatterDims s si u) (f : α → α → α) (x : s.Idx → α) (idx : IVec si w) (upd : u.Idx → α) (i : s.Idx)
    (h : ∀ j : u.Idx, d.resultIdx? j idx ≠ some i) : Host.scatter d f x idx upd i = x i := by
  unfold Host.scatter
  exact foldl_at_miss (fun n => d.resultIdx? (u.rowMajor.symm n) idx) f (fun n => upd (u.rowMajor.symm n)) _
    (by intro r k i0 hk i'; simp only [hk]) (by intro r k hk; simp only [hk]) i _ x (fun k _ => h _)

/-- Exactly the update index `j` lands at `i`: the scatter's entry is the body of the operand's and that update's. -/
theorem scatter_hit (d : ScatterDims s si u) (f : α → α → α) (x : s.Idx → α) (idx : IVec si w) (upd : u.Idx → α) (i : s.Idx)
    (j : u.Idx) (hj : d.resultIdx? j idx = some i) (huniq : ∀ j' : u.Idx, d.resultIdx? j' idx = some i → j' = j) :
    Host.scatter d f x idx upd i = f (x i) (upd j) := by
  unfold Host.scatter
  refine Eq.trans (foldl_at_hit (fun n => d.resultIdx? (u.rowMajor.symm n) idx) f (fun n => upd (u.rowMajor.symm n)) _
    (by intro r k i0 hk i'; simp only [hk]) (by intro r k hk; simp only [hk]) i (u.rowMajor j) ?_
    (List.finRange u.numel) x (List.nodup_finRange _) (List.mem_finRange _) ?_) ?_
  · show d.resultIdx? (u.rowMajor.symm (u.rowMajor j)) idx = some i
    rw [Equiv.symm_apply_apply]; exact hj
  · intro k _ hk
    rw [← huniq _ hk, Equiv.apply_symm_apply]
  · show f (x i) (upd (u.rowMajor.symm (u.rowMajor j))) = _
    rw [Equiv.symm_apply_apply]

/-- Where an update index lands, from its coordinates axis by axis. -/
theorem resultIdx?_eq (d : ScatterDims s si u) (j : u.Idx) (idx : IVec si w) (tgt : Fin s.rank → ℕ)
    (hall : ∀ a, d.start j idx a + (d.window j a : ℤ) = (tgt a : ℤ)) (hlt : ∀ a, tgt a < s.size a) :
    d.resultIdx? j idx = some (fun a => ⟨tgt a, hlt a⟩) := by
  unfold ScatterDims.resultIdx?
  rw [dif_pos (fun a => by rw [hall a]; exact ⟨Int.natCast_nonneg _, by exact_mod_cast hlt a⟩)]
  refine congrArg some (funext fun a => Fin.ext ?_)
  show (d.start j idx a + (d.window j a : ℤ)).toNat = tgt a
  rw [hall a, Int.toNat_natCast]

end Scatter

/-! ## A `[E, P, Q]` operand, `[E, p, q]` updates, one start index `(R, C)` on axes 1 and 2 -/

section Block3

variable {α : Type} {E P Q p q : ℕ}

/-- The dimension numbers: every update axis a window axis, the start index's two components on axes 1 and 2. -/
abbrev dims3 (E P Q p q : ℕ) (wf : ScatterDims.WF ⟨3, ![E, P, Q]⟩ ⟨1, ![2]⟩ ⟨3, ![E, p, q]⟩ [0, 1, 2] [] [1, 2] 0) :
    ScatterDims ⟨3, ![E, P, Q]⟩ ⟨1, ![2]⟩ ⟨3, ![E, p, q]⟩ := ⟨[0, 1, 2], [], [1, 2], 0, wf⟩

/-- Every update axis is a window axis: the window coordinate on axis `a` is the update index's own. -/
theorem window3 (wf) (j : (⟨3, ![E, p, q]⟩ : Shape).Idx) (a : Fin 3) :
    (dims3 E P Q p q wf).window j a = (j a).val := by
  match a with
  | ⟨0, _⟩ => rfl
  | ⟨1, _⟩ => rfl
  | ⟨2, _⟩ => rfl

/-- Component `c` of the start index is read at position `c` of the index vector. -/
theorem siIdx3 (wf) (j : (⟨3, ![E, p, q]⟩ : Shape).Idx) (c : Fin 2) :
    (dims3 E P Q p q wf).siIdx j ⟨c.val, c.isLt⟩ = ix1 c := by
  funext b
  match b with
  | ⟨0, _⟩ => rfl

/-- Axis 0 has no start component. -/
theorem start3_0 (wf) (j : (⟨3, ![E, p, q]⟩ : Shape).Idx) (idx : IVec ⟨1, ![2]⟩ 32) :
    (dims3 E P Q p q wf).start j idx 0 = 0 := by
  unfold ScatterDims.start
  rw [dif_neg (show ¬ (0 : Fin 3) ∈ ([1, 2] : List (Fin 3)) from by decide)]

/-- Axis 1 starts at the index vector's first component. -/
theorem start3_1 (wf) (j : (⟨3, ![E, p, q]⟩ : Shape).Idx) (idx : IVec ⟨1, ![2]⟩ 32) :
    (dims3 E P Q p q wf).start j idx 1 = (idx (ix1 (0 : Fin 2))).toInt := by
  unfold ScatterDims.start
  rw [dif_pos (show (1 : Fin 3) ∈ ([1, 2] : List (Fin 3)) from by decide)]
  exact congrArg (fun i => (idx i).toInt) (siIdx3 wf j 0)

/-- Axis 2 starts at the index vector's second component. -/
theorem start3_2 (wf) (j : (⟨3, ![E, p, q]⟩ : Shape).Idx) (idx : IVec ⟨1, ![2]⟩ 32) :
    (dims3 E P Q p q wf).start j idx 2 = (idx (ix1 (1 : Fin 2))).toInt := by
  unfold ScatterDims.start
  rw [dif_pos (show (2 : Fin 3) ∈ ([1, 2] : List (Fin 3)) from by decide)]
  exact congrArg (fun i => (idx i).toInt) (siIdx3 wf j 1)

/-- Where the update index `j` lands. -/
theorem resultIdx3 (wf) (j : (⟨3, ![E, p, q]⟩ : Shape).Idx) (idx : IVec ⟨1, ![2]⟩ 32) (R C : ℕ)
    (hR : (idx (ix1 (0 : Fin 2))).toInt = R) (hC : (idx (ix1 (1 : Fin 2))).toInt = C) (hP : R + p ≤ P) (hQ : C + q ≤ Q) :
    (dims3 E P Q p q wf).resultIdx? j idx
      = some (ix3 (j 0) (⟨R + (j 1).val, by have h : (j 1).val < p := (j 1).isLt; omega⟩ : Fin P)
          (⟨C + (j 2).val, by have h : (j 2).val < q := (j 2).isLt; omega⟩ : Fin Q)) := by
  have h0 : (j 0).val < E := (j 0).isLt
  have h1 : (j 1).val < p := (j 1).isLt
  have h2 : (j 2).val < q := (j 2).isLt
  rw [resultIdx?_eq (dims3 E P Q p q wf) j idx (fun a => match a with | ⟨0, _⟩ => (j 0).val | ⟨1, _⟩ => R + (j 1).val | ⟨2, _⟩ => C + (j 2).val)
    (fun a => by
      match a with
      | ⟨0, _⟩ => rw [window3]; show (dims3 E P Q p q wf).start j idx 0 + _ = _; rw [start3_0]; simp
      | ⟨1, _⟩ => rw [window3]; show (dims3 E P Q p q wf).start j idx 1 + _ = _; rw [start3_1, hR]; push_cast; rfl
      | ⟨2, _⟩ => rw [window3]; show (dims3 E P Q p q wf).start j idx 2 + _ = _; rw [start3_2, hC]; push_cast; rfl)
    (fun a => by
      match a with
      | ⟨0, _⟩ => exact h0
      | ⟨1, _⟩ => show R + (j 1).val < P; omega
      | ⟨2, _⟩ => show C + (j 2).val < Q; omega)]
  refine congrArg some (funext fun a => ?_)
  match a with
  | ⟨0, _⟩ => rfl
  | ⟨1, _⟩ => rfl
  | ⟨2, _⟩ => rfl

/-- Inside the block `[R, R + p) × [C, C + q)` the scatter's entry is the body of the operand's entry and the update's. -/
theorem scatter_block3_hit (wf) (f : α → α → α) (x : (⟨3, ![E, P, Q]⟩ : Shape).Idx → α) (idx : IVec ⟨1, ![2]⟩ 32)
    (upd : (⟨3, ![E, p, q]⟩ : Shape).Idx → α) (R C : ℕ)
    (hR : (idx (ix1 (0 : Fin 2))).toInt = R) (hC : (idx (ix1 (1 : Fin 2))).toInt = C) (hP : R + p ≤ P) (hQ : C + q ≤ Q)
    (e : Fin E) (r : Fin P) (c : Fin Q) (a : Fin p) (b : Fin q) (hr : r.val = R + a.val) (hc : c.val = C + b.val) :
    Host.scatter (dims3 E P Q p q wf) f x idx upd (ix3 e r c) = f (x (ix3 e r c)) (upd (ix3 e a b)) := by
  refine scatter_hit _ f x idx upd (ix3 e r c) (ix3 e a b) ?_ ?_
  · rw [resultIdx3 wf (ix3 e a b) idx R C hR hC hP hQ]
    refine congrArg some (funext fun ax => ?_)
    match ax with
    | ⟨0, _⟩ => rfl
    | ⟨1, _⟩ => exact Fin.ext hr.symm
    | ⟨2, _⟩ => exact Fin.ext hc.symm
  · intro j' hj'
    rw [resultIdx3 wf j' idx R C hR hC hP hQ] at hj'
    have h := Option.some.inj hj'
    have h0 : (j' 0).val = e.val := congrArg Fin.val (congrFun h 0)
    have h1 : R + (j' 1).val = r.val := congrArg Fin.val (congrFun h 1)
    have h2 : C + (j' 2).val = c.val := congrArg Fin.val (congrFun h 2)
    funext ax
    match ax with
    | ⟨0, _⟩ => exact Fin.ext h0
    | ⟨1, _⟩ => exact Fin.ext (by show (j' 1).val = a.val; omega)
    | ⟨2, _⟩ => exact Fin.ext (by show (j' 2).val = b.val; omega)

/-- Outside the block the scatter leaves the operand's entry. -/
theorem scatter_block3_miss (wf) (f : α → α → α) (x : (⟨3, ![E, P, Q]⟩ : Shape).Idx → α) (idx : IVec ⟨1, ![2]⟩ 32)
    (upd : (⟨3, ![E, p, q]⟩ : Shape).Idx → α) (R C : ℕ)
    (hR : (idx (ix1 (0 : Fin 2))).toInt = R) (hC : (idx (ix1 (1 : Fin 2))).toInt = C) (hP : R + p ≤ P) (hQ : C + q ≤ Q)
    (e : Fin E) (r : Fin P) (c : Fin Q) (hout : r.val < R ∨ R + p ≤ r.val ∨ c.val < C ∨ C + q ≤ c.val) :
    Host.scatter (dims3 E P Q p q wf) f x idx upd (ix3 e r c) = x (ix3 e r c) := by
  refine scatter_miss _ f x idx upd (ix3 e r c) fun j hj => ?_
  rw [resultIdx3 wf j idx R C hR hC hP hQ] at hj
  have h := Option.some.inj hj
  have h1 : R + (j 1).val = r.val := congrArg Fin.val (congrFun h 1)
  have h2 : C + (j 2).val = c.val := congrArg Fin.val (congrFun h 2)
  have b1 : (j 1).val < p := (j 1).isLt
  have b2 : (j 2).val < q := (j 2).isLt
  omega

end Block3

/-! ## A `[B, Q]` operand, `[B, q]` updates, one start index `C` on axis 1 -/

section Cols2

variable {α : Type} {B Q q : ℕ}

/-- The dimension numbers: both update axes window axes, the start index's one component on axis 1. -/
abbrev dims2 (B Q q : ℕ) (wf : ScatterDims.WF ⟨2, ![B, Q]⟩ ⟨1, ![1]⟩ ⟨2, ![B, q]⟩ [0, 1] [] [1] 0) :
    ScatterDims ⟨2, ![B, Q]⟩ ⟨1, ![1]⟩ ⟨2, ![B, q]⟩ := ⟨[0, 1], [], [1], 0, wf⟩

/-- Both update axes are window axes: the window coordinate on axis `a` is the update index's own. -/
theorem window2 (wf) (j : (⟨2, ![B, q]⟩ : Shape).Idx) (a : Fin 2) :
    (dims2 B Q q wf).window j a = (j a).val := by
  match a with
  | ⟨0, _⟩ => rfl
  | ⟨1, _⟩ => rfl

/-- The start index's one component is read at position 0 of the index vector. -/
theorem siIdx2 (wf) (j : (⟨2, ![B, q]⟩ : Shape).Idx) :
    (dims2 B Q q wf).siIdx j ⟨0, Nat.one_pos⟩ = ix1 (0 : Fin 1) := by
  funext b
  match b with
  | ⟨0, _⟩ => rfl

/-- Axis 0 has no start component. -/
theorem start2_0 (wf) (j : (⟨2, ![B, q]⟩ : Shape).Idx) (idx : IVec ⟨1, ![1]⟩ 32) :
    (dims2 B Q q wf).start j idx 0 = 0 := by
  unfold ScatterDims.start
  rw [dif_neg (show ¬ (0 : Fin 2) ∈ ([1] : List (Fin 2)) from by decide)]

/-- Axis 1 starts at the index vector's component. -/
theorem start2_1 (wf) (j : (⟨2, ![B, q]⟩ : Shape).Idx) (idx : IVec ⟨1, ![1]⟩ 32) :
    (dims2 B Q q wf).start j idx 1 = (idx (ix1 (0 : Fin 1))).toInt := by
  unfold ScatterDims.start
  rw [dif_pos (show (1 : Fin 2) ∈ ([1] : List (Fin 2)) from by decide)]
  exact congrArg (fun i => (idx i).toInt) (siIdx2 wf j)

/-- Where the update index `j` lands. -/
theorem resultIdx2 (wf) (j : (⟨2, ![B, q]⟩ : Shape).Idx) (idx : IVec ⟨1, ![1]⟩ 32) (C : ℕ)
    (hC : (idx (ix1 (0 : Fin 1))).toInt = C) (hQ : C + q ≤ Q) :
    (dims2 B Q q wf).resultIdx? j idx
      = some (ix2 (j 0) (⟨C + (j 1).val, by have h : (j 1).val < q := (j 1).isLt; omega⟩ : Fin Q)) := by
  have h0 : (j 0).val < B := (j 0).isLt
  have h1 : (j 1).val < q := (j 1).isLt
  rw [resultIdx?_eq (dims2 B Q q wf) j idx (fun a => match a with | ⟨0, _⟩ => (j 0).val | ⟨1, _⟩ => C + (j 1).val)
    (fun a => by
      match a with
      | ⟨0, _⟩ => rw [window2]; show (dims2 B Q q wf).start j idx 0 + _ = _; rw [start2_0]; simp
      | ⟨1, _⟩ => rw [window2]; show (dims2 B Q q wf).start j idx 1 + _ = _; rw [start2_1, hC]; push_cast; rfl)
    (fun a => by
      match a with
      | ⟨0, _⟩ => exact h0
      | ⟨1, _⟩ => show C + (j 1).val < Q; omega)]
  refine congrArg some (funext fun a => ?_)
  match a with
  | ⟨0, _⟩ => rfl
  | ⟨1, _⟩ => rfl

/-- Inside the columns `[C, C + q)` the scatter's entry is the body of the operand's entry and the update's. -/
theorem scatter_cols2_hit (wf) (f : α → α → α) (x : (⟨2, ![B, Q]⟩ : Shape).Idx → α) (idx : IVec ⟨1, ![1]⟩ 32)
    (upd : (⟨2, ![B, q]⟩ : Shape).Idx → α) (C : ℕ) (hC : (idx (ix1 (0 : Fin 1))).toInt = C) (hQ : C + q ≤ Q)
    (b : Fin B) (c : Fin Q) (v : Fin q) (hc : c.val = C + v.val) :
    Host.scatter (dims2 B Q q wf) f x idx upd (ix2 b c) = f (x (ix2 b c)) (upd (ix2 b v)) := by
  refine scatter_hit _ f x idx upd (ix2 b c) (ix2 b v) ?_ ?_
  · rw [resultIdx2 wf (ix2 b v) idx C hC hQ]
    refine congrArg some (funext fun ax => ?_)
    match ax with
    | ⟨0, _⟩ => rfl
    | ⟨1, _⟩ => exact Fin.ext hc.symm
  · intro j' hj'
    rw [resultIdx2 wf j' idx C hC hQ] at hj'
    have h := Option.some.inj hj'
    have h0 : (j' 0).val = b.val := congrArg Fin.val (congrFun h 0)
    have h1 : C + (j' 1).val = c.val := congrArg Fin.val (congrFun h 1)
    funext ax
    match ax with
    | ⟨0, _⟩ => exact Fin.ext h0
    | ⟨1, _⟩ => exact Fin.ext (by show (j' 1).val = v.val; omega)

/-- Outside those columns the scatter leaves the operand's entry. -/
theorem scatter_cols2_miss (wf) (f : α → α → α) (x : (⟨2, ![B, Q]⟩ : Shape).Idx → α) (idx : IVec ⟨1, ![1]⟩ 32)
    (upd : (⟨2, ![B, q]⟩ : Shape).Idx → α) (C : ℕ) (hC : (idx (ix1 (0 : Fin 1))).toInt = C) (hQ : C + q ≤ Q)
    (b : Fin B) (c : Fin Q) (hout : c.val < C ∨ C + q ≤ c.val) :
    Host.scatter (dims2 B Q q wf) f x idx upd (ix2 b c) = x (ix2 b c) := by
  refine scatter_miss _ f x idx upd (ix2 b c) fun j hj => ?_
  rw [resultIdx2 wf j idx C hC hQ] at hj
  have h := Option.some.inj hj
  have h1 : C + (j 1).val = c.val := congrArg Fin.val (congrFun h 1)
  have b1 : (j 1).val < q := (j 1).isLt
  omega

end Cols2

end Cert.ScatterLib

end
-- ==== Proof.DenseWeights.lean ====
/-
  The dense weights and the id column as the kernel's region finds them, index by index.

  The host folds the eight 128×128 weight blocks of every expert into a `[4, 512, 512]` array of zeros: eight scatters,
  each writing one scaled block at a constant start `(row, column)`. Read at `(e, 128 s + u, 128 k + v)`, scatter number
  `n` changes the entry exactly when `(s, k)` is its block; so the array is `Spec.dense`: block `s` on the diagonal,
  half of block `4 + s` on the next diagonal (modulo four), zero elsewhere. The host operations are read in nine
  stretches, one per scatter and a last one for the change of format, each over arbitrary contents before it.
-/
import proofs.«170114_j59356448030869_1_alg».proof.Proof.Gen.KernelIdeal.Frame
import proofs.«170114_j59356448030869_1_alg».proof.Proof.Spec
import proofs.«170114_j59356448030869_1_alg».proof.Proof.LibScatter
import Idealize.ShloMosaic.Lib.Pipeline.Value
import Idealize.ShloMosaic.Lib.ValueIdx
import Idealize.ShloMosaic.Lib.IdealHost
import Idealize.ShloMosaic.Lib.StableHlo.Run

noncomputable section

namespace Cert.KernelSide

open Idealize.ShloMosaic Idealize.ShloMosaic.ValueIdx Idealize.ShloMosaic.TcCoe Idealize.SL.Sem
open Cert.KernelIdeal Cert.KernelIdeal.Gen

/-! ## One scatter, read at an index -/

/-- The scaled block a scatter writes: columns `[off, off + 16384)` of each expert's weight row as a 128×128 matrix,
    every entry times the constant with bit pattern `cst`. -/
def blk (w : S4x131072.Idx → EReal) (off : ℕ) (hs : S4x131072.Slices ![0, off] S4x16384) (cst : BitVec 32) : S4x128x128.Idx → EReal :=
  mulf (shapeCast S4x128x128 (extractStridedSlice S4x16384 ![0, off] w hs) shapeCasts_S4x16384_S4x128x128 : FVec Ideal S4x128x128 .f32)
    (broadcastInDim S4x128x128 ![] bcast_S_S4x128x128 (constant (F := Ideal) S_ .f32 cst))

/-- The start index `(r, c)` of a scatter as the two-entry vector the host builds. -/
def startv (r c : BitVec 32) : IVec S2 32 :=
  concatenate S2 0 [⟨S1, broadcastInDim S1 ![] bcast_S_S1 (constantI S_ 32 r)⟩, ⟨S1, broadcastInDim S1 ![] bcast_S_S1 (constantI S_ 32 c)⟩]
    concatenates_S1_S1_S2_d0

/-- One scatter: the block `blk w off cst` written over `prev` at rows `[r, r + 128)`, columns `[c, c + 128)` of every expert. -/
def put (prev : S4x512x512.Idx → EReal) (w : S4x131072.Idx → EReal) (off : ℕ) (hs : S4x131072.Slices ![0, off] S4x16384)
    (cst r c : BitVec 32) : S4x512x512.Idx → EReal :=
  Host.scatter scatter_S4x512x512_S2_S4x128x128_012_n_12_0 (fun _ b => b) prev (startv r c) (blk w off hs cst)

/-- The zero array the scatters start from. -/
def zeros : S4x512x512.Idx → EReal :=
  broadcastInDim S4x512x512 ![] bcast_S_S4x512x512 (constant (F := Ideal) S_ .f32 0x00000000#32)

/-- The program's scatter record is the block layout of the general lemmas. -/
theorem scatterDims_eq : scatter_S4x512x512_S2_S4x128x128_012_n_12_0
    = Cert.ScatterLib.dims3 4 512 512 128 128 scatter_S4x512x512_S2_S4x128x128_012_n_12_0_wf := rfl

/-- The start vector's first entry is the row. -/
theorem startv_zero (r c : BitVec 32) : startv r c (ix1 (0 : Fin 2)) = r := by
  unfold startv
  refine (concatenate_pair_apply_left (0 : Fin S2.rank) _ _ concatenates_S1_S1_S2_d0 (ix1 (0 : Fin 2)) rfl (ix1 (0 : Fin 1)) ?_).trans ?_
  · intro b; match b with | ⟨0, _⟩ => rfl
  · rw [broadcastInDim_scalar_apply]; rfl

/-- The start vector's second entry is the column. -/
theorem startv_one (r c : BitVec 32) : startv r c (ix1 (1 : Fin 2)) = c := by
  unfold startv
  refine (concatenate_pair_apply_right (0 : Fin S2.rank) _ _ concatenates_S1_S1_S2_d0 (ix1 (1 : Fin 2)) rfl rfl (ix1 (0 : Fin 1)) ?_ ?_).trans ?_
  · intro b hb; match b with | ⟨0, _⟩ => exact absurd rfl hb
  · rfl
  · rw [broadcastInDim_scalar_apply]; rfl

/-- The scaled block at `(e, a, b)`: entry `off + 128 a + b` of expert `e`'s weight row, times the constant. -/
theorem blk_apply (w : S4x131072.Idx → EReal) (off : ℕ) (hoff : off + 16384 ≤ 131072) (hs : S4x131072.Slices ![0, off] S4x16384)
    (cst : BitVec 32) (e : Fin 4) (a b : Fin 128) :
    blk w off hs cst (ix3 e a b)
      = w (ix2 e (⟨off + 128 * a.val + b.val, by have := a.isLt; have := b.isLt; omega⟩ : Fin 131072)) * Ideal.ofBits .f32 cst := by
  unfold blk
  rw [mulf_apply]
  congr 1
  · refine (shapeCast_apply _ _ (ix3 e a b) (ix2 e (⟨128 * a.val + b.val, by have := a.isLt; have := b.isLt; omega⟩ : Fin 16384)) ?_).trans ?_
    · rw [Shape.rowMajor_val_two, Shape.rowMajor_val_three]
      show e.val * 16384 + (128 * a.val + b.val) = (e.val * 128 + a.val) * 128 + b.val
      omega
    · refine extractStridedSlice_apply _ _ hs _ _ (fun d => ?_)
      match d with
      | ⟨0, _⟩ => show e.val = 0 + e.val; omega
      | ⟨1, _⟩ => show off + 128 * a.val + b.val = off + (128 * a.val + b.val); omega

/-- Inside the block a scatter writes, the array holds the scaled weight entry. -/
theorem put_hit (prev : S4x512x512.Idx → EReal) (w : S4x131072.Idx → EReal) (off : ℕ) (hoff : off + 16384 ≤ 131072)
    (hs : S4x131072.Slices ![0, off] S4x16384) (cst r c : BitVec 32) (R C : ℕ) (hR : r.toInt = R) (hC : c.toInt = C)
    (hP : R + 128 ≤ 512) (hQ : C + 128 ≤ 512) (e : Fin 4) (i j : Fin 512) (a b : Fin 128) (hi : i.val = R + a.val) (hj : j.val = C + b.val) :
    put prev w off hs cst r c (ix3 e i j)
      = w (ix2 e (⟨off + 128 * a.val + b.val, by have := a.isLt; have := b.isLt; omega⟩ : Fin 131072)) * Ideal.ofBits .f32 cst := by
  unfold put
  rw [scatterDims_eq]
  exact (Cert.ScatterLib.scatter_block3_hit _ _ _ _ _ R C (by rw [startv_zero]; exact hR) (by rw [startv_one]; exact hC) hP hQ e i j a b hi hj).trans
    (blk_apply w off hoff hs cst e a b)

/-- Outside the block a scatter writes, the array keeps what it held. -/
theorem put_miss (prev : S4x512x512.Idx → EReal) (w : S4x131072.Idx → EReal) (off : ℕ)
    (hs : S4x131072.Slices ![0, off] S4x16384) (cst r c : BitVec 32) (R C : ℕ) (hR : r.toInt = R) (hC : c.toInt = C)
    (hP : R + 128 ≤ 512) (hQ : C + 128 ≤ 512) (e : Fin 4) (i j : Fin 512)
    (hout : i.val < R ∨ R + 128 ≤ i.val ∨ j.val < C ∨ C + 128 ≤ j.val) :
    put prev w off hs cst r c (ix3 e i j) = prev (ix3 e i j) := by
  unfold put
  rw [scatterDims_eq]
  exact Cert.ScatterLib.scatter_block3_miss _ _ _ _ _ R C (by rw [startv_zero]; exact hR) (by rw [startv_one]; exact hC) hP hQ e i j hout

/-- One scatter in block coordinates: at `(e, 128 s + u, 128 k + v)` it holds the scaled entry `(u, v)` of weight block `j`
    when `(s, k)` is the block it writes, and what was there otherwise. -/
theorem put_di (prev : S4x512x512.Idx → EReal) (w : S4x131072.Idx → EReal) (off : ℕ)
    (hs : S4x131072.Slices ![0, off] S4x16384) (cst r c : BitVec 32) (sa kb : Fin 4) (j : Fin 8) (hj : off = 16384 * j.val)
    (hR : r.toInt = ((128 * sa.val : ℕ) : ℤ)) (hC : c.toInt = ((128 * kb.val : ℕ) : ℤ))
    (e s : Fin 4) (u : Fin 128) (k : Fin 4) (v : Fin 128) :
    put prev w off hs cst r c (Spec.di e s u k v)
      = if s = sa ∧ k = kb then w (Spec.wi e j u v) * Ideal.ofBits .f32 cst else prev (Spec.di e s u k v) := by
  have hsa := sa.isLt; have hkb := kb.isLt; have hjl := j.isLt
  split
  · next h =>
    obtain ⟨rfl, rfl⟩ := h
    refine (put_hit prev w off (by omega) hs cst r c _ _ hR hC (by omega) (by omega) e _ _ u v rfl rfl).trans ?_
    subst hj; rfl
  · next h =>
    have hne : s.val ≠ sa.val ∨ k.val ≠ kb.val := by
      by_cases h1 : s.val = sa.val
      · exact Or.inr fun h2 => h ⟨Fin.ext h1, Fin.ext h2⟩
      · exact Or.inl h1
    refine put_miss prev w off hs cst r c _ _ hR hC (by omega) (by omega) e _ _ ?_
    show 128 * s.val + u.val < 128 * sa.val ∨ 128 * sa.val + 128 ≤ 128 * s.val + u.val
      ∨ 128 * k.val + v.val < 128 * kb.val ∨ 128 * kb.val + 128 ≤ 128 * k.val + v.val
    have := u.isLt; have := v.isLt
    omega

/-- The eight scatters in the host's order: the four diagonal blocks at weight one, then the four blocks of the next
    diagonal (the last wrapping to the first column block) at weight one half. -/
def folded (w : S4x131072.Idx → EReal) : S4x512x512.Idx → EReal :=
  (put (put (put (put (put (put (put (put zeros w 0 slices_S4x131072_S4x16384_0_0 0x3F800000#32 0#32 0#32) w 16384 slices_S4x131072_S4x16384_0_16384 0x3F800000#32 128#32 128#32) w 32768 slices_S4x131072_S4x16384_0_32768 0x3F800000#32 256#32 256#32) w 49152 slices_S4x131072_S4x16384_0_49152 0x3F800000#32 384#32 384#32) w 65536 slices_S4x131072_S4x16384_0_65536 0x3F000000#32 0#32 128#32) w 81920 slices_S4x131072_S4x16384_0_81920 0x3F000000#32 128#32 256#32) w 98304 slices_S4x131072_S4x16384_0_98304 0x3F000000#32 256#32 384#32) w 114688 slices_S4x131072_S4x16384_0_114688 0x3F000000#32 384#32 0#32)

/-! ## The eight scatters together -/

/-- The zero array reads zero. -/
theorem zeros_apply (i : S4x512x512.Idx) : zeros i = 0 := by
  unfold zeros
  rw [broadcastInDim_scalar_apply, constant_apply, Spec.ofBits_zero]

/-- The folded array in block coordinates is the dense matrix of the weights. -/
theorem folded_di (w : S4x131072.Idx → EReal) (e s : Fin 4) (u : Fin 128) (k : Fin 4) (v : Fin 128) :
    folded w (Spec.di e s u k v) = Spec.dense w e s u k v := by
  unfold folded
  rw [put_di _ _ 114688 slices_S4x131072_S4x16384_0_114688 0x3F000000#32 384#32 0#32 3 0 7 (by norm_num) (by decide) (by decide),
    put_di _ _ 98304 slices_S4x131072_S4x16384_0_98304 0x3F000000#32 256#32 384#32 2 3 6 (by norm_num) (by decide) (by decide),
    put_di _ _ 81920 slices_S4x131072_S4x16384_0_81920 0x3F000000#32 128#32 256#32 1 2 5 (by norm_num) (by decide) (by decide),
    put_di _ _ 65536 slices_S4x131072_S4x16384_0_65536 0x3F000000#32 0#32 128#32 0 1 4 (by norm_num) (by decide) (by decide),
    put_di _ _ 49152 slices_S4x131072_S4x16384_0_49152 0x3F800000#32 384#32 384#32 3 3 3 (by norm_num) (by decide) (by decide),
    put_di _ _ 32768 slices_S4x131072_S4x16384_0_32768 0x3F800000#32 256#32 256#32 2 2 2 (by norm_num) (by decide) (by decide),
    put_di _ _ 16384 slices_S4x131072_S4x16384_0_16384 0x3F800000#32 128#32 128#32 1 1 1 (by norm_num) (by decide) (by decide),
    put_di _ _ 0 slices_S4x131072_S4x16384_0_0 0x3F800000#32 0#32 0#32 0 0 0 (by norm_num) (by decide) (by decide),
    zeros_apply, Spec.ofBits_one, Spec.ofBits_half]
  unfold Spec.dense
  fin_cases s <;> fin_cases k <;> simp (decide := true)

/-! ## The host operations before the region, cut into one stretch per scatter -/

section Stretches
variable {F : FTy → Type} [FloatOps F]

/-- The zero array and the first scatter. -/
def ops0 : List (HloOp τ sig (Elt F)) := hostOps0.take 13
/-- Scatter number 2 with the operations that build its start index and its update. -/
def ops1 : List (HloOp τ sig (Elt F)) := (hostOps0.drop 13).take 11
/-- Scatter number 3 with the operations that build its start index and its update. -/
def ops2 : List (HloOp τ sig (Elt F)) := (hostOps0.drop 24).take 11
/-- Scatter number 4 with the operations that build its start index and its update. -/
def ops3 : List (HloOp τ sig (Elt F)) := (hostOps0.drop 35).take 11
/-- Scatter number 5 with the operations that build its start index and its update. -/
def ops4 : List (HloOp τ sig (Elt F)) := (hostOps0.drop 46).take 11
/-- Scatter number 6 with the operations that build its start index and its update. -/
def ops5 : List (HloOp τ sig (Elt F)) := (hostOps0.drop 57).take 11
/-- Scatter number 7 with the operations that build its start index and its update. -/
def ops6 : List (HloOp τ sig (Elt F)) := (hostOps0.drop 68).take 11
/-- Scatter number 8 with the operations that build its start index and its update. -/
def ops7 : List (HloOp τ sig (Elt F)) := (hostOps0.drop 79).take 11
/-- The change of format of the dense array, and the id column. -/
def opsT : List (HloOp τ sig (Elt F)) := hostOps0.drop 90

/-- The stretches in a row are the host operations. -/
theorem hostOps0_split : (hostOps0 : List (HloOp τ sig (Elt F)))
    = ops0 ++ (ops1 ++ (ops2 ++ (ops3 ++ (ops4 ++ (ops5 ++ (ops6 ++ (ops7 ++ opsT))))))) := rfl

end Stretches

/-! ## What each stretch leaves, over any contents `W` before it -/

section Results
variable (W : Valuation τ sig (Elt Ideal))
open StableHlo

theorem after_ops0 : (after ops0 W (Proc.devRef .tc main_v8) : S4x512x512.Idx → EReal)
    = put zeros (W (Proc.devRef .tc main_arg1) : S4x131072.Idx → EReal) 0 slices_S4x131072_S4x16384_0_0 0x3F800000#32 0#32 0#32 := by
  unfold ops0; simp only [hostOps0, List.take_succ_cons, List.take_zero, List.drop_succ_cons, List.drop_zero]; after_results; rfl
theorem kept_ops0 : after ops0 W (Proc.devRef .tc main_arg1) = W (Proc.devRef .tc main_arg1) := by
  unfold ops0; simp only [hostOps0, List.take_succ_cons, List.take_zero, List.drop_succ_cons, List.drop_zero]; after_results

theorem after_ops1 : (after ops1 W (Proc.devRef .tc main_v16) : S4x512x512.Idx → EReal)
    = put (W (Proc.devRef .tc main_v8) : S4x512x512.Idx → EReal) (W (Proc.devRef .tc main_arg1) : S4x131072.Idx → EReal)
        16384 slices_S4x131072_S4x16384_0_16384 0x3F800000#32 128#32 128#32 := by
  unfold ops1; simp only [hostOps0, List.take_succ_cons, List.take_zero, List.drop_succ_cons, List.drop_zero]; after_results; rfl
theorem kept_ops1 : after ops1 W (Proc.devRef .tc main_arg1) = W (Proc.devRef .tc main_arg1) := by
  unfold ops1; simp only [hostOps0, List.take_succ_cons, List.take_zero, List.drop_succ_cons, List.drop_zero]; after_results

theorem after_ops2 : (after ops2 W (Proc.devRef .tc main_v24) : S4x512x512.Idx → EReal)
    = put (W (Proc.devRef .tc main_v16) : S4x512x512.Idx → EReal) (W (Proc.devRef .tc main_arg1) : S4x131072.Idx → EReal)
        32768 slices_S4x131072_S4x16384_0_32768 0x3F800000#32 256#32 256#32 := by
  unfold ops2; simp only [hostOps0, List.take_succ_cons, List.take_zero, List.drop_succ_cons, List.drop_zero]; after_results; rfl
theorem kept_ops2 : after ops2 W (Proc.devRef .tc main_arg1) = W (Proc.devRef .tc main_arg1) := by
  unfold ops2; simp only [hostOps0, List.take_succ_cons, List.take_zero, List.drop_succ_cons, List.drop_zero]; after_results

theorem after_ops3 : (after ops3 W (Proc.devRef .tc main_v32) : S4x512x512.Idx → EReal)
    = put (W (Proc.devRef .tc main_v24) : S4x512x512.Idx → EReal) (W (Proc.devRef .tc main_arg1) : S4x131072.Idx → EReal)
        49152 slices_S4x131072_S4x16384_0_49152 0x3F800000#32 384#32 384#32 := by
  unfold ops3; simp only [hostOps0, List.take_succ_cons, List.take_zero, List.drop_succ_cons, List.drop_zero]; after_results; rfl
theorem kept_ops3 : after ops3 W (Proc.devRef .tc main_arg1) = W (Proc.devRef .tc main_arg1) := by
  unfold ops3; simp only [hostOps0, List.take_succ_cons, List.take_zero, List.drop_succ_cons, List.drop_zero]; after_results

theorem after_ops4 : (after ops4 W (Proc.devRef .tc main_v40) : S4x512x512.Idx → EReal)
    = put (W (Proc.devRef .tc main_v32) : S4x512x512.Idx → EReal) (W (Proc.devRef .tc main_arg1) : S4x131072.Idx → EReal)
        65536 slices_S4x131072_S4x16384_0_65536 0x3F000000#32 0#32 128#32 := by
  unfold ops4; simp only [hostOps0, List.take_succ_cons, List.take_zero, List.drop_succ_cons, List.drop_zero]; after_results; rfl
theorem kept_ops4 : after ops4 W (Proc.devRef .tc main_arg1) = W (Proc.devRef .tc main_arg1) := by
  unfold ops4; simp only [hostOps0, List.take_succ_cons, List.take_zero, List.drop_succ_cons, List.drop_zero]; after_results

theorem after_ops5 : (after ops5 W (Proc.devRef .tc main_v48) : S4x512x512.Idx → EReal)
    = put (W (Proc.devRef .tc main_v40) : S4x512x512.Idx → EReal) (W (Proc.devRef .tc main_arg1) : S4x131072.Idx → EReal)
        81920 slices_S4x131072_S4x16384_0_81920 0x3F000000#32 128#32 256#32 := by
  unfold ops5; simp only [hostOps0, List.take_succ_cons, List.take_zero, List.drop_succ_cons, List.drop_zero]; after_results; rfl
theorem kept_ops5 : after ops5 W (Proc.devRef .tc main_arg1) = W (Proc.devRef .tc main_arg1) := by
  unfold ops5; simp only [hostOps0, List.take_succ_cons, List.take_zero, List.drop_succ_cons, List.drop_zero]; after_results

theorem after_ops6 : (after ops6 W (Proc.devRef .tc main_v56) : S4x512x512.Idx → EReal)
    = put (W (Proc.devRef .tc main_v48) : S4x512x512.Idx → EReal) (W (Proc.devRef .tc main_arg1) : S4x131072.Idx → EReal)
        98304 slices_S4x131072_S4x16384_0_98304 0x3F000000#32 256#32 384#32 := by
  unfold ops6; simp only [hostOps0, List.take_succ_cons, List.take_zero, List.drop_succ_cons, List.drop_zero]; after_results; rfl
theorem kept_ops6 : after ops6 W (Proc.devRef .tc main_arg1) = W (Proc.devRef .tc main_arg1) := by
  unfold ops6; simp only [hostOps0, List.take_succ_cons, List.take_zero, List.drop_succ_cons, List.drop_zero]; after_results

theorem after_ops7 : (after ops7 W (Proc.devRef .tc main_v64) : S4x512x512.Idx → EReal)
    = put (W (Proc.devRef .tc main_v56) : S4x512x512.Idx → EReal) (W (Proc.devRef .tc main_arg1) : S4x131072.Idx → EReal)
        114688 slices_S4x131072_S4x16384_0_114688 0x3F000000#32 384#32 0#32 := by
  unfold ops7; simp only [hostOps0, List.take_succ_cons, List.take_zero, List.drop_succ_cons, List.drop_zero]; after_results; rfl
theorem kept_ops7 : after ops7 W (Proc.devRef .tc main_arg1) = W (Proc.devRef .tc main_arg1) := by
  unfold ops7; simp only [hostOps0, List.take_succ_cons, List.take_zero, List.drop_succ_cons, List.drop_zero]; after_results

theorem after_opsT : (after opsT W (Proc.devRef .tc main_v65) : S4x512x512.Idx → EReal)
    = (truncf .bf16 (W (Proc.devRef .tc main_v64) : FVec Ideal S4x512x512 .f32) bitsLt_bf16_f32 : FVec Ideal S4x512x512 .bf16) := by
  unfold opsT; simp only [hostOps0, List.take_succ_cons, List.take_zero, List.drop_succ_cons, List.drop_zero]; after_results

end Results

/-- The dense array the region finds: the folded array of the weight argument, its format changed. -/
theorem v65_eq (m : (ℓ : Loc nD τ sig) → Buf (Elt Ideal) ℓ) (c : Dev nD) :
    (V m c main_v65 : S4x512x512.Idx → EReal)
      = (truncf .bf16 (folded (V m c main_arg1 : S4x131072.Idx → EReal) : FVec Ideal S4x512x512 .f32) bitsLt_bf16_f32 : FVec Ideal S4x512x512 .bf16) := by
  rw [V_main_arg1 m c]
  show StableHlo.after hostOps0 (fun b => m (c, b)) (Proc.devRef .tc main_v65) = _
  rw [hostOps0_split]
  simp only [StableHlo.after_append]
  rw [after_opsT, after_ops7, after_ops6, after_ops5, after_ops4, after_ops3, after_ops2, after_ops1, after_ops0]
  rw [kept_ops6, kept_ops5, kept_ops4, kept_ops3, kept_ops2, kept_ops1, kept_ops0]
  rfl

/-! ## The two arrays the region finds -/

/-- The dense weights the host builds: at `(e, 128 s + u, 128 k + v)` they are `Spec.dense` of the weight argument. -/
theorem dense_apply (m : (ℓ : Loc nD τ sig) → Buf (Elt Ideal) ℓ) (c : Dev nD)
    (e s : Fin 4) (u : Fin 128) (k : Fin 4) (v : Fin 128) :
    (V m c main_v65 : S4x512x512.Idx → EReal) (Spec.di e s u k v)
      = Spec.dense (V m c main_arg1 : S4x131072.Idx → EReal) e s u k v := by
  rw [v65_eq m c]
  generalize (V m c main_arg1 : S4x131072.Idx → EReal) = w
  exact (truncf_apply (folded w : FVec Ideal S4x512x512 .f32) bitsLt_bf16_f32 (Spec.di e s u k v)).trans (folded_di w e s u k v)

set_option maxHeartbeats 4000000 in
/-- The id column is the id argument reshaped, as arrays. -/
theorem ids_eq (m : (ℓ : Loc nD τ sig) → Buf (Elt Ideal) ℓ) (c : Dev nD) :
    (V m c main_v66 : S32768x1.Idx → BitVec 32)
      = shapeCast S32768x1 (V m c main_arg2 : S32768.Idx → BitVec 32) shapeCasts_S32768_S32768x1 := by
  rw [V_main_arg2 m c]
  dsimp only [Gen.V, Gen.hostOps0]
  open StableHlo in after_results
  rfl

/-- The id column is the id argument reshaped. -/
theorem ids_apply (m : (ℓ : Loc nD τ sig) → Buf (Elt Ideal) ℓ) (c : Dev nD) (b : Fin 32768) :
    (V m c main_v66 : S32768x1.Idx → BitVec 32) (ix2 b (0 : Fin 1)) = (V m c main_arg2 : S32768.Idx → BitVec 32) (ix1 b) := by
  rw [ids_eq m c]
  refine shapeCast_apply _ _ _ (ix1 b) ?_
  rw [Shape.rowMajor_val_one, Shape.rowMajor_val_two]
  show b.val = b.val * 1 + 0
  omega

end Cert.KernelSide

end
-- ==== Proof.RefPaths.lean ====
/-
  The reference's eight path terms, index by index: each update of an accumulation step is the path's weight times
  the mask-weighted sum of the four experts' segment products.

  Every path is the same chain. The row's slice reads a segment of the row; the weights' slice, folded to
  [4, 128, 128], reads one block of each expert; expert e's matrix is cut out of it and multiplied with the row's
  slice (a sum over the 128 entries of the segment); a column of the one-hot table, spread over the row, is expert
  e's mask; the four masked products are added from zero in order and the sum is multiplied by the path's weight.
-/
import proofs.«170114_j59356448030869_1_alg».proof.Proof.RefRead
import proofs.«170114_j59356448030869_1_alg».proof.Proof.Spec

noncomputable section

namespace Cert.RefSide

open Idealize.ShloMosaic Idealize.ShloMosaic.ValueIdx
open Cert.ReferenceIdeal Cert.ReferenceIdeal.ReadP

variable (x0 : Spec.SX.Idx → EReal) (x1 : Spec.SW.Idx → EReal) (x2 : Spec.SI.Idx → BitVec 32)

/-- The one-hot table at row `b`, column `e`, is the mask of expert `e`: the row's id compared with `e`, the
    one-bit answer read as the real number zero or one. -/
theorem onehot (b : Fin 32768) (e : Fin 4) :
    val_main_v0 (F := Ideal) x2 (ix2 b e) = Spec.msk (x2 (ix1 b)) e := by
  have h0 : idx_main_call0_v0 (idx_main_call0_v2 (ix2 b e)) = ix1 b :=
    funext fun a => Fin.ext (by match a with | ⟨0, _⟩ => rfl)
  rw [val_main_v0_apply, val_main_call0_v4_apply, val_main_call0_v2_apply, val_main_call0_v0_apply,
    val_main_call0_v3_apply, val_main_call0_v1_apply, h0]
  show FloatOps.uitofp (F := Ideal) FTy.f32
      (IntOp.cmpi CmpIPredicate.eq (x2 (ix1 b)) (BitVec.ofNat 32 e.val)) = _
  unfold Spec.msk
  by_cases h : x2 (ix1 b) = BitVec.ofNat 32 e.val
  · have hc : IntOp.cmpi CmpIPredicate.eq (x2 (ix1 b)) (BitVec.ofNat 32 e.val) = 1#1 := by
      unfold IntOp.cmpi
      rw [show (x2 (ix1 b) == BitVec.ofNat 32 e.val) = true from beq_iff_eq.2 h]; rfl
    rw [hc, if_pos h]
    show (((1#1 : BitVec 1).toNat : ℝ) : EReal) = 1
    simp
  · have hc : IntOp.cmpi CmpIPredicate.eq (x2 (ix1 b)) (BitVec.ofNat 32 e.val) = 0#1 := by
      unfold IntOp.cmpi
      rw [show (x2 (ix1 b) == BitVec.ofNat 32 e.val) = false from beq_eq_false_iff_ne.2 h]; rfl
    rw [hc, if_neg h]
    show (((0#1 : BitVec 1).toNat : ℝ) : EReal) = 0
    simp

/-- Column `s` of the one-hot table, spread over a row of 128: the index read is `(b, s)`. -/
theorem col0 (b : Fin 32768) (v : Fin 128) : idx_main_v6 (idx_main_v10 (ix2 b v)) = ix2 b (0 : Fin 4) :=
  funext fun a => Fin.ext (by match a with | ⟨0, _⟩ => rfl | ⟨1, _⟩ => rfl)
theorem col1 (b : Fin 32768) (v : Fin 128) : idx_main_v13 (idx_main_v17 (ix2 b v)) = ix2 b (1 : Fin 4) :=
  funext fun a => Fin.ext (by match a with | ⟨0, _⟩ => rfl | ⟨1, _⟩ => rfl)
theorem col2 (b : Fin 32768) (v : Fin 128) : idx_main_v20 (idx_main_v24 (ix2 b v)) = ix2 b (2 : Fin 4) :=
  funext fun a => Fin.ext (by match a with | ⟨0, _⟩ => rfl | ⟨1, _⟩ => rfl)
theorem col3 (b : Fin 32768) (v : Fin 128) : idx_main_v27 (idx_main_v31 (ix2 b v)) = ix2 b (3 : Fin 4) :=
  funext fun a => Fin.ext (by match a with | ⟨0, _⟩ => rfl | ⟨1, _⟩ => rfl)

/-- Expert `s`'s 128×128 matrix cut out of a `[4, 128, 128]` array and flattened: its entry `(k, v)` is the array's
    entry `(s, k, v)`. -/
theorem pick0 (k v : Fin 128) : idx_main_v7 (idx_main_v8 (ix2 k v)) = ix3 (0 : Fin 4) k v :=
  funext fun a => Fin.ext (by
    have := k.isLt; have := v.isLt
    match a with
    | ⟨0, _⟩ => rfl
    | ⟨1, _⟩ => show (k.val * 128 + v.val) / 128 % 128 = k.val; omega
    | ⟨2, _⟩ => show (k.val * 128 + v.val) % 128 = v.val; omega)
theorem pick1 (k v : Fin 128) : idx_main_v14 (idx_main_v15 (ix2 k v)) = ix3 (1 : Fin 4) k v :=
  funext fun a => Fin.ext (by
    have := k.isLt; have := v.isLt
    match a with
    | ⟨0, _⟩ => rfl
    | ⟨1, _⟩ => show (k.val * 128 + v.val) / 128 % 128 = k.val; omega
    | ⟨2, _⟩ => show (k.val * 128 + v.val) % 128 = v.val; omega)
theorem pick2 (k v : Fin 128) : idx_main_v21 (idx_main_v22 (ix2 k v)) = ix3 (2 : Fin 4) k v :=
  funext fun a => Fin.ext (by
    have := k.isLt; have := v.isLt
    match a with
    | ⟨0, _⟩ => rfl
    | ⟨1, _⟩ => show (k.val * 128 + v.val) / 128 % 128 = k.val; omega
    | ⟨2, _⟩ => show (k.val * 128 + v.val) % 128 = v.val; omega)
theorem pick3 (k v : Fin 128) : idx_main_v28 (idx_main_v29 (ix2 k v)) = ix3 (3 : Fin 4) k v :=
  funext fun a => Fin.ext (by
    have := k.isLt; have := v.isLt
    match a with
    | ⟨0, _⟩ => rfl
    | ⟨1, _⟩ => show (k.val * 128 + v.val) / 128 % 128 = k.val; omega
    | ⟨2, _⟩ => show (k.val * 128 + v.val) % 128 = v.val; omega)

/-- The two factors of term `k` of a row-by-matrix product at `(b, v)`: the row's entry `k`, the matrix's entry `(k, v)`. -/
theorem lix (b : Fin 32768) (v k : Fin 128) : lidx_main_v9 (ix2 b v) k = ix2 b k :=
  funext fun a => Fin.ext (by match a with | ⟨0, _⟩ => rfl | ⟨1, _⟩ => rfl)
theorem rix (b : Fin 32768) (v k : Fin 128) : ridx_main_v9 (ix2 b v) k = ix2 k v :=
  funext fun a => Fin.ext (by match a with | ⟨0, _⟩ => rfl | ⟨1, _⟩ => rfl)

/-! ### Path 0: segment 0 of the row against block 0, weight one -/

/-- The row's slice: entry `k` of segment 0. -/
theorem xs0 (b : Fin 32768) (k : Fin 128) : val_main_v2 (F := Ideal) x0 (ix2 b k) = x0 (Spec.xi b 0 k) := by
  rw [val_main_v2_apply]
  exact congrArg x0 (funext fun a => Fin.ext (by
    match a with
    | ⟨0, _⟩ => rfl
    | ⟨1, _⟩ => show k.val = 128 * 0 + k.val; omega))

/-- The weights' slice, folded to `[4, 128, 128]`: entry `(e, k, v)` is entry `(k, v)` of expert `e`'s block 0. -/
theorem blk0 (e : Fin 4) (k v : Fin 128) : val_main_v4 (F := Ideal) x1 (ix3 e k v) = x1 (Spec.wi e 0 k v) := by
  rw [val_main_v4_apply, val_main_v3_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show ((e.val * 128 + k.val) * 128 + v.val) % 16384 = 16384 * 0 + 128 * k.val + v.val; omega))

theorem w0_0 (k v : Fin 128) : val_main_v8 (F := Ideal) x1 (ix2 k v) = x1 (Spec.wi 0 0 k v) := by
  rw [val_main_v8_apply, val_main_v7_apply,
    show idx_main_v7 (idx_main_v8 (ix2 k v)) = ix3 (0 : Fin 4) k v from pick0 k v, blk0]
theorem w0_1 (k v : Fin 128) : val_main_v15 (F := Ideal) x1 (ix2 k v) = x1 (Spec.wi 1 0 k v) := by
  rw [val_main_v15_apply, val_main_v14_apply,
    show idx_main_v14 (idx_main_v15 (ix2 k v)) = ix3 (1 : Fin 4) k v from pick1 k v, blk0]
theorem w0_2 (k v : Fin 128) : val_main_v22 (F := Ideal) x1 (ix2 k v) = x1 (Spec.wi 2 0 k v) := by
  rw [val_main_v22_apply, val_main_v21_apply,
    show idx_main_v21 (idx_main_v22 (ix2 k v)) = ix3 (2 : Fin 4) k v from pick2 k v, blk0]
theorem w0_3 (k v : Fin 128) : val_main_v29 (F := Ideal) x1 (ix2 k v) = x1 (Spec.wi 3 0 k v) := by
  rw [val_main_v29_apply, val_main_v28_apply,
    show idx_main_v28 (idx_main_v29 (ix2 k v)) = ix3 (3 : Fin 4) k v from pick3 k v, blk0]

theorem m0_0 (b : Fin 32768) (v : Fin 128) : val_main_v10 (F := Ideal) x2 (ix2 b v) = Spec.msk (x2 (ix1 b)) 0 := by
  rw [val_main_v10_apply, val_main_v6_apply,
    show idx_main_v6 (idx_main_v10 (ix2 b v)) = ix2 b (0 : Fin 4) from col0 b v, onehot]
theorem m0_1 (b : Fin 32768) (v : Fin 128) : val_main_v17 (F := Ideal) x2 (ix2 b v) = Spec.msk (x2 (ix1 b)) 1 := by
  rw [val_main_v17_apply, val_main_v13_apply,
    show idx_main_v13 (idx_main_v17 (ix2 b v)) = ix2 b (1 : Fin 4) from col1 b v, onehot]
theorem m0_2 (b : Fin 32768) (v : Fin 128) : val_main_v24 (F := Ideal) x2 (ix2 b v) = Spec.msk (x2 (ix1 b)) 2 := by
  rw [val_main_v24_apply, val_main_v20_apply,
    show idx_main_v20 (idx_main_v24 (ix2 b v)) = ix2 b (2 : Fin 4) from col2 b v, onehot]
theorem m0_3 (b : Fin 32768) (v : Fin 128) : val_main_v31 (F := Ideal) x2 (ix2 b v) = Spec.msk (x2 (ix1 b)) 3 := by
  rw [val_main_v31_apply, val_main_v27_apply,
    show idx_main_v27 (idx_main_v31 (ix2 b v)) = ix2 b (3 : Fin 4) from col3 b v, onehot]

theorem d0_0 (b : Fin 32768) (v : Fin 128) :
    val_main_v9 (F := Ideal) x0 x1 (ix2 b v) = Spec.seg x0 x1 b 0 0 0 v := by
  rw [val_main_v9_apply]; unfold Spec.seg
  refine Finset.sum_congr rfl fun k _ => ?_
  rw [show lidx_main_v9 (ix2 b v) k = ix2 b k from lix b v k,
    show ridx_main_v9 (ix2 b v) k = ix2 k v from rix b v k, xs0, w0_0]
theorem d0_1 (b : Fin 32768) (v : Fin 128) :
    val_main_v16 (F := Ideal) x0 x1 (ix2 b v) = Spec.seg x0 x1 b 0 0 1 v := by
  rw [val_main_v16_apply]; unfold Spec.seg
  refine Finset.sum_congr rfl fun k _ => ?_
  rw [show lidx_main_v16 (ix2 b v) k = ix2 b k from lix b v k,
    show ridx_main_v16 (ix2 b v) k = ix2 k v from rix b v k, xs0, w0_1]
theorem d0_2 (b : Fin 32768) (v : Fin 128) :
    val_main_v23 (F := Ideal) x0 x1 (ix2 b v) = Spec.seg x0 x1 b 0 0 2 v := by
  rw [val_main_v23_apply]; unfold Spec.seg
  refine Finset.sum_congr rfl fun k _ => ?_
  rw [show lidx_main_v23 (ix2 b v) k = ix2 b k from lix b v k,
    show ridx_main_v23 (ix2 b v) k = ix2 k v from rix b v k, xs0, w0_2]
theorem d0_3 (b : Fin 32768) (v : Fin 128) :
    val_main_v30 (F := Ideal) x0 x1 (ix2 b v) = Spec.seg x0 x1 b 0 0 3 v := by
  rw [val_main_v30_apply]; unfold Spec.seg
  refine Finset.sum_congr rfl fun k _ => ?_
  rw [show lidx_main_v30 (ix2 b v) k = ix2 b k from lix b v k,
    show ridx_main_v30 (ix2 b v) k = ix2 k v from rix b v k, xs0, w0_3]

/-- Path 0: input segment 0, weight block 0, weight one. -/
theorem upd0 (b : Fin 32768) (v : Fin 128) :
    val_main_v35 (F := Ideal) x0 x1 x2 (ix2 b v) = 1 * Spec.path x0 x1 x2 b 0 0 v := by
  rw [val_main_v35_apply, val_main_v34_apply, val_main_cst_1_apply, val_main_v33_apply,
    val_main_v26_apply, val_main_v19_apply, val_main_v12_apply, val_main_v5_apply,
    val_main_cst_0_apply, val_main_v11_apply, val_main_v18_apply, val_main_v25_apply,
    val_main_v32_apply, m0_0, m0_1, m0_2, m0_3, d0_0, d0_1, d0_2, d0_3]
  simp only [Ideal.mulf_def, Ideal.addf_def, Ideal.ofBits_def, Spec.ofBits_zero, Spec.ofBits_one]
  rfl

/-! ### Path 1: segment 1 of the row against block 1, weight one -/

/-- The row's slice: entry `k` of segment 1. -/
theorem xs1 (b : Fin 32768) (k : Fin 128) : val_main_v38 (F := Ideal) x0 (ix2 b k) = x0 (Spec.xi b 1 k) := by
  rw [val_main_v38_apply]
  exact congrArg x0 (funext fun a => Fin.ext (by
    match a with
    | ⟨0, _⟩ => rfl
    | ⟨1, _⟩ => show 128 + k.val = 128 * 1 + k.val; omega))

/-- The weights' slice, folded to `[4, 128, 128]`: entry `(e, k, v)` is entry `(k, v)` of expert `e`'s block 1. -/
theorem blk1 (e : Fin 4) (k v : Fin 128) : val_main_v40 (F := Ideal) x1 (ix3 e k v) = x1 (Spec.wi e 1 k v) := by
  rw [val_main_v40_apply, val_main_v39_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show 16384 + ((e.val * 128 + k.val) * 128 + v.val) % 16384 = 16384 * 1 + 128 * k.val + v.val; omega))

theorem w1_0 (k v : Fin 128) : val_main_v44 (F := Ideal) x1 (ix2 k v) = x1 (Spec.wi 0 1 k v) := by
  rw [val_main_v44_apply, val_main_v43_apply,
    show idx_main_v43 (idx_main_v44 (ix2 k v)) = ix3 (0 : Fin 4) k v from pick0 k v, blk1]
theorem w1_1 (k v : Fin 128) : val_main_v51 (F := Ideal) x1 (ix2 k v) = x1 (Spec.wi 1 1 k v) := by
  rw [val_main_v51_apply, val_main_v50_apply,
    show idx_main_v50 (idx_main_v51 (ix2 k v)) = ix3 (1 : Fin 4) k v from pick1 k v, blk1]
theorem w1_2 (k v : Fin 128) : val_main_v58 (F := Ideal) x1 (ix2 k v) = x1 (Spec.wi 2 1 k v) := by
  rw [val_main_v58_apply, val_main_v57_apply,
    show idx_main_v57 (idx_main_v58 (ix2 k v)) = ix3 (2 : Fin 4) k v from pick2 k v, blk1]
theorem w1_3 (k v : Fin 128) : val_main_v65 (F := Ideal) x1 (ix2 k v) = x1 (Spec.wi 3 1 k v) := by
  rw [val_main_v65_apply, val_main_v64_apply,
    show idx_main_v64 (idx_main_v65 (ix2 k v)) = ix3 (3 : Fin 4) k v from pick3 k v, blk1]

theorem m1_0 (b : Fin 32768) (v : Fin 128) : val_main_v46 (F := Ideal) x2 (ix2 b v) = Spec.msk (x2 (ix1 b)) 0 := by
  rw [val_main_v46_apply, val_main_v42_apply,
    show idx_main_v42 (idx_main_v46 (ix2 b v)) = ix2 b (0 : Fin 4) from col0 b v, onehot]
theorem m1_1 (b : Fin 32768) (v : Fin 128) : val_main_v53 (F := Ideal) x2 (ix2 b v) = Spec.msk (x2 (ix1 b)) 1 := by
  rw [val_main_v53_apply, val_main_v49_apply,
    show idx_main_v49 (idx_main_v53 (ix2 b v)) = ix2 b (1 : Fin 4) from col1 b v, onehot]
theorem m1_2 (b : Fin 32768) (v : Fin 128) : val_main_v60 (F := Ideal) x2 (ix2 b v) = Spec.msk (x2 (ix1 b)) 2 := by
  rw [val_main_v60_apply, val_main_v56_apply,
    show idx_main_v56 (idx_main_v60 (ix2 b v)) = ix2 b (2 : Fin 4) from col2 b v, onehot]
theorem m1_3 (b : Fin 32768) (v : Fin 128) : val_main_v67 (F := Ideal) x2 (ix2 b v) = Spec.msk (x2 (ix1 b)) 3 := by
  rw [val_main_v67_apply, val_main_v63_apply,
    show idx_main_v63 (idx_main_v67 (ix2 b v)) = ix2 b (3 : Fin 4) from col3 b v, onehot]

theorem d1_0 (b : Fin 32768) (v : Fin 128) :
    val_main_v45 (F := Ideal) x0 x1 (ix2 b v) = Spec.seg x0 x1 b 1 1 0 v := by
  rw [val_main_v45_apply]; unfold Spec.seg
  refine Finset.sum_congr rfl fun k _ => ?_
  rw [show lidx_main_v45 (ix2 b v) k = ix2 b k from lix b v k,
    show ridx_main_v45 (ix2 b v) k = ix2 k v from rix b v k, xs1, w1_0]
theorem d1_1 (b : Fin 32768) (v : Fin 128) :
    val_main_v52 (F := Ideal) x0 x1 (ix2 b v) = Spec.seg x0 x1 b 1 1 1 v := by
  rw [val_main_v52_apply]; unfold Spec.seg
  refine Finset.sum_congr rfl fun k _ => ?_
  rw [show lidx_main_v52 (ix2 b v) k = ix2 b k from lix b v k,
    show ridx_main_v52 (ix2 b v) k = ix2 k v from rix b v k, xs1, w1_1]
theorem d1_2 (b : Fin 32768) (v : Fin 128) :
    val_main_v59 (F := Ideal) x0 x1 (ix2 b v) = Spec.seg x0 x1 b 1 1 2 v := by
  rw [val_main_v59_apply]; unfold Spec.seg
  refine Finset.sum_congr rfl fun k _ => ?_
  rw [show lidx_main_v59 (ix2 b v) k = ix2 b k from lix b v k,
    show ridx_main_v59 (ix2 b v) k = ix2 k v from rix b v k, xs1, w1_2]
theorem d1_3 (b : Fin 32768) (v : Fin 128) :
    val_main_v66 (F := Ideal) x0 x1 (ix2 b v) = Spec.seg x0 x1 b 1 1 3 v := by
  rw [val_main_v66_apply]; unfold Spec.seg
  refine Finset.sum_congr rfl fun k _ => ?_
  rw [show lidx_main_v66 (ix2 b v) k = ix2 b k from lix b v k,
    show ridx_main_v66 (ix2 b v) k = ix2 k v from rix b v k, xs1, w1_3]

/-- Path 1: input segment 1, weight block 1, weight one. -/
theorem upd1 (b : Fin 32768) (v : Fin 128) :
    val_main_v71 (F := Ideal) x0 x1 x2 (ix2 b v) = 1 * Spec.path x0 x1 x2 b 1 1 v := by
  rw [val_main_v71_apply, val_main_v70_apply, val_main_cst_3_apply, val_main_v69_apply,
    val_main_v62_apply, val_main_v55_apply, val_main_v48_apply, val_main_v41_apply,
    val_main_cst_2_apply, val_main_v47_apply, val_main_v54_apply, val_main_v61_apply,
    val_main_v68_apply, m1_0, m1_1, m1_2, m1_3, d1_0, d1_1, d1_2, d1_3]
  simp only [Ideal.mulf_def, Ideal.addf_def, Ideal.ofBits_def, Spec.ofBits_zero, Spec.ofBits_one]
  rfl

/-! ### Path 2: segment 2 of the row against block 2, weight one -/

/-- The row's slice: entry `k` of segment 2. -/
theorem xs2 (b : Fin 32768) (k : Fin 128) : val_main_v74 (F := Ideal) x0 (ix2 b k) = x0 (Spec.xi b 2 k) := by
  rw [val_main_v74_apply]
  exact congrArg x0 (funext fun a => Fin.ext (by
    match a with
    | ⟨0, _⟩ => rfl
    | ⟨1, _⟩ => show 256 + k.val = 128 * 2 + k.val; omega))

/-- The weights' slice, folded to `[4, 128, 128]`: entry `(e, k, v)` is entry `(k, v)` of expert `e`'s block 2. -/
theorem blk2 (e : Fin 4) (k v : Fin 128) : val_main_v76 (F := Ideal) x1 (ix3 e k v) = x1 (Spec.wi e 2 k v) := by
  rw [val_main_v76_apply, val_main_v75_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show 32768 + ((e.val * 128 + k.val) * 128 + v.val) % 16384 = 16384 * 2 + 128 * k.val + v.val; omega))

theorem w2_0 (k v : Fin 128) : val_main_v80 (F := Ideal) x1 (ix2 k v) = x1 (Spec.wi 0 2 k v) := by
  rw [val_main_v80_apply, val_main_v79_apply,
    show idx_main_v79 (idx_main_v80 (ix2 k v)) = ix3 (0 : Fin 4) k v from pick0 k v, blk2]
theorem w2_1 (k v : Fin 128) : val_main_v87 (F := Ideal) x1 (ix2 k v) = x1 (Spec.wi 1 2 k v) := by
  rw [val_main_v87_apply, val_main_v86_apply,
    show idx_main_v86 (idx_main_v87 (ix2 k v)) = ix3 (1 : Fin 4) k v from pick1 k v, blk2]
theorem w2_2 (k v : Fin 128) : val_main_v94 (F := Ideal) x1 (ix2 k v) = x1 (Spec.wi 2 2 k v) := by
  rw [val_main_v94_apply, val_main_v93_apply,
    show idx_main_v93 (idx_main_v94 (ix2 k v)) = ix3 (2 : Fin 4) k v from pick2 k v, blk2]
theorem w2_3 (k v : Fin 128) : val_main_v101 (F := Ideal) x1 (ix2 k v) = x1 (Spec.wi 3 2 k v) := by
  rw [val_main_v101_apply, val_main_v100_apply,
    show idx_main_v100 (idx_main_v101 (ix2 k v)) = ix3 (3 : Fin 4) k v from pick3 k v, blk2]

theorem m2_0 (b : Fin 32768) (v : Fin 128) : val_main_v82 (F := Ideal) x2 (ix2 b v) = Spec.msk (x2 (ix1 b)) 0 := by
  rw [val_main_v82_apply, val_main_v78_apply,
    show idx_main_v78 (idx_main_v82 (ix2 b v)) = ix2 b (0 : Fin 4) from col0 b v, onehot]
theorem m2_1 (b : Fin 32768) (v : Fin 128) : val_main_v89 (F := Ideal) x2 (ix2 b v) = Spec.msk (x2 (ix1 b)) 1 := by
  rw [val_main_v89_apply, val_main_v85_apply,
    show idx_main_v85 (idx_main_v89 (ix2 b v)) = ix2 b (1 : Fin 4) from col1 b v, onehot]
theorem m2_2 (b : Fin 32768) (v : Fin 128) : val_main_v96 (F := Ideal) x2 (ix2 b v) = Spec.msk (x2 (ix1 b)) 2 := by
  rw [val_main_v96_apply, val_main_v92_apply,
    show idx_main_v92 (idx_main_v96 (ix2 b v)) = ix2 b (2 : Fin 4) from col2 b v, onehot]
theorem m2_3 (b : Fin 32768) (v : Fin 128) : val_main_v103 (F := Ideal) x2 (ix2 b v) = Spec.msk (x2 (ix1 b)) 3 := by
  rw [val_main_v103_apply, val_main_v99_apply,
    show idx_main_v99 (idx_main_v103 (ix2 b v)) = ix2 b (3 : Fin 4) from col3 b v, onehot]

theorem d2_0 (b : Fin 32768) (v : Fin 128) :
    val_main_v81 (F := Ideal) x0 x1 (ix2 b v) = Spec.seg x0 x1 b 2 2 0 v := by
  rw [val_main_v81_apply]; unfold Spec.seg
  refine Finset.sum_congr rfl fun k _ => ?_
  rw [show lidx_main_v81 (ix2 b v) k = ix2 b k from lix b v k,
    show ridx_main_v81 (ix2 b v) k = ix2 k v from rix b v k, xs2, w2_0]
theorem d2_1 (b : Fin 32768) (v : Fin 128) :
    val_main_v88 (F := Ideal) x0 x1 (ix2 b v) = Spec.seg x0 x1 b 2 2 1 v := by
  rw [val_main_v88_apply]; unfold Spec.seg
  refine Finset.sum_congr rfl fun k _ => ?_
  rw [show lidx_main_v88 (ix2 b v) k = ix2 b k from lix b v k,
    show ridx_main_v88 (ix2 b v) k = ix2 k v from rix b v k, xs2, w2_1]
theorem d2_2 (b : Fin 32768) (v : Fin 128) :
    val_main_v95 (F := Ideal) x0 x1 (ix2 b v) = Spec.seg x0 x1 b 2 2 2 v := by
  rw [val_main_v95_apply]; unfold Spec.seg
  refine Finset.sum_congr rfl fun k _ => ?_
  rw [show lidx_main_v95 (ix2 b v) k = ix2 b k from lix b v k,
    show ridx_main_v95 (ix2 b v) k = ix2 k v from rix b v k, xs2, w2_2]
theorem d2_3 (b : Fin 32768) (v : Fin 128) :
    val_main_v102 (F := Ideal) x0 x1 (ix2 b v) = Spec.seg x0 x1 b 2 2 3 v := by
  rw [val_main_v102_apply]; unfold Spec.seg
  refine Finset.sum_congr rfl fun k _ => ?_
  rw [show lidx_main_v102 (ix2 b v) k = ix2 b k from lix b v k,
    show ridx_main_v102 (ix2 b v) k = ix2 k v from rix b v k, xs2, w2_3]

/-- Path 2: input segment 2, weight block 2, weight one. -/
theorem upd2 (b : Fin 32768) (v : Fin 128) :
    val_main_v107 (F := Ideal) x0 x1 x2 (ix2 b v) = 1 * Spec.path x0 x1 x2 b 2 2 v := by
  rw [val_main_v107_apply, val_main_v106_apply, val_main_cst_6_apply, val_main_v105_apply,
    val_main_v98_apply, val_main_v91_apply, val_main_v84_apply, val_main_v77_apply,
    val_main_cst_5_apply, val_main_v83_apply, val_main_v90_apply, val_main_v97_apply,
    val_main_v104_apply, m2_0, m2_1, m2_2, m2_3, d2_0, d2_1, d2_2, d2_3]
  simp only [Ideal.mulf_def, Ideal.addf_def, Ideal.ofBits_def, Spec.ofBits_zero, Spec.ofBits_one]
  rfl

/-! ### Path 3: segment 3 of the row against block 3, weight one -/

/-- The row's slice: entry `k` of segment 3. -/
theorem xs3 (b : Fin 32768) (k : Fin 128) : val_main_v110 (F := Ideal) x0 (ix2 b k) = x0 (Spec.xi b 3 k) := by
  rw [val_main_v110_apply]
  exact congrArg x0 (funext fun a => Fin.ext (by
    match a with
    | ⟨0, _⟩ => rfl
    | ⟨1, _⟩ => show 384 + k.val = 128 * 3 + k.val; omega))

/-- The weights' slice, folded to `[4, 128, 128]`: entry `(e, k, v)` is entry `(k, v)` of expert `e`'s block 3. -/
theorem blk3 (e : Fin 4) (k v : Fin 128) : val_main_v112 (F := Ideal) x1 (ix3 e k v) = x1 (Spec.wi e 3 k v) := by
  rw [val_main_v112_apply, val_main_v111_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show 49152 + ((e.val * 128 + k.val) * 128 + v.val) % 16384 = 16384 * 3 + 128 * k.val + v.val; omega))

theorem w3_0 (k v : Fin 128) : val_main_v116 (F := Ideal) x1 (ix2 k v) = x1 (Spec.wi 0 3 k v) := by
  rw [val_main_v116_apply, val_main_v115_apply,
    show idx_main_v115 (idx_main_v116 (ix2 k v)) = ix3 (0 : Fin 4) k v from pick0 k v, blk3]
theorem w3_1 (k v : Fin 128) : val_main_v123 (F := Ideal) x1 (ix2 k v) = x1 (Spec.wi 1 3 k v) := by
  rw [val_main_v123_apply, val_main_v122_apply,
    show idx_main_v122 (idx_main_v123 (ix2 k v)) = ix3 (1 : Fin 4) k v from pick1 k v, blk3]
theorem w3_2 (k v : Fin 128) : val_main_v130 (F := Ideal) x1 (ix2 k v) = x1 (Spec.wi 2 3 k v) := by
  rw [val_main_v130_apply, val_main_v129_apply,
    show idx_main_v129 (idx_main_v130 (ix2 k v)) = ix3 (2 : Fin 4) k v from pick2 k v, blk3]
theorem w3_3 (k v : Fin 128) : val_main_v137 (F := Ideal) x1 (ix2 k v) = x1 (Spec.wi 3 3 k v) := by
  rw [val_main_v137_apply, val_main_v136_apply,
    show idx_main_v136 (idx_main_v137 (ix2 k v)) = ix3 (3 : Fin 4) k v from pick3 k v, blk3]

theorem m3_0 (b : Fin 32768) (v : Fin 128) : val_main_v118 (F := Ideal) x2 (ix2 b v) = Spec.msk (x2 (ix1 b)) 0 := by
  rw [val_main_v118_apply, val_main_v114_apply,
    show idx_main_v114 (idx_main_v118 (ix2 b v)) = ix2 b (0 : Fin 4) from col0 b v, onehot]
theorem m3_1 (b : Fin 32768) (v : Fin 128) : val_main_v125 (F := Ideal) x2 (ix2 b v) = Spec.msk (x2 (ix1 b)) 1 := by
  rw [val_main_v125_apply, val_main_v121_apply,
    show idx_main_v121 (idx_main_v125 (ix2 b v)) = ix2 b (1 : Fin 4) from col1 b v, onehot]
theorem m3_2 (b : Fin 32768) (v : Fin 128) : val_main_v132 (F := Ideal) x2 (ix2 b v) = Spec.msk (x2 (ix1 b)) 2 := by
  rw [val_main_v132_apply, val_main_v128_apply,
    show idx_main_v128 (idx_main_v132 (ix2 b v)) = ix2 b (2 : Fin 4) from col2 b v, onehot]
theorem m3_3 (b : Fin 32768) (v : Fin 128) : val_main_v139 (F := Ideal) x2 (ix2 b v) = Spec.msk (x2 (ix1 b)) 3 := by
  rw [val_main_v139_apply, val_main_v135_apply,
    show idx_main_v135 (idx_main_v139 (ix2 b v)) = ix2 b (3 : Fin 4) from col3 b v, onehot]

theorem d3_0 (b : Fin 32768) (v : Fin 128) :
    val_main_v117 (F := Ideal) x0 x1 (ix2 b v) = Spec.seg x0 x1 b 3 3 0 v := by
  rw [val_main_v117_apply]; unfold Spec.seg
  refine Finset.sum_congr rfl fun k _ => ?_
  rw [show lidx_main_v117 (ix2 b v) k = ix2 b k from lix b v k,
    show ridx_main_v117 (ix2 b v) k = ix2 k v from rix b v k, xs3, w3_0]
theorem d3_1 (b : Fin 32768) (v : Fin 128) :
    val_main_v124 (F := Ideal) x0 x1 (ix2 b v) = Spec.seg x0 x1 b 3 3 1 v := by
  rw [val_main_v124_apply]; unfold Spec.seg
  refine Finset.sum_congr rfl fun k _ => ?_
  rw [show lidx_main_v124 (ix2 b v) k = ix2 b k from lix b v k,
    show ridx_main_v124 (ix2 b v) k = ix2 k v from rix b v k, xs3, w3_1]
theorem d3_2 (b : Fin 32768) (v : Fin 128) :
    val_main_v131 (F := Ideal) x0 x1 (ix2 b v) = Spec.seg x0 x1 b 3 3 2 v := by
  rw [val_main_v131_apply]; unfold Spec.seg
  refine Finset.sum_congr rfl fun k _ => ?_
  rw [show lidx_main_v131 (ix2 b v) k = ix2 b k from lix b v k,
    show ridx_main_v131 (ix2 b v) k = ix2 k v from rix b v k, xs3, w3_2]
theorem d3_3 (b : Fin 32768) (v : Fin 128) :
    val_main_v138 (F := Ideal) x0 x1 (ix2 b v) = Spec.seg x0 x1 b 3 3 3 v := by
  rw [val_main_v138_apply]; unfold Spec.seg
  refine Finset.sum_congr rfl fun k _ => ?_
  rw [show lidx_main_v138 (ix2 b v) k = ix2 b k from lix b v k,
    show ridx_main_v138 (ix2 b v) k = ix2 k v from rix b v k, xs3, w3_3]

/-- Path 3: input segment 3, weight block 3, weight one. -/
theorem upd3 (b : Fin 32768) (v : Fin 128) :
    val_main_v143 (F := Ideal) x0 x1 x2 (ix2 b v) = 1 * Spec.path x0 x1 x2 b 3 3 v := by
  rw [val_main_v143_apply, val_main_v142_apply, val_main_cst_9_apply, val_main_v141_apply,
    val_main_v134_apply, val_main_v127_apply, val_main_v120_apply, val_main_v113_apply,
    val_main_cst_8_apply, val_main_v119_apply, val_main_v126_apply, val_main_v133_apply,
    val_main_v140_apply, m3_0, m3_1, m3_2, m3_3, d3_0, d3_1, d3_2, d3_3]
  simp only [Ideal.mulf_def, Ideal.addf_def, Ideal.ofBits_def, Spec.ofBits_zero, Spec.ofBits_one]
  rfl

/-! ### Path 4: segment 0 of the row against block 4, weight one half -/

/-- The row's slice: entry `k` of segment 0. -/
theorem xs4 (b : Fin 32768) (k : Fin 128) : val_main_v146 (F := Ideal) x0 (ix2 b k) = x0 (Spec.xi b 0 k) := by
  rw [val_main_v146_apply]
  exact congrArg x0 (funext fun a => Fin.ext (by
    match a with
    | ⟨0, _⟩ => rfl
    | ⟨1, _⟩ => show k.val = 128 * 0 + k.val; omega))

/-- The weights' slice, folded to `[4, 128, 128]`: entry `(e, k, v)` is entry `(k, v)` of expert `e`'s block 4. -/
theorem blk4 (e : Fin 4) (k v : Fin 128) : val_main_v148 (F := Ideal) x1 (ix3 e k v) = x1 (Spec.wi e 4 k v) := by
  rw [val_main_v148_apply, val_main_v147_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show 65536 + ((e.val * 128 + k.val) * 128 + v.val) % 16384 = 16384 * 4 + 128 * k.val + v.val; omega))

theorem w4_0 (k v : Fin 128) : val_main_v152 (F := Ideal) x1 (ix2 k v) = x1 (Spec.wi 0 4 k v) := by
  rw [val_main_v152_apply, val_main_v151_apply,
    show idx_main_v151 (idx_main_v152 (ix2 k v)) = ix3 (0 : Fin 4) k v from pick0 k v, blk4]
theorem w4_1 (k v : Fin 128) : val_main_v159 (F := Ideal) x1 (ix2 k v) = x1 (Spec.wi 1 4 k v) := by
  rw [val_main_v159_apply, val_main_v158_apply,
    show idx_main_v158 (idx_main_v159 (ix2 k v)) = ix3 (1 : Fin 4) k v from pick1 k v, blk4]
theorem w4_2 (k v : Fin 128) : val_main_v166 (F := Ideal) x1 (ix2 k v) = x1 (Spec.wi 2 4 k v) := by
  rw [val_main_v166_apply, val_main_v165_apply,
    show idx_main_v165 (idx_main_v166 (ix2 k v)) = ix3 (2 : Fin 4) k v from pick2 k v, blk4]
theorem w4_3 (k v : Fin 128) : val_main_v173 (F := Ideal) x1 (ix2 k v) = x1 (Spec.wi 3 4 k v) := by
  rw [val_main_v173_apply, val_main_v172_apply,
    show idx_main_v172 (idx_main_v173 (ix2 k v)) = ix3 (3 : Fin 4) k v from pick3 k v, blk4]

theorem m4_0 (b : Fin 32768) (v : Fin 128) : val_main_v154 (F := Ideal) x2 (ix2 b v) = Spec.msk (x2 (ix1 b)) 0 := by
  rw [val_main_v154_apply, val_main_v150_apply,
    show idx_main_v150 (idx_main_v154 (ix2 b v)) = ix2 b (0 : Fin 4) from col0 b v, onehot]
theorem m4_1 (b : Fin 32768) (v : Fin 128) : val_main_v161 (F := Ideal) x2 (ix2 b v) = Spec.msk (x2 (ix1 b)) 1 := by
  rw [val_main_v161_apply, val_main_v157_apply,
    show idx_main_v157 (idx_main_v161 (ix2 b v)) = ix2 b (1 : Fin 4) from col1 b v, onehot]
theorem m4_2 (b : Fin 32768) (v : Fin 128) : val_main_v168 (F := Ideal) x2 (ix2 b v) = Spec.msk (x2 (ix1 b)) 2 := by
  rw [val_main_v168_apply, val_main_v164_apply,
    show idx_main_v164 (idx_main_v168 (ix2 b v)) = ix2 b (2 : Fin 4) from col2 b v, onehot]
theorem m4_3 (b : Fin 32768) (v : Fin 128) : val_main_v175 (F := Ideal) x2 (ix2 b v) = Spec.msk (x2 (ix1 b)) 3 := by
  rw [val_main_v175_apply, val_main_v171_apply,
    show idx_main_v171 (idx_main_v175 (ix2 b v)) = ix2 b (3 : Fin 4) from col3 b v, onehot]

theorem d4_0 (b : Fin 32768) (v : Fin 128) :
    val_main_v153 (F := Ideal) x0 x1 (ix2 b v) = Spec.seg x0 x1 b 0 4 0 v := by
  rw [val_main_v153_apply]; unfold Spec.seg
  refine Finset.sum_congr rfl fun k _ => ?_
  rw [show lidx_main_v153 (ix2 b v) k = ix2 b k from lix b v k,
    show ridx_main_v153 (ix2 b v) k = ix2 k v from rix b v k, xs4, w4_0]
theorem d4_1 (b : Fin 32768) (v : Fin 128) :
    val_main_v160 (F := Ideal) x0 x1 (ix2 b v) = Spec.seg x0 x1 b 0 4 1 v := by
  rw [val_main_v160_apply]; unfold Spec.seg
  refine Finset.sum_congr rfl fun k _ => ?_
  rw [show lidx_main_v160 (ix2 b v) k = ix2 b k from lix b v k,
    show ridx_main_v160 (ix2 b v) k = ix2 k v from rix b v k, xs4, w4_1]
theorem d4_2 (b : Fin 32768) (v : Fin 128) :
    val_main_v167 (F := Ideal) x0 x1 (ix2 b v) = Spec.seg x0 x1 b 0 4 2 v := by
  rw [val_main_v167_apply]; unfold Spec.seg
  refine Finset.sum_congr rfl fun k _ => ?_
  rw [show lidx_main_v167 (ix2 b v) k = ix2 b k from lix b v k,
    show ridx_main_v167 (ix2 b v) k = ix2 k v from rix b v k, xs4, w4_2]
theorem d4_3 (b : Fin 32768) (v : Fin 128) :
    val_main_v174 (F := Ideal) x0 x1 (ix2 b v) = Spec.seg x0 x1 b 0 4 3 v := by
  rw [val_main_v174_apply]; unfold Spec.seg
  refine Finset.sum_congr rfl fun k _ => ?_
  rw [show lidx_main_v174 (ix2 b v) k = ix2 b k from lix b v k,
    show ridx_main_v174 (ix2 b v) k = ix2 k v from rix b v k, xs4, w4_3]

/-- Path 4: input segment 0, weight block 4, weight one half. -/
theorem upd4 (b : Fin 32768) (v : Fin 128) :
    val_main_v179 (F := Ideal) x0 x1 x2 (ix2 b v) = Spec.half * Spec.path x0 x1 x2 b 0 4 v := by
  rw [val_main_v179_apply, val_main_v178_apply, val_main_cst_12_apply, val_main_v177_apply,
    val_main_v170_apply, val_main_v163_apply, val_main_v156_apply, val_main_v149_apply,
    val_main_cst_11_apply, val_main_v155_apply, val_main_v162_apply, val_main_v169_apply,
    val_main_v176_apply, m4_0, m4_1, m4_2, m4_3, d4_0, d4_1, d4_2, d4_3]
  simp only [Ideal.mulf_def, Ideal.addf_def, Ideal.ofBits_def, Spec.ofBits_zero, Spec.ofBits_half]
  rfl

/-! ### Path 5: segment 1 of the row against block 5, weight one half -/

/-- The row's slice: entry `k` of segment 1. -/
theorem xs5 (b : Fin 32768) (k : Fin 128) : val_main_v182 (F := Ideal) x0 (ix2 b k) = x0 (Spec.xi b 1 k) := by
  rw [val_main_v182_apply]
  exact congrArg x0 (funext fun a => Fin.ext (by
    match a with
    | ⟨0, _⟩ => rfl
    | ⟨1, _⟩ => show 128 + k.val = 128 * 1 + k.val; omega))

/-- The weights' slice, folded to `[4, 128, 128]`: entry `(e, k, v)` is entry `(k, v)` of expert `e`'s block 5. -/
theorem blk5 (e : Fin 4) (k v : Fin 128) : val_main_v184 (F := Ideal) x1 (ix3 e k v) = x1 (Spec.wi e 5 k v) := by
  rw [val_main_v184_apply, val_main_v183_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show 81920 + ((e.val * 128 + k.val) * 128 + v.val) % 16384 = 16384 * 5 + 128 * k.val + v.val; omega))

theorem w5_0 (k v : Fin 128) : val_main_v188 (F := Ideal) x1 (ix2 k v) = x1 (Spec.wi 0 5 k v) := by
  rw [val_main_v188_apply, val_main_v187_apply,
    show idx_main_v187 (idx_main_v188 (ix2 k v)) = ix3 (0 : Fin 4) k v from pick0 k v, blk5]
theorem w5_1 (k v : Fin 128) : val_main_v195 (F := Ideal) x1 (ix2 k v) = x1 (Spec.wi 1 5 k v) := by
  rw [val_main_v195_apply, val_main_v194_apply,
    show idx_main_v194 (idx_main_v195 (ix2 k v)) = ix3 (1 : Fin 4) k v from pick1 k v, blk5]
theorem w5_2 (k v : Fin 128) : val_main_v202 (F := Ideal) x1 (ix2 k v) = x1 (Spec.wi 2 5 k v) := by
  rw [val_main_v202_apply, val_main_v201_apply,
    show idx_main_v201 (idx_main_v202 (ix2 k v)) = ix3 (2 : Fin 4) k v from pick2 k v, blk5]
theorem w5_3 (k v : Fin 128) : val_main_v209 (F := Ideal) x1 (ix2 k v) = x1 (Spec.wi 3 5 k v) := by
  rw [val_main_v209_apply, val_main_v208_apply,
    show idx_main_v208 (idx_main_v209 (ix2 k v)) = ix3 (3 : Fin 4) k v from pick3 k v, blk5]

theorem m5_0 (b : Fin 32768) (v : Fin 128) : val_main_v190 (F := Ideal) x2 (ix2 b v) = Spec.msk (x2 (ix1 b)) 0 := by
  rw [val_main_v190_apply, val_main_v186_apply,
    show idx_main_v186 (idx_main_v190 (ix2 b v)) = ix2 b (0 : Fin 4) from col0 b v, onehot]
theorem m5_1 (b : Fin 32768) (v : Fin 128) : val_main_v197 (F := Ideal) x2 (ix2 b v) = Spec.msk (x2 (ix1 b)) 1 := by
  rw [val_main_v197_apply, val_main_v193_apply,
    show idx_main_v193 (idx_main_v197 (ix2 b v)) = ix2 b (1 : Fin 4) from col1 b v, onehot]
theorem m5_2 (b : Fin 32768) (v : Fin 128) : val_main_v204 (F := Ideal) x2 (ix2 b v) = Spec.msk (x2 (ix1 b)) 2 := by
  rw [val_main_v204_apply, val_main_v200_apply,
    show idx_main_v200 (idx_main_v204 (ix2 b v)) = ix2 b (2 : Fin 4) from col2 b v, onehot]
theorem m5_3 (b : Fin 32768) (v : Fin 128) : val_main_v211 (F := Ideal) x2 (ix2 b v) = Spec.msk (x2 (ix1 b)) 3 := by
  rw [val_main_v211_apply, val_main_v207_apply,
    show idx_main_v207 (idx_main_v211 (ix2 b v)) = ix2 b (3 : Fin 4) from col3 b v, onehot]

theorem d5_0 (b : Fin 32768) (v : Fin 128) :
    val_main_v189 (F := Ideal) x0 x1 (ix2 b v) = Spec.seg x0 x1 b 1 5 0 v := by
  rw [val_main_v189_apply]; unfold Spec.seg
  refine Finset.sum_congr rfl fun k _ => ?_
  rw [show lidx_main_v189 (ix2 b v) k = ix2 b k from lix b v k,
    show ridx_main_v189 (ix2 b v) k = ix2 k v from rix b v k, xs5, w5_0]
theorem d5_1 (b : Fin 32768) (v : Fin 128) :
    val_main_v196 (F := Ideal) x0 x1 (ix2 b v) = Spec.seg x0 x1 b 1 5 1 v := by
  rw [val_main_v196_apply]; unfold Spec.seg
  refine Finset.sum_congr rfl fun k _ => ?_
  rw [show lidx_main_v196 (ix2 b v) k = ix2 b k from lix b v k,
    show ridx_main_v196 (ix2 b v) k = ix2 k v from rix b v k, xs5, w5_1]
theorem d5_2 (b : Fin 32768) (v : Fin 128) :
    val_main_v203 (F := Ideal) x0 x1 (ix2 b v) = Spec.seg x0 x1 b 1 5 2 v := by
  rw [val_main_v203_apply]; unfold Spec.seg
  refine Finset.sum_congr rfl fun k _ => ?_
  rw [show lidx_main_v203 (ix2 b v) k = ix2 b k from lix b v k,
    show ridx_main_v203 (ix2 b v) k = ix2 k v from rix b v k, xs5, w5_2]
theorem d5_3 (b : Fin 32768) (v : Fin 128) :
    val_main_v210 (F := Ideal) x0 x1 (ix2 b v) = Spec.seg x0 x1 b 1 5 3 v := by
  rw [val_main_v210_apply]; unfold Spec.seg
  refine Finset.sum_congr rfl fun k _ => ?_
  rw [show lidx_main_v210 (ix2 b v) k = ix2 b k from lix b v k,
    show ridx_main_v210 (ix2 b v) k = ix2 k v from rix b v k, xs5, w5_3]

/-- Path 5: input segment 1, weight block 5, weight one half. -/
theorem upd5 (b : Fin 32768) (v : Fin 128) :
    val_main_v215 (F := Ideal) x0 x1 x2 (ix2 b v) = Spec.half * Spec.path x0 x1 x2 b 1 5 v := by
  rw [val_main_v215_apply, val_main_v214_apply, val_main_cst_15_apply, val_main_v213_apply,
    val_main_v206_apply, val_main_v199_apply, val_main_v192_apply, val_main_v185_apply,
    val_main_cst_14_apply, val_main_v191_apply, val_main_v198_apply, val_main_v205_apply,
    val_main_v212_apply, m5_0, m5_1, m5_2, m5_3, d5_0, d5_1, d5_2, d5_3]
  simp only [Ideal.mulf_def, Ideal.addf_def, Ideal.ofBits_def, Spec.ofBits_zero, Spec.ofBits_half]
  rfl

/-! ### Path 6: segment 2 of the row against block 6, weight one half -/

/-- The row's slice: entry `k` of segment 2. -/
theorem xs6 (b : Fin 32768) (k : Fin 128) : val_main_v218 (F := Ideal) x0 (ix2 b k) = x0 (Spec.xi b 2 k) := by
  rw [val_main_v218_apply]
  exact congrArg x0 (funext fun a => Fin.ext (by
    match a with
    | ⟨0, _⟩ => rfl
    | ⟨1, _⟩ => show 256 + k.val = 128 * 2 + k.val; omega))

/-- The weights' slice, folded to `[4, 128, 128]`: entry `(e, k, v)` is entry `(k, v)` of expert `e`'s block 6. -/
theorem blk6 (e : Fin 4) (k v : Fin 128) : val_main_v220 (F := Ideal) x1 (ix3 e k v) = x1 (Spec.wi e 6 k v) := by
  rw [val_main_v220_apply, val_main_v219_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show 98304 + ((e.val * 128 + k.val) * 128 + v.val) % 16384 = 16384 * 6 + 128 * k.val + v.val; omega))

theorem w6_0 (k v : Fin 128) : val_main_v224 (F := Ideal) x1 (ix2 k v) = x1 (Spec.wi 0 6 k v) := by
  rw [val_main_v224_apply, val_main_v223_apply,
    show idx_main_v223 (idx_main_v224 (ix2 k v)) = ix3 (0 : Fin 4) k v from pick0 k v, blk6]
theorem w6_1 (k v : Fin 128) : val_main_v231 (F := Ideal) x1 (ix2 k v) = x1 (Spec.wi 1 6 k v) := by
  rw [val_main_v231_apply, val_main_v230_apply,
    show idx_main_v230 (idx_main_v231 (ix2 k v)) = ix3 (1 : Fin 4) k v from pick1 k v, blk6]
theorem w6_2 (k v : Fin 128) : val_main_v238 (F := Ideal) x1 (ix2 k v) = x1 (Spec.wi 2 6 k v) := by
  rw [val_main_v238_apply, val_main_v237_apply,
    show idx_main_v237 (idx_main_v238 (ix2 k v)) = ix3 (2 : Fin 4) k v from pick2 k v, blk6]
theorem w6_3 (k v : Fin 128) : val_main_v245 (F := Ideal) x1 (ix2 k v) = x1 (Spec.wi 3 6 k v) := by
  rw [val_main_v245_apply, val_main_v244_apply,
    show idx_main_v244 (idx_main_v245 (ix2 k v)) = ix3 (3 : Fin 4) k v from pick3 k v, blk6]

theorem m6_0 (b : Fin 32768) (v : Fin 128) : val_main_v226 (F := Ideal) x2 (ix2 b v) = Spec.msk (x2 (ix1 b)) 0 := by
  rw [val_main_v226_apply, val_main_v222_apply,
    show idx_main_v222 (idx_main_v226 (ix2 b v)) = ix2 b (0 : Fin 4) from col0 b v, onehot]
theorem m6_1 (b : Fin 32768) (v : Fin 128) : val_main_v233 (F := Ideal) x2 (ix2 b v) = Spec.msk (x2 (ix1 b)) 1 := by
  rw [val_main_v233_apply, val_main_v229_apply,
    show idx_main_v229 (idx_main_v233 (ix2 b v)) = ix2 b (1 : Fin 4) from col1 b v, onehot]
theorem m6_2 (b : Fin 32768) (v : Fin 128) : val_main_v240 (F := Ideal) x2 (ix2 b v) = Spec.msk (x2 (ix1 b)) 2 := by
  rw [val_main_v240_apply, val_main_v236_apply,
    show idx_main_v236 (idx_main_v240 (ix2 b v)) = ix2 b (2 : Fin 4) from col2 b v, onehot]
theorem m6_3 (b : Fin 32768) (v : Fin 128) : val_main_v247 (F := Ideal) x2 (ix2 b v) = Spec.msk (x2 (ix1 b)) 3 := by
  rw [val_main_v247_apply, val_main_v243_apply,
    show idx_main_v243 (idx_main_v247 (ix2 b v)) = ix2 b (3 : Fin 4) from col3 b v, onehot]

theorem d6_0 (b : Fin 32768) (v : Fin 128) :
    val_main_v225 (F := Ideal) x0 x1 (ix2 b v) = Spec.seg x0 x1 b 2 6 0 v := by
  rw [val_main_v225_apply]; unfold Spec.seg
  refine Finset.sum_congr rfl fun k _ => ?_
  rw [show lidx_main_v225 (ix2 b v) k = ix2 b k from lix b v k,
    show ridx_main_v225 (ix2 b v) k = ix2 k v from rix b v k, xs6, w6_0]
theorem d6_1 (b : Fin 32768) (v : Fin 128) :
    val_main_v232 (F := Ideal) x0 x1 (ix2 b v) = Spec.seg x0 x1 b 2 6 1 v := by
  rw [val_main_v232_apply]; unfold Spec.seg
  refine Finset.sum_congr rfl fun k _ => ?_
  rw [show lidx_main_v232 (ix2 b v) k = ix2 b k from lix b v k,
    show ridx_main_v232 (ix2 b v) k = ix2 k v from rix b v k, xs6, w6_1]
theorem d6_2 (b : Fin 32768) (v : Fin 128) :
    val_main_v239 (F := Ideal) x0 x1 (ix2 b v) = Spec.seg x0 x1 b 2 6 2 v := by
  rw [val_main_v239_apply]; unfold Spec.seg
  refine Finset.sum_congr rfl fun k _ => ?_
  rw [show lidx_main_v239 (ix2 b v) k = ix2 b k from lix b v k,
    show ridx_main_v239 (ix2 b v) k = ix2 k v from rix b v k, xs6, w6_2]
theorem d6_3 (b : Fin 32768) (v : Fin 128) :
    val_main_v246 (F := Ideal) x0 x1 (ix2 b v) = Spec.seg x0 x1 b 2 6 3 v := by
  rw [val_main_v246_apply]; unfold Spec.seg
  refine Finset.sum_congr rfl fun k _ => ?_
  rw [show lidx_main_v246 (ix2 b v) k = ix2 b k from lix b v k,
    show ridx_main_v246 (ix2 b v) k = ix2 k v from rix b v k, xs6, w6_3]

/-- Path 6: input segment 2, weight block 6, weight one half. -/
theorem upd6 (b : Fin 32768) (v : Fin 128) :
    val_main_v251 (F := Ideal) x0 x1 x2 (ix2 b v) = Spec.half * Spec.path x0 x1 x2 b 2 6 v := by
  rw [val_main_v251_apply, val_main_v250_apply, val_main_cst_18_apply, val_main_v249_apply,
    val_main_v242_apply, val_main_v235_apply, val_main_v228_apply, val_main_v221_apply,
    val_main_cst_17_apply, val_main_v227_apply, val_main_v234_apply, val_main_v241_apply,
    val_main_v248_apply, m6_0, m6_1, m6_2, m6_3, d6_0, d6_1, d6_2, d6_3]
  simp only [Ideal.mulf_def, Ideal.addf_def, Ideal.ofBits_def, Spec.ofBits_zero, Spec.ofBits_half]
  rfl

/-! ### Path 7: segment 3 of the row against block 7, weight one half -/

/-- The row's slice: entry `k` of segment 3. -/
theorem xs7 (b : Fin 32768) (k : Fin 128) : val_main_v254 (F := Ideal) x0 (ix2 b k) = x0 (Spec.xi b 3 k) := by
  rw [val_main_v254_apply]
  exact congrArg x0 (funext fun a => Fin.ext (by
    match a with
    | ⟨0, _⟩ => rfl
    | ⟨1, _⟩ => show 384 + k.val = 128 * 3 + k.val; omega))

/-- The weights' slice, folded to `[4, 128, 128]`: entry `(e, k, v)` is entry `(k, v)` of expert `e`'s block 7. -/
theorem blk7 (e : Fin 4) (k v : Fin 128) : val_main_v256 (F := Ideal) x1 (ix3 e k v) = x1 (Spec.wi e 7 k v) := by
  rw [val_main_v256_apply, val_main_v255_apply]
  exact congrArg x1 (funext fun a => Fin.ext (by
    have := e.isLt; have := k.isLt; have := v.isLt
    match a with
    | ⟨0, _⟩ => show ((e.val * 128 + k.val) * 128 + v.val) / 16384 = e.val; omega
    | ⟨1, _⟩ => show 114688 + ((e.val * 128 + k.val) * 128 + v.val) % 16384 = 16384 * 7 + 128 * k.val + v.val; omega))

theorem w7_0 (k v : Fin 128) : val_main_v260 (F := Ideal) x1 (ix2 k v) = x1 (Spec.wi 0 7 k v) := by
  rw [val_main_v260_apply, val_main_v259_apply,
    show idx_main_v259 (idx_main_v260 (ix2 k v)) = ix3 (0 : Fin 4) k v from pick0 k v, blk7]
theorem w7_1 (k v : Fin 128) : val_main_v267 (F := Ideal) x1 (ix2 k v) = x1 (Spec.wi 1 7 k v) := by
  rw [val_main_v267_apply, val_main_v266_apply,
    show idx_main_v266 (idx_main_v267 (ix2 k v)) = ix3 (1 : Fin 4) k v from pick1 k v, blk7]
theorem w7_2 (k v : Fin 128) : val_main_v274 (F := Ideal) x1 (ix2 k v) = x1 (Spec.wi 2 7 k v) := by
  rw [val_main_v274_apply, val_main_v273_apply,
    show idx_main_v273 (idx_main_v274 (ix2 k v)) = ix3 (2 : Fin 4) k v from pick2 k v, blk7]
theorem w7_3 (k v : Fin 128) : val_main_v281 (F := Ideal) x1 (ix2 k v) = x1 (Spec.wi 3 7 k v) := by
  rw [val_main_v281_apply, val_main_v280_apply,
    show idx_main_v280 (idx_main_v281 (ix2 k v)) = ix3 (3 : Fin 4) k v from pick3 k v, blk7]

theorem m7_0 (b : Fin 32768) (v : Fin 128) : val_main_v262 (F := Ideal) x2 (ix2 b v) = Spec.msk (x2 (ix1 b)) 0 := by
  rw [val_main_v262_apply, val_main_v258_apply,
    show idx_main_v258 (idx_main_v262 (ix2 b v)) = ix2 b (0 : Fin 4) from col0 b v, onehot]
theorem m7_1 (b : Fin 32768) (v : Fin 128) : val_main_v269 (F := Ideal) x2 (ix2 b v) = Spec.msk (x2 (ix1 b)) 1 := by
  rw [val_main_v269_apply, val_main_v265_apply,
    show idx_main_v265 (idx_main_v269 (ix2 b v)) = ix2 b (1 : Fin 4) from col1 b v, onehot]
theorem m7_2 (b : Fin 32768) (v : Fin 128) : val_main_v276 (F := Ideal) x2 (ix2 b v) = Spec.msk (x2 (ix1 b)) 2 := by
  rw [val_main_v276_apply, val_main_v272_apply,
    show idx_main_v272 (idx_main_v276 (ix2 b v)) = ix2 b (2 : Fin 4) from col2 b v, onehot]
theorem m7_3 (b : Fin 32768) (v : Fin 128) : val_main_v283 (F := Ideal) x2 (ix2 b v) = Spec.msk (x2 (ix1 b)) 3 := by
  rw [val_main_v283_apply, val_main_v279_apply,
    show idx_main_v279 (idx_main_v283 (ix2 b v)) = ix2 b (3 : Fin 4) from col3 b v, onehot]

theorem d7_0 (b : Fin 32768) (v : Fin 128) :
    val_main_v261 (F := Ideal) x0 x1 (ix2 b v) = Spec.seg x0 x1 b 3 7 0 v := by
  rw [val_main_v261_apply]; unfold Spec.seg
  refine Finset.sum_congr rfl fun k _ => ?_
  rw [show lidx_main_v261 (ix2 b v) k = ix2 b k from lix b v k,
    show ridx_main_v261 (ix2 b v) k = ix2 k v from rix b v k, xs7, w7_0]
theorem d7_1 (b : Fin 32768) (v : Fin 128) :
    val_main_v268 (F := Ideal) x0 x1 (ix2 b v) = Spec.seg x0 x1 b 3 7 1 v := by
  rw [val_main_v268_apply]; unfold Spec.seg
  refine Finset.sum_congr rfl fun k _ => ?_
  rw [show lidx_main_v268 (ix2 b v) k = ix2 b k from lix b v k,
    show ridx_main_v268 (ix2 b v) k = ix2 k v from rix b v k, xs7, w7_1]
theorem d7_2 (b : Fin 32768) (v : Fin 128) :
    val_main_v275 (F := Ideal) x0 x1 (ix2 b v) = Spec.seg x0 x1 b 3 7 2 v := by
  rw [val_main_v275_apply]; unfold Spec.seg
  refine Finset.sum_congr rfl fun k _ => ?_
  rw [show lidx_main_v275 (ix2 b v) k = ix2 b k from lix b v k,
    show ridx_main_v275 (ix2 b v) k = ix2 k v from rix b v k, xs7, w7_2]
theorem d7_3 (b : Fin 32768) (v : Fin 128) :
    val_main_v282 (F := Ideal) x0 x1 (ix2 b v) = Spec.seg x0 x1 b 3 7 3 v := by
  rw [val_main_v282_apply]; unfold Spec.seg
  refine Finset.sum_congr rfl fun k _ => ?_
  rw [show lidx_main_v282 (ix2 b v) k = ix2 b k from lix b v k,
    show ridx_main_v282 (ix2 b v) k = ix2 k v from rix b v k, xs7, w7_3]

/-- Path 7: input segment 3, weight block 7, weight one half. -/
theorem upd7 (b : Fin 32768) (v : Fin 128) :
    val_main_v287 (F := Ideal) x0 x1 x2 (ix2 b v) = Spec.half * Spec.path x0 x1 x2 b 3 7 v := by
  rw [val_main_v287_apply, val_main_v286_apply, val_main_cst_21_apply, val_main_v285_apply,
    val_main_v278_apply, val_main_v271_apply, val_main_v264_apply, val_main_v257_apply,
    val_main_cst_20_apply, val_main_v263_apply, val_main_v270_apply, val_main_v277_apply,
    val_main_v284_apply, m7_0, m7_1, m7_2, m7_3, d7_0, d7_1, d7_2, d7_3]
  simp only [Ideal.mulf_def, Ideal.addf_def, Ideal.ofBits_def, Spec.ofBits_zero, Spec.ofBits_half]
  rfl

end Cert.RefSide

end
-- ==== Proof.RefScatter.lean ====
/-
  The reference's result, index by index: eight accumulation steps over a zero array, each adding one path's term
  into one output segment; every output segment meets exactly two of them.
-/
import proofs.«170114_j59356448030869_1_alg».proof.Proof.RefRead
import proofs.«170114_j59356448030869_1_alg».proof.Proof.Spec
import proofs.«170114_j59356448030869_1_alg».proof.Proof.LibScatter
import proofs.«170114_j59356448030869_1_alg».proof.Proof.RefPaths

noncomputable section

namespace Cert.RefSide

open Idealize.ShloMosaic Idealize.ShloMosaic.ValueIdx
open Cert.ReferenceIdeal Cert.ReferenceIdeal.ReadP

namespace Scat

/-- The program's accumulation record in coordinates: both axes of the update are window axes, and the one start
    index is a column of the operand. -/
theorem sc_eq : scatter_S32768x512_S1_S32768x128_01_n_1_0
    = ScatterLib.dims2 32768 512 128 Gen.scatter_S32768x512_S1_S32768x128_01_n_1_0_wf := rfl

/-- One accumulation step read at entry `v` of output segment `k` of row `b`: a step whose start column is `128 m`
    joins the operand's entry with the update's entry `(b, v)` when `k = m`, and leaves the operand's entry otherwise. -/
theorem step (f : EReal → EReal → EReal) (prev : Spec.SX.Idx → EReal) (idx : IVec ⟨1, ![1]⟩ 32)
    (upd : (⟨2, ![32768, 128]⟩ : Shape).Idx → EReal)
    (m : ℕ) (hm : m < 4) (hC : (idx (ix1 (0 : Fin 1))).toInt = ((128 * m : ℕ) : ℤ))
    (b : Fin 32768) (k : Fin 4) (v : Fin 128) :
    Host.scatter scatter_S32768x512_S1_S32768x128_01_n_1_0 f prev idx upd (Spec.xi b k v)
      = if k.val = m then f (prev (Spec.xi b k v)) (upd (ix2 b v)) else prev (Spec.xi b k v) := by
  rw [sc_eq]
  split_ifs with hk
  · exact ScatterLib.scatter_cols2_hit _ f prev idx upd (128 * m) hC (by omega) b _ v
      (by show 128 * k.val + v.val = 128 * m + v.val; rw [hk])
  · exact ScatterLib.scatter_cols2_miss _ f prev idx upd (128 * m) hC (by omega) b _
      (by
        show 128 * k.val + v.val < 128 * m ∨ 128 * m + 128 ≤ 128 * k.val + v.val
        have := v.isLt
        omega)

variable (x0 : Spec.SX.Idx → EReal) (x1 : Spec.SW.Idx → EReal) (x2 : Spec.SI.Idx → BitVec 32)

/-- The array the accumulation starts from is zero everywhere. -/
theorem zero_at (i : Spec.SX.Idx) : val_main_v1 (F := Ideal) i = (0 : EReal) := by
  rw [val_main_v1_apply, val_main_cst_apply]
  exact Spec.ofBits_zero

/-! The start columns of the eight steps: `0, 128, 256, 384, 128, 256, 384, 0`. -/

theorem start36 : ((val_main_v36 (F := Ideal)) (ix1 (0 : Fin 1))).toInt = ((128 * 0 : ℕ) : ℤ) := by
  rw [val_main_v36_apply, val_main_c_apply]
  decide

theorem start72 : ((val_main_v72 (F := Ideal)) (ix1 (0 : Fin 1))).toInt = ((128 * 1 : ℕ) : ℤ) := by
  rw [val_main_v72_apply, val_main_c_4_apply]
  decide

theorem start108 : ((val_main_v108 (F := Ideal)) (ix1 (0 : Fin 1))).toInt = ((128 * 2 : ℕ) : ℤ) := by
  rw [val_main_v108_apply, val_main_c_7_apply]
  decide

theorem start144 : ((val_main_v144 (F := Ideal)) (ix1 (0 : Fin 1))).toInt = ((128 * 3 : ℕ) : ℤ) := by
  rw [val_main_v144_apply, val_main_c_10_apply]
  decide

theorem start180 : ((val_main_v180 (F := Ideal)) (ix1 (0 : Fin 1))).toInt = ((128 * 1 : ℕ) : ℤ) := by
  rw [val_main_v180_apply, val_main_c_13_apply]
  decide

theorem start216 : ((val_main_v216 (F := Ideal)) (ix1 (0 : Fin 1))).toInt = ((128 * 2 : ℕ) : ℤ) := by
  rw [val_main_v216_apply, val_main_c_16_apply]
  decide

theorem start252 : ((val_main_v252 (F := Ideal)) (ix1 (0 : Fin 1))).toInt = ((128 * 3 : ℕ) : ℤ) := by
  rw [val_main_v252_apply, val_main_c_19_apply]
  decide

theorem start288 : ((val_main_v288 (F := Ideal)) (ix1 (0 : Fin 1))).toInt = ((128 * 0 : ℕ) : ℤ) := by
  rw [val_main_v288_apply, val_main_c_22_apply]
  decide

/-! Each step read at entry `v` of output segment `k`: the step with start column `128 m` adds its update's entry
    `(b, v)` to the previous array's entry when `k = m`, and keeps the previous entry otherwise. -/

theorem at37 (b : Fin 32768) (k : Fin 4) (v : Fin 128) :
    val_main_v37 (F := Ideal) x0 x1 x2 (Spec.xi b k v)
      = if k.val = 0 then val_main_v1 (F := Ideal) (Spec.xi b k v) + val_main_v35 (F := Ideal) x0 x1 x2 (ix2 b v)
        else val_main_v1 (F := Ideal) (Spec.xi b k v) :=
  step _ _ _ _ 0 (by norm_num) start36 b k v

theorem at73 (b : Fin 32768) (k : Fin 4) (v : Fin 128) :
    val_main_v73 (F := Ideal) x0 x1 x2 (Spec.xi b k v)
      = if k.val = 1 then val_main_v37 (F := Ideal) x0 x1 x2 (Spec.xi b k v) + val_main_v71 (F := Ideal) x0 x1 x2 (ix2 b v)
        else val_main_v37 (F := Ideal) x0 x1 x2 (Spec.xi b k v) :=
  step _ _ _ _ 1 (by norm_num) start72 b k v

theorem at109 (b : Fin 32768) (k : Fin 4) (v : Fin 128) :
    val_main_v109 (F := Ideal) x0 x1 x2 (Spec.xi b k v)
      = if k.val = 2 then val_main_v73 (F := Ideal) x0 x1 x2 (Spec.xi b k v) + val_main_v107 (F := Ideal) x0 x1 x2 (ix2 b v)
        else val_main_v73 (F := Ideal) x0 x1 x2 (Spec.xi b k v) :=
  step _ _ _ _ 2 (by norm_num) start108 b k v

theorem at145 (b : Fin 32768) (k : Fin 4) (v : Fin 128) :
    val_main_v145 (F := Ideal) x0 x1 x2 (Spec.xi b k v)
      = if k.val = 3 then val_main_v109 (F := Ideal) x0 x1 x2 (Spec.xi b k v) + val_main_v143 (F := Ideal) x0 x1 x2 (ix2 b v)
        else val_main_v109 (F := Ideal) x0 x1 x2 (Spec.xi b k v) :=
  step _ _ _ _ 3 (by norm_num) start144 b k v

theorem at181 (b : Fin 32768) (k : Fin 4) (v : Fin 128) :
    val_main_v181 (F := Ideal) x0 x1 x2 (Spec.xi b k v)
      = if k.val = 1 then val_main_v145 (F := Ideal) x0 x1 x2 (Spec.xi b k v) + val_main_v179 (F := Ideal) x0 x1 x2 (ix2 b v)
        else val_main_v145 (F := Ideal) x0 x1 x2 (Spec.xi b k v) :=
  step _ _ _ _ 1 (by norm_num) start180 b k v

theorem at217 (b : Fin 32768) (k : Fin 4) (v : Fin 128) :
    val_main_v217 (F := Ideal) x0 x1 x2 (Spec.xi b k v)
      = if k.val = 2 then val_main_v181 (F := Ideal) x0 x1 x2 (Spec.xi b k v) + val_main_v215 (F := Ideal) x0 x1 x2 (ix2 b v)
        else val_main_v181 (F := Ideal) x0 x1 x2 (Spec.xi b k v) :=
  step _ _ _ _ 2 (by norm_num) start216 b k v

theorem at253 (b : Fin 32768) (k : Fin 4) (v : Fin 128) :
    val_main_v253 (F := Ideal) x0 x1 x2 (Spec.xi b k v)
      = if k.val = 3 then val_main_v217 (F := Ideal) x0 x1 x2 (Spec.xi b k v) + val_main_v251 (F := Ideal) x0 x1 x2 (ix2 b v)
        else val_main_v217 (F := Ideal) x0 x1 x2 (Spec.xi b k v) :=
  step _ _ _ _ 3 (by norm_num) start252 b k v

theorem at289 (b : Fin 32768) (k : Fin 4) (v : Fin 128) :
    val_main_v289 (F := Ideal) x0 x1 x2 (Spec.xi b k v)
      = if k.val = 0 then val_main_v253 (F := Ideal) x0 x1 x2 (Spec.xi b k v) + val_main_v287 (F := Ideal) x0 x1 x2 (ix2 b v)
        else val_main_v253 (F := Ideal) x0 x1 x2 (Spec.xi b k v) :=
  step _ _ _ _ 0 (by norm_num) start288 b k v

end Scat

open Scat

/-- The reference's result at entry `v` of output segment `k` of row `b` is the path side. -/
theorem ref_apply (x0 : Spec.SX.Idx → EReal) (x1 : Spec.SW.Idx → EReal) (x2 : Spec.SI.Idx → BitVec 32)
    (b : Fin 32768) (k : Fin 4) (v : Fin 128) :
    val_main_v289 (F := Ideal) x0 x1 x2 (Spec.xi b k v) = Spec.viaPaths x0 x1 x2 b k v := by
  fin_cases k
  · rw [at289, if_pos (by decide), at253, if_neg (by decide), at217, if_neg (by decide), at181, if_neg (by decide),
      at145, if_neg (by decide), at109, if_neg (by decide), at73, if_neg (by decide), at37, if_pos (by decide),
      zero_at, upd0, upd7]
    rfl
  · rw [at289, if_neg (by decide), at253, if_neg (by decide), at217, if_neg (by decide), at181, if_pos (by decide),
      at145, if_neg (by decide), at109, if_neg (by decide), at73, if_pos (by decide), at37, if_neg (by decide),
      zero_at, upd1, upd4]
    rfl
  · rw [at289, if_neg (by decide), at253, if_neg (by decide), at217, if_pos (by decide), at181, if_neg (by decide),
      at145, if_neg (by decide), at109, if_pos (by decide), at73, if_neg (by decide), at37, if_neg (by decide),
      zero_at, upd2, upd5]
    rfl
  · rw [at289, if_neg (by decide), at253, if_pos (by decide), at217, if_neg (by decide), at181, if_neg (by decide),
      at145, if_pos (by decide), at109, if_neg (by decide), at73, if_neg (by decide), at37, if_neg (by decide),
      zero_at, upd3, upd6]
    rfl

end Cert.RefSide

end
-- ==== Proof.RefRun.lean ====
/-
  The reference program's run: every weakly fair execution of its 320 host operations terminates with the result
  buffer at the last stage's value of the three arguments, and the arguments unchanged.

  The program is a prologue (the one-hot table of the expert ids, and the zero output) followed by eight paths of 39
  operations, each ending in the scatter-add of its weighted result into the output. The operation list is cut after
  every scatter and at every window the program is printed in: twelve pieces. A path reads, of everything computed
  before it, only the two float arguments, the one-hot table and the previous scatter's result; so after each path
  those four (and the id argument) are known, the scatter's result at its stage's value of the arguments.
-/
import proofs.«170114_j59356448030869_1_alg».proof.Proof.RefRead
import Idealize.ShloMosaic.Lib.StableHlo.Run
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 1 … 47 of 320: the prologue and the first path. -/
abbrev q0 : List (HloOp τ sig (Elt F)) :=
  [ TRef.unary (TRef.of (T := ⟨S32768, .i32⟩) main_arg2) (TRef.of (T := ⟨S32768x1, .i32⟩) main_call0_v0) (broadcastInDim S32768x1 ![0] bcast_S32768_S32768x1_0),
    TRef.nullary (TRef.of (T := ⟨S1x4, .i32⟩) main_call0_v1) (iotaInDim S1x4 32 1),
    TRef.unary (TRef.of (T := ⟨S32768x1, .i32⟩) main_call0_v0) (TRef.of (T := ⟨S32768x4, .i32⟩) main_call0_v2) (broadcastInDim S32768x4 ![0, 1] bcast_S32768x1_S32768x4_0_1),
    TRef.unary (TRef.of (T := ⟨S1x4, .i32⟩) main_call0_v1) (TRef.of (T := ⟨S32768x4, .i32⟩) main_call0_v3) (broadcastInDim S32768x4 ![0, 1] bcast_S1x4_S32768x4_0_1),
    TRef.binary (TRef.of (T := ⟨S32768x4, .i32⟩) main_call0_v2) (TRef.of (T := ⟨S32768x4, .i32⟩) main_call0_v3) (TRef.of (T := ⟨S32768x4, .i1⟩) main_call0_v4) (cmpi .eq),
    TRef.unary (TRef.of (T := ⟨S32768x4, .i1⟩) main_call0_v4) (TRef.of (T := ⟨S32768x4, .f32⟩) main_v0) (uitofp .f32),
    nullary main_cst (constant S_ .f32 0x00000000#32),
    unary main_cst main_v1 (broadcastInDim S32768x512 ![] bcast_S_S32768x512 : (⟨S_, .f32⟩ : BufTy).Contents (Elt F) → (⟨S32768x512, .f32⟩ : BufTy).Contents (Elt F)),
    unary main_arg0 main_v2 ((extractStridedSlice S32768x128 ![0, 0] · slices_S32768x512_S32768x128_0_0) : (⟨S32768x512, .f32⟩ : BufTy).Contents (Elt F) → (⟨S32768x128, .f32⟩ : BufTy).Contents (Elt F)),
    unary main_arg1 main_v3 ((extractStridedSlice S4x16384 ![0, 0] · slices_S4x131072_S4x16384_0_0) : (⟨S4x131072, .f32⟩ : BufTy).Contents (Elt F) → (⟨S4x16384, .f32⟩ : BufTy).Contents (Elt F)),
    reshape main_v3 main_v4 rfl shapeCasts_S4x16384_S4x128x128,
    nullary main_cst_0 (constant S_ .f32 0x00000000#32),
    unary main_cst_0 main_v5 (broadcastInDim S32768x128 ![] bcast_S_S32768x128 : (⟨S_, .f32⟩ : BufTy).Contents (Elt F) → (⟨S32768x128, .f32⟩ : BufTy).Contents (Elt F)),
    unary main_v0 main_v6 ((extractStridedSlice S32768x1 ![0, 0] · slices_S32768x4_S32768x1_0_0) : (⟨S32768x4, .f32⟩ : BufTy).Contents (Elt F) → (⟨S32768x1, .f32⟩ : BufTy).Contents (Elt F)),
    unary main_v4 main_v7 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v7 main_v8 rfl shapeCasts_S1x128x128_S128x128,
    binary main_v2 main_v8 main_v9 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v6 main_v10 (broadcastInDim S32768x128 ![0, 1] bcast_S32768x1_S32768x128_0_1 : (⟨S32768x1, .f32⟩ : BufTy).Contents (Elt F) → (⟨S32768x128, .f32⟩ : BufTy).Contents (Elt F)),
    binary main_v10 main_v9 main_v11 (mulf : (⟨S32768x128, .f32⟩ : BufTy).Contents (Elt F) → (⟨S32768x128, .f32⟩ : BufTy).Contents (Elt F) → (⟨S32768x128, .f32⟩ : BufTy).Contents (Elt F)),
    binary main_v5 main_v11 main_v12 (addf : (⟨S32768x128, .f32⟩ : BufTy).Contents (Elt F) → (⟨S32768x128, .f32⟩ : BufTy).Contents (Elt F) → (⟨S32768x128, .f32⟩ : BufTy).Contents (Elt F)),
    unary main_v0 main_v13 ((extractStridedSlice S32768x1 ![0, 1] · slices_S32768x4_S32768x1_0_1) : (⟨S32768x4, .f32⟩ : BufTy).Contents (Elt F) → (⟨S32768x1, .f32⟩ : BufTy).Contents (Elt F)),
    unary main_v4 main_v14 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v14 main_v15 rfl shapeCasts_S1x128x128_S128x128,
    binary main_v2 main_v15 main_v16 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v13 main_v17 (broadcastInDim S32768x128 ![0, 1] bcast_S32768x1_S32768x128_0_1 : (⟨S32768x1, .f32⟩ : BufTy).Contents (Elt F) → (⟨S32768x128, .f32⟩ : BufTy).Contents (Elt F)),
    binary main_v17 main_v16 main_v18 (mulf : (⟨S32768x128, .f32⟩ : BufTy).Contents (Elt F) → (⟨S32768x128, .f32⟩ : BufTy).Contents (Elt F) → (⟨S32768x128, .f32⟩ : BufTy).Contents (Elt F)),
    binary main_v12 main_v18 main_v19 (addf : (⟨S32768x128, .f32⟩ : BufTy).Contents (Elt F) → (⟨S32768x128, .f32⟩ : BufTy).Contents (Elt F) → (⟨S32768x128, .f32⟩ : BufTy).Contents (Elt F)),
    unary main_v0 main_v20 ((extractStridedSlice S32768x1 ![0, 2] · slices_S32768x4_S32768x1_0_2) : (⟨S32768x4, .f32⟩ : BufTy).Contents (Elt F) → (⟨S32768x1, .f32⟩ : BufTy).Contents (Elt F)),
    unary main_v4 main_v21 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v21 main_v22 rfl shapeCasts_S1x128x128_S128x128,
    binary main_v2 main_v22 main_v23 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v20 main_v24 (broadcastInDim S32768x128 ![0, 1] bcast_S32768x1_S32768x128_0_1 : (⟨S32768x1, .f32⟩ : BufTy).Contents (Elt F) → (⟨S32768x128, .f32⟩ : BufTy).Contents (Elt F)),
    binary main_v24 main_v23 main_v25 (mulf : (⟨S32768x128, .f32⟩ : BufTy).Contents (Elt F) → (⟨S32768x128, .f32⟩ : BufTy).Contents (Elt F) → (⟨S32768x128, .f32⟩ : BufTy).Contents (Elt F)),
    binary main_v19 main_v25 main_v26 (addf : (⟨S32768x128, .f32⟩ : BufTy).Contents (Elt F) → (⟨S32768x128, .f32⟩ : BufTy).Contents (Elt F) → (⟨S32768x128, .f32⟩ : BufTy).Contents (Elt F)),
    unary main_v0 main_v27 ((extractStridedSlice S32768x1 ![0, 3] · slices_S32768x4_S32768x1_0_3) : (⟨S32768x4, .f32⟩ : BufTy).Contents (Elt F) → (⟨S32768x1, .f32⟩ : BufTy).Contents (Elt F)),
    unary main_v4 main_v28 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v28 main_v29 rfl shapeCasts_S1x128x128_S128x128,
    binary main_v2 main_v29 main_v30 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v27 main_v31 (broadcastInDim S32768x128 ![0, 1] bcast_S32768x1_S32768x128_0_1 : (⟨S32768x1, .f32⟩ : BufTy).Contents (Elt F) → (⟨S32768x128, .f32⟩ : BufTy).Contents (Elt F)),
    binary main_v31 main_v30 main_v32 (mulf : (⟨S32768x128, .f32⟩ : BufTy).Contents (Elt F) → (⟨S32768x128, .f32⟩ : BufTy).Contents (Elt F) → (⟨S32768x128, .f32⟩ : BufTy).Contents (Elt F)),
    binary main_v26 main_v32 main_v33 (addf : (⟨S32768x128, .f32⟩ : BufTy).Contents (Elt F) → (⟨S32768x128, .f32⟩ : BufTy).Contents (Elt F) → (⟨S32768x128, .f32⟩ : BufTy).Contents (Elt F)),
    nullary main_cst_1 (constant S_ .f32 0x3F800000#32),
    unary main_cst_1 main_v34 (broadcastInDim S32768x128 ![] bcast_S_S32768x128 : (⟨S_, .f32⟩ : BufTy).Contents (Elt F) → (⟨S32768x128, .f32⟩ : BufTy).Contents (Elt F)),
    binary main_v34 main_v33 main_v35 (mulf : (⟨S32768x128, .f32⟩ : BufTy).Contents (Elt F) → (⟨S32768x128, .f32⟩ : BufTy).Contents (Elt F) → (⟨S32768x128, .f32⟩ : BufTy).Contents (Elt F)),
    nullary main_c (constantI S_ 32 0#32),
    unary main_c main_v36 (broadcastInDim S1 ![] bcast_S_S1 : (⟨S_, .i32⟩ : BufTy).Contents (Elt F) → (⟨S1, .i32⟩ : BufTy).Contents (Elt F)),
    ternary main_v1 main_v36 main_v35 main_v37 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Operations 48 … 65 of 320: the second path, up to the end of the first window. -/
abbrev q1 : List (HloOp τ sig (Elt F)) :=
  [ unary main_arg0 main_v38 ((extractStridedSlice S32768x128 ![0, 128] · slices_S32768x512_S32768x128_0_128) : (⟨S32768x512, .f32⟩ : BufTy).Contents (Elt F) → (⟨S32768x128, .f32⟩ : BufTy).Contents (Elt F)),
    unary main_arg1 main_v39 ((extractStridedSlice S4x16384 ![0, 16384] · slices_S4x131072_S4x16384_0_16384) : (⟨S4x131072, .f32⟩ : BufTy).Contents (Elt F) → (⟨S4x16384, .f32⟩ : BufTy).Contents (Elt F)),
    reshape main_v39 main_v40 rfl shapeCasts_S4x16384_S4x128x128,
    nullary main_cst_2 (constant S_ .f32 0x00000000#32),
    unary main_cst_2 main_v41 (broadcastInDim S32768x128 ![] bcast_S_S32768x128 : (⟨S_, .f32⟩ : BufTy).Contents (Elt F) → (⟨S32768x128, .f32⟩ : BufTy).Contents (Elt F)),
    unary main_v0 main_v42 ((extractStridedSlice S32768x1 ![0, 0] · slices_S32768x4_S32768x1_0_0) : (⟨S32768x4, .f32⟩ : BufTy).Contents (Elt F) → (⟨S32768x1, .f32⟩ : BufTy).Contents (Elt F)),
    unary main_v40 main_v43 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v43 main_v44 rfl shapeCasts_S1x128x128_S128x128,
    binary main_v38 main_v44 main_v45 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v42 main_v46 (broadcastInDim S32768x128 ![0, 1] bcast_S32768x1_S32768x128_0_1 : (⟨S32768x1, .f32⟩ : BufTy).Contents (Elt F) → (⟨S32768x128, .f32⟩ : BufTy).Contents (Elt F)),
    binary main_v46 main_v45 main_v47 (mulf : (⟨S32768x128, .f32⟩ : BufTy).Contents (Elt F) → (⟨S32768x128, .f32⟩ : BufTy).Contents (Elt F) → (⟨S32768x128, .f32⟩ : BufTy).Contents (Elt F)),
    binary main_v41 main_v47 main_v48 (addf : (⟨S32768x128, .f32⟩ : BufTy).Contents (Elt F) → (⟨S32768x128, .f32⟩ : BufTy).Contents (Elt F) → (⟨S32768x128, .f32⟩ : BufTy).Contents (Elt F)),
    unary main_v0 main_v49 ((extractStridedSlice S32768x1 ![0, 1] · slices_S32768x4_S32768x1_0_1) : (⟨S32768x4, .f32⟩ : BufTy).Contents (Elt F) → (⟨S32768x1, .f32⟩ : BufTy).Contents (Elt F)),
    unary main_v40 main_v50 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v50 main_v51 rfl shapeCasts_S1x128x128_S128x128,
    binary main_v38 main_v51 main_v52 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v49 main_v53 (broadcastInDim S32768x128 ![0, 1] bcast_S32768x1_S32768x128_0_1 : (⟨S32768x1, .f32⟩ : BufTy).Contents (Elt F) → (⟨S32768x128, .f32⟩ : BufTy).Contents (Elt F)),
    binary main_v53 main_v52 main_v54 (mulf : (⟨S32768x128, .f32⟩ : BufTy).Contents (Elt F) → (⟨S32768x128, .f32⟩ : BufTy).Contents (Elt F) → (⟨S32768x128, .f32⟩ : BufTy).Contents (Elt F)) ]

/-- Operations 66 … 86 of 320: the rest of the second path. -/
abbrev q2 : List (HloOp τ sig (Elt F)) :=
  [ binary main_v48 main_v54 main_v55 (addf : (⟨S32768x128, .f32⟩ : BufTy).Contents (Elt F) → (⟨S32768x128, .f32⟩ : BufTy).Contents (Elt F) → (⟨S32768x128, .f32⟩ : BufTy).Contents (Elt F)),
    unary main_v0 main_v56 ((extractStridedSlice S32768x1 ![0, 2] · slices_S32768x4_S32768x1_0_2) : (⟨S32768x4, .f32⟩ : BufTy).Contents (Elt F) → (⟨S32768x1, .f32⟩ : BufTy).Contents (Elt F)),
    unary main_v40 main_v57 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v57 main_v58 rfl shapeCasts_S1x128x128_S128x128,
    binary main_v38 main_v58 main_v59 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v56 main_v60 (broadcastInDim S32768x128 ![0, 1] bcast_S32768x1_S32768x128_0_1 : (⟨S32768x1, .f32⟩ : BufTy).Contents (Elt F) → (⟨S32768x128, .f32⟩ : BufTy).Contents (Elt F)),
    binary main_v60 main_v59 main_v61 (mulf : (⟨S32768x128, .f32⟩ : BufTy).Contents (Elt F) → (⟨S32768x128, .f32⟩ : BufTy).Contents (Elt F) → (⟨S32768x128, .f32⟩ : BufTy).Contents (Elt F)),
    binary main_v55 main_v61 main_v62 (addf : (⟨S32768x128, .f32⟩ : BufTy).Contents (Elt F) → (⟨S32768x128, .f32⟩ : BufTy).Contents (Elt F) → (⟨S32768x128, .f32⟩ : BufTy).Contents (Elt F)),
    unary main_v0 main_v63 ((extractStridedSlice S32768x1 ![0, 3] · slices_S32768x4_S32768x1_0_3) : (⟨S32768x4, .f32⟩ : BufTy).Contents (Elt F) → (⟨S32768x1, .f32⟩ : BufTy).Contents (Elt F)),
    unary main_v40 main_v64 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v64 main_v65 rfl shapeCasts_S1x128x128_S128x128,
    binary main_v38 main_v65 main_v66 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v63 main_v67 (broadcastInDim S32768x128 ![0, 1] bcast_S32768x1_S32768x128_0_1 : (⟨S32768x1, .f32⟩ : BufTy).Contents (Elt F) → (⟨S32768x128, .f32⟩ : BufTy).Contents (Elt F)),
    binary main_v67 main_v66 main_v68 (mulf : (⟨S32768x128, .f32⟩ : BufTy).Contents (Elt F) → (⟨S32768x128, .f32⟩ : BufTy).Contents (Elt F) → (⟨S32768x128, .f32⟩ : BufTy).Contents (Elt F)),
    binary main_v62 main_v68 main_v69 (addf : (⟨S32768x128, .f32⟩ : BufTy).Contents (Elt F) → (⟨S32768x128, .f32⟩ : BufTy).Contents (Elt F) → (⟨S32768x128, .f32⟩ : BufTy).Contents (Elt F)),
    nullary main_cst_3 (constant S_ .f32 0x3F800000#32),
    unary main_cst_3 main_v70 (broadcastInDim S32768x128 ![] bcast_S_S32768x128 : (⟨S_, .f32⟩ : BufTy).Contents (Elt F) → (⟨S32768x128, .f32⟩ : BufTy).Contents (Elt F)),
    binary main_v70 main_v69 main_v71 (mulf : (⟨S32768x128, .f32⟩ : BufTy).Contents (Elt F) → (⟨S32768x128, .f32⟩ : BufTy).Contents (Elt F) → (⟨S32768x128, .f32⟩ : BufTy).Contents (Elt F)),
    nullary main_c_4 (constantI S_ 32 128#32),
    unary main_c_4 main_v72 (broadcastInDim S1 ![] bcast_S_S1 : (⟨S_, .i32⟩ : BufTy).Contents (Elt F) → (⟨S1, .i32⟩ : BufTy).Contents (Elt F)),
    ternary main_v37 main_v72 main_v71 main_v73 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Operations 87 … 125 of 320: the third path. -/
abbrev q3 : List (HloOp τ sig (Elt F)) :=
  [ unary main_arg0 main_v74 ((extractStridedSlice S32768x128 ![0, 256] · slices_S32768x512_S32768x128_0_256) : (⟨S32768x512, .f32⟩ : BufTy).Contents (Elt F) → (⟨S32768x128, .f32⟩ : BufTy).Contents (Elt F)),
    unary main_arg1 main_v75 ((extractStridedSlice S4x16384 ![0, 32768] · slices_S4x131072_S4x16384_0_32768) : (⟨S4x131072, .f32⟩ : BufTy).Contents (Elt F) → (⟨S4x16384, .f32⟩ : BufTy).Contents (Elt F)),
    reshape main_v75 main_v76 rfl shapeCasts_S4x16384_S4x128x128,
    nullary main_cst_5 (constant S_ .f32 0x00000000#32),
    unary main_cst_5 main_v77 (broadcastInDim S32768x128 ![] bcast_S_S32768x128 : (⟨S_, .f32⟩ : BufTy).Contents (Elt F) → (⟨S32768x128, .f32⟩ : BufTy).Contents (Elt F)),
    unary main_v0 main_v78 ((extractStridedSlice S32768x1 ![0, 0] · slices_S32768x4_S32768x1_0_0) : (⟨S32768x4, .f32⟩ : BufTy).Contents (Elt F) → (⟨S32768x1, .f32⟩ : BufTy).Contents (Elt F)),
    unary main_v76 main_v79 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v79 main_v80 rfl shapeCasts_S1x128x128_S128x128,
    binary main_v74 main_v80 main_v81 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v78 main_v82 (broadcastInDim S32768x128 ![0, 1] bcast_S32768x1_S32768x128_0_1 : (⟨S32768x1, .f32⟩ : BufTy).Contents (Elt F) → (⟨S32768x128, .f32⟩ : BufTy).Contents (Elt F)),
    binary main_v82 main_v81 main_v83 (mulf : (⟨S32768x128, .f32⟩ : BufTy).Contents (Elt F) → (⟨S32768x128, .f32⟩ : BufTy).Contents (Elt F) → (⟨S32768x128, .f32⟩ : BufTy).Contents (Elt F)),
    binary main_v77 main_v83 main_v84 (addf : (⟨S32768x128, .f32⟩ : BufTy).Contents (Elt F) → (⟨S32768x128, .f32⟩ : BufTy).Contents (Elt F) → (⟨S32768x128, .f32⟩ : BufTy).Contents (Elt F)),
    unary main_v0 main_v85 ((extractStridedSlice S32768x1 ![0, 1] · slices_S32768x4_S32768x1_0_1) : (⟨S32768x4, .f32⟩ : BufTy).Contents (Elt F) → (⟨S32768x1, .f32⟩ : BufTy).Contents (Elt F)),
    unary main_v76 main_v86 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v86 main_v87 rfl shapeCasts_S1x128x128_S128x128,
    binary main_v74 main_v87 main_v88 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v85 main_v89 (broadcastInDim S32768x128 ![0, 1] bcast_S32768x1_S32768x128_0_1 : (⟨S32768x1, .f32⟩ : BufTy).Contents (Elt F) → (⟨S32768x128, .f32⟩ : BufTy).Contents (Elt F)),
    binary main_v89 main_v88 main_v90 (mulf : (⟨S32768x128, .f32⟩ : BufTy).Contents (Elt F) → (⟨S32768x128, .f32⟩ : BufTy).Contents (Elt F) → (⟨S32768x128, .f32⟩ : BufTy).Contents (Elt F)),
    binary main_v84 main_v90 main_v91 (addf : (⟨S32768x128, .f32⟩ : BufTy).Contents (Elt F) → (⟨S32768x128, .f32⟩ : BufTy).Contents (Elt F) → (⟨S32768x128, .f32⟩ : BufTy).Contents (Elt F)),
    unary main_v0 main_v92 ((extractStridedSlice S32768x1 ![0, 2] · slices_S32768x4_S32768x1_0_2) : (⟨S32768x4, .f32⟩ : BufTy).Contents (Elt F) → (⟨S32768x1, .f32⟩ : BufTy).Contents (Elt F)),
    unary main_v76 main_v93 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v93 main_v94 rfl shapeCasts_S1x128x128_S128x128,
    binary main_v74 main_v94 main_v95 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v92 main_v96 (broadcastInDim S32768x128 ![0, 1] bcast_S32768x1_S32768x128_0_1 : (⟨S32768x1, .f32⟩ : BufTy).Contents (Elt F) → (⟨S32768x128, .f32⟩ : BufTy).Contents (Elt F)),
    binary main_v96 main_v95 main_v97 (mulf : (⟨S32768x128, .f32⟩ : BufTy).Contents (Elt F) → (⟨S32768x128, .f32⟩ : BufTy).Contents (Elt F) → (⟨S32768x128, .f32⟩ : BufTy).Contents (Elt F)),
    binary main_v91 main_v97 main_v98 (addf : (⟨S32768x128, .f32⟩ : BufTy).Contents (Elt F) → (⟨S32768x128, .f32⟩ : BufTy).Contents (Elt F) → (⟨S32768x128, .f32⟩ : BufTy).Contents (Elt F)),
    unary main_v0 main_v99 ((extractStridedSlice S32768x1 ![0, 3] · slices_S32768x4_S32768x1_0_3) : (⟨S32768x4, .f32⟩ : BufTy).Contents (Elt F) → (⟨S32768x1, .f32⟩ : BufTy).Contents (Elt F)),
    unary main_v76 main_v100 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v100 main_v101 rfl shapeCasts_S1x128x128_S128x128,
    binary main_v74 main_v101 main_v102 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v99 main_v103 (broadcastInDim S32768x128 ![0, 1] bcast_S32768x1_S32768x128_0_1 : (⟨S32768x1, .f32⟩ : BufTy).Contents (Elt F) → (⟨S32768x128, .f32⟩ : BufTy).Contents (Elt F)),
    binary main_v103 main_v102 main_v104 (mulf : (⟨S32768x128, .f32⟩ : BufTy).Contents (Elt F) → (⟨S32768x128, .f32⟩ : BufTy).Contents (Elt F) → (⟨S32768x128, .f32⟩ : BufTy).Contents (Elt F)),
    binary main_v98 main_v104 main_v105 (addf : (⟨S32768x128, .f32⟩ : BufTy).Contents (Elt F) → (⟨S32768x128, .f32⟩ : BufTy).Contents (Elt F) → (⟨S32768x128, .f32⟩ : BufTy).Contents (Elt F)),
    nullary main_cst_6 (constant S_ .f32 0x3F800000#32),
    unary main_cst_6 main_v106 (broadcastInDim S32768x128 ![] bcast_S_S32768x128 : (⟨S_, .f32⟩ : BufTy).Contents (Elt F) → (⟨S32768x128, .f32⟩ : BufTy).Contents (Elt F)),
    binary main_v106 main_v105 main_v107 (mulf : (⟨S32768x128, .f32⟩ : BufTy).Contents (Elt F) → (⟨S32768x128, .f32⟩ : BufTy).Contents (Elt F) → (⟨S32768x128, .f32⟩ : BufTy).Contents (Elt F)),
    nullary main_c_7 (constantI S_ 32 256#32),
    unary main_c_7 main_v108 (broadcastInDim S1 ![] bcast_S_S1 : (⟨S_, .i32⟩ : BufTy).Contents (Elt F) → (⟨S1, .i32⟩ : BufTy).Contents (Elt F)),
    ternary main_v73 main_v108 main_v107 main_v109 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Operations 126 … 164 of 320: the fourth path. -/
abbrev q4 : List (HloOp τ sig (Elt F)) :=
  [ unary main_arg0 main_v110 ((extractStridedSlice S32768x128 ![0, 384] · slices_S32768x512_S32768x128_0_384) : (⟨S32768x512, .f32⟩ : BufTy).Contents (Elt F) → (⟨S32768x128, .f32⟩ : BufTy).Contents (Elt F)),
    unary main_arg1 main_v111 ((extractStridedSlice S4x16384 ![0, 49152] · slices_S4x131072_S4x16384_0_49152) : (⟨S4x131072, .f32⟩ : BufTy).Contents (Elt F) → (⟨S4x16384, .f32⟩ : BufTy).Contents (Elt F)),
    reshape main_v111 main_v112 rfl shapeCasts_S4x16384_S4x128x128,
    nullary main_cst_8 (constant S_ .f32 0x00000000#32),
    unary main_cst_8 main_v113 (broadcastInDim S32768x128 ![] bcast_S_S32768x128 : (⟨S_, .f32⟩ : BufTy).Contents (Elt F) → (⟨S32768x128, .f32⟩ : BufTy).Contents (Elt F)),
    unary main_v0 main_v114 ((extractStridedSlice S32768x1 ![0, 0] · slices_S32768x4_S32768x1_0_0) : (⟨S32768x4, .f32⟩ : BufTy).Contents (Elt F) → (⟨S32768x1, .f32⟩ : BufTy).Contents (Elt F)),
    unary main_v112 main_v115 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v115 main_v116 rfl shapeCasts_S1x128x128_S128x128,
    binary main_v110 main_v116 main_v117 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v114 main_v118 (broadcastInDim S32768x128 ![0, 1] bcast_S32768x1_S32768x128_0_1 : (⟨S32768x1, .f32⟩ : BufTy).Contents (Elt F) → (⟨S32768x128, .f32⟩ : BufTy).Contents (Elt F)),
    binary main_v118 main_v117 main_v119 (mulf : (⟨S32768x128, .f32⟩ : BufTy).Contents (Elt F) → (⟨S32768x128, .f32⟩ : BufTy).Contents (Elt F) → (⟨S32768x128, .f32⟩ : BufTy).Contents (Elt F)),
    binary main_v113 main_v119 main_v120 (addf : (⟨S32768x128, .f32⟩ : BufTy).Contents (Elt F) → (⟨S32768x128, .f32⟩ : BufTy).Contents (Elt F) → (⟨S32768x128, .f32⟩ : BufTy).Contents (Elt F)),
    unary main_v0 main_v121 ((extractStridedSlice S32768x1 ![0, 1] · slices_S32768x4_S32768x1_0_1) : (⟨S32768x4, .f32⟩ : BufTy).Contents (Elt F) → (⟨S32768x1, .f32⟩ : BufTy).Contents (Elt F)),
    unary main_v112 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v122 main_v123 rfl shapeCasts_S1x128x128_S128x128,
    binary main_v110 main_v123 main_v124 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v121 main_v125 (broadcastInDim S32768x128 ![0, 1] bcast_S32768x1_S32768x128_0_1 : (⟨S32768x1, .f32⟩ : BufTy).Contents (Elt F) → (⟨S32768x128, .f32⟩ : BufTy).Contents (Elt F)),
    binary main_v125 main_v124 main_v126 (mulf : (⟨S32768x128, .f32⟩ : BufTy).Contents (Elt F) → (⟨S32768x128, .f32⟩ : BufTy).Contents (Elt F) → (⟨S32768x128, .f32⟩ : BufTy).Contents (Elt F)),
    binary main_v120 main_v126 main_v127 (addf : (⟨S32768x128, .f32⟩ : BufTy).Contents (Elt F) → (⟨S32768x128, .f32⟩ : BufTy).Contents (Elt F) → (⟨S32768x128, .f32⟩ : BufTy).Contents (Elt F)),
    unary main_v0 main_v128 ((extractStridedSlice S32768x1 ![0, 2] · slices_S32768x4_S32768x1_0_2) : (⟨S32768x4, .f32⟩ : BufTy).Contents (Elt F) → (⟨S32768x1, .f32⟩ : BufTy).Contents (Elt F)),
    unary main_v112 main_v129 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v129 main_v130 rfl shapeCasts_S1x128x128_S128x128,
    binary main_v110 main_v130 main_v131 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v128 main_v132 (broadcastInDim S32768x128 ![0, 1] bcast_S32768x1_S32768x128_0_1 : (⟨S32768x1, .f32⟩ : BufTy).Contents (Elt F) → (⟨S32768x128, .f32⟩ : BufTy).Contents (Elt F)),
    binary main_v132 main_v131 main_v133 (mulf : (⟨S32768x128, .f32⟩ : BufTy).Contents (Elt F) → (⟨S32768x128, .f32⟩ : BufTy).Contents (Elt F) → (⟨S32768x128, .f32⟩ : BufTy).Contents (Elt F)),
    binary main_v127 main_v133 main_v134 (addf : (⟨S32768x128, .f32⟩ : BufTy).Contents (Elt F) → (⟨S32768x128, .f32⟩ : BufTy).Contents (Elt F) → (⟨S32768x128, .f32⟩ : BufTy).Contents (Elt F)),
    unary main_v0 main_v135 ((extractStridedSlice S32768x1 ![0, 3] · slices_S32768x4_S32768x1_0_3) : (⟨S32768x4, .f32⟩ : BufTy).Contents (Elt F) → (⟨S32768x1, .f32⟩ : BufTy).Contents (Elt F)),
    unary main_v112 main_v136 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v136 main_v137 rfl shapeCasts_S1x128x128_S128x128,
    binary main_v110 main_v137 main_v138 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v135 main_v139 (broadcastInDim S32768x128 ![0, 1] bcast_S32768x1_S32768x128_0_1 : (⟨S32768x1, .f32⟩ : BufTy).Contents (Elt F) → (⟨S32768x128, .f32⟩ : BufTy).Contents (Elt F)),
    binary main_v139 main_v138 main_v140 (mulf : (⟨S32768x128, .f32⟩ : BufTy).Contents (Elt F) → (⟨S32768x128, .f32⟩ : BufTy).Contents (Elt F) → (⟨S32768x128, .f32⟩ : BufTy).Contents (Elt F)),
    binary main_v134 main_v140 main_v141 (addf : (⟨S32768x128, .f32⟩ : BufTy).Contents (Elt F) → (⟨S32768x128, .f32⟩ : BufTy).Contents (Elt F) → (⟨S32768x128, .f32⟩ : BufTy).Contents (Elt F)),
    nullary main_cst_9 (constant S_ .f32 0x3F800000#32),
    unary main_cst_9 main_v142 (broadcastInDim S32768x128 ![] bcast_S_S32768x128 : (⟨S_, .f32⟩ : BufTy).Contents (Elt F) → (⟨S32768x128, .f32⟩ : BufTy).Contents (Elt F)),
    binary main_v142 main_v141 main_v143 (mulf : (⟨S32768x128, .f32⟩ : BufTy).Contents (Elt F) → (⟨S32768x128, .f32⟩ : BufTy).Contents (Elt F) → (⟨S32768x128, .f32⟩ : BufTy).Contents (Elt F)),
    nullary main_c_10 (constantI S_ 32 384#32),
    unary main_c_10 main_v144 (broadcastInDim S1 ![] bcast_S_S1 : (⟨S_, .i32⟩ : BufTy).Contents (Elt F) → (⟨S1, .i32⟩ : BufTy).Contents (Elt F)),
    ternary main_v109 main_v144 main_v143 main_v145 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Operations 165 … 185 of 320: the fifth path, up to the end of the third window. -/
abbrev q5 : List (HloOp τ sig (Elt F)) :=
  [ unary main_arg0 main_v146 ((extractStridedSlice S32768x128 ![0, 0] · slices_S32768x512_S32768x128_0_0) : (⟨S32768x512, .f32⟩ : BufTy).Contents (Elt F) → (⟨S32768x128, .f32⟩ : BufTy).Contents (Elt F)),
    unary main_arg1 main_v147 ((extractStridedSlice S4x16384 ![0, 65536] · slices_S4x131072_S4x16384_0_65536) : (⟨S4x131072, .f32⟩ : BufTy).Contents (Elt F) → (⟨S4x16384, .f32⟩ : BufTy).Contents (Elt F)),
    reshape main_v147 main_v148 rfl shapeCasts_S4x16384_S4x128x128,
    nullary main_cst_11 (constant S_ .f32 0x00000000#32),
    unary main_cst_11 main_v149 (broadcastInDim S32768x128 ![] bcast_S_S32768x128 : (⟨S_, .f32⟩ : BufTy).Contents (Elt F) → (⟨S32768x128, .f32⟩ : BufTy).Contents (Elt F)),
    unary main_v0 main_v150 ((extractStridedSlice S32768x1 ![0, 0] · slices_S32768x4_S32768x1_0_0) : (⟨S32768x4, .f32⟩ : BufTy).Contents (Elt F) → (⟨S32768x1, .f32⟩ : BufTy).Contents (Elt F)),
    unary main_v148 main_v151 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v151 main_v152 rfl shapeCasts_S1x128x128_S128x128,
    binary main_v146 main_v152 main_v153 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v150 main_v154 (broadcastInDim S32768x128 ![0, 1] bcast_S32768x1_S32768x128_0_1 : (⟨S32768x1, .f32⟩ : BufTy).Contents (Elt F) → (⟨S32768x128, .f32⟩ : BufTy).Contents (Elt F)),
    binary main_v154 main_v153 main_v155 (mulf : (⟨S32768x128, .f32⟩ : BufTy).Contents (Elt F) → (⟨S32768x128, .f32⟩ : BufTy).Contents (Elt F) → (⟨S32768x128, .f32⟩ : BufTy).Contents (Elt F)),
    binary main_v149 main_v155 main_v156 (addf : (⟨S32768x128, .f32⟩ : BufTy).Contents (Elt F) → (⟨S32768x128, .f32⟩ : BufTy).Contents (Elt F) → (⟨S32768x128, .f32⟩ : BufTy).Contents (Elt F)),
    unary main_v0 main_v157 ((extractStridedSlice S32768x1 ![0, 1] · slices_S32768x4_S32768x1_0_1) : (⟨S32768x4, .f32⟩ : BufTy).Contents (Elt F) → (⟨S32768x1, .f32⟩ : BufTy).Contents (Elt F)),
    unary main_v148 main_v158 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v158 main_v159 rfl shapeCasts_S1x128x128_S128x128,
    binary main_v146 main_v159 main_v160 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v157 main_v161 (broadcastInDim S32768x128 ![0, 1] bcast_S32768x1_S32768x128_0_1 : (⟨S32768x1, .f32⟩ : BufTy).Contents (Elt F) → (⟨S32768x128, .f32⟩ : BufTy).Contents (Elt F)),
    binary main_v161 main_v160 main_v162 (mulf : (⟨S32768x128, .f32⟩ : BufTy).Contents (Elt F) → (⟨S32768x128, .f32⟩ : BufTy).Contents (Elt F) → (⟨S32768x128, .f32⟩ : BufTy).Contents (Elt F)),
    binary main_v156 main_v162 main_v163 (addf : (⟨S32768x128, .f32⟩ : BufTy).Contents (Elt F) → (⟨S32768x128, .f32⟩ : BufTy).Contents (Elt F) → (⟨S32768x128, .f32⟩ : BufTy).Contents (Elt F)),
    unary main_v0 main_v164 ((extractStridedSlice S32768x1 ![0, 2] · slices_S32768x4_S32768x1_0_2) : (⟨S32768x4, .f32⟩ : BufTy).Contents (Elt F) → (⟨S32768x1, .f32⟩ : BufTy).Contents (Elt F)),
    unary main_v148 main_v165 ((extractStridedSlice S1x128x128 ![2, 0, 0] · slices_S4x128x128_S1x128x128_2_0_0) : (⟨S4x128x128, .f32⟩ : BufTy).Contents (Elt F) → (⟨S1x128x128, .f32⟩ : BufTy).Contents (Elt F)) ]

/-- Operations 186 … 203 of 320: the rest of the fifth path. -/
abbrev q6 : List (HloOp τ sig (Elt F)) :=
  [ reshape main_v165 main_v166 rfl shapeCasts_S1x128x128_S128x128,
    binary main_v146 main_v166 main_v167 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v164 main_v168 (broadcastInDim S32768x128 ![0, 1] bcast_S32768x1_S32768x128_0_1 : (⟨S32768x1, .f32⟩ : BufTy).Contents (Elt F) → (⟨S32768x128, .f32⟩ : BufTy).Contents (Elt F)),
    binary main_v168 main_v167 main_v169 (mulf : (⟨S32768x128, .f32⟩ : BufTy).Contents (Elt F) → (⟨S32768x128, .f32⟩ : BufTy).Contents (Elt F) → (⟨S32768x128, .f32⟩ : BufTy).Contents (Elt F)),
    binary main_v163 main_v169 main_v170 (addf : (⟨S32768x128, .f32⟩ : BufTy).Contents (Elt F) → (⟨S32768x128, .f32⟩ : BufTy).Contents (Elt F) → (⟨S32768x128, .f32⟩ : BufTy).Contents (Elt F)),
    unary main_v0 main_v171 ((extractStridedSlice S32768x1 ![0, 3] · slices_S32768x4_S32768x1_0_3) : (⟨S32768x4, .f32⟩ : BufTy).Contents (Elt F) → (⟨S32768x1, .f32⟩ : BufTy).Contents (Elt F)),
    unary main_v148 main_v172 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v172 main_v173 rfl shapeCasts_S1x128x128_S128x128,
    binary main_v146 main_v173 main_v174 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v171 main_v175 (broadcastInDim S32768x128 ![0, 1] bcast_S32768x1_S32768x128_0_1 : (⟨S32768x1, .f32⟩ : BufTy).Contents (Elt F) → (⟨S32768x128, .f32⟩ : BufTy).Contents (Elt F)),
    binary main_v175 main_v174 main_v176 (mulf : (⟨S32768x128, .f32⟩ : BufTy).Contents (Elt F) → (⟨S32768x128, .f32⟩ : BufTy).Contents (Elt F) → (⟨S32768x128, .f32⟩ : BufTy).Contents (Elt F)),
    binary main_v170 main_v176 main_v177 (addf : (⟨S32768x128, .f32⟩ : BufTy).Contents (Elt F) → (⟨S32768x128, .f32⟩ : BufTy).Contents (Elt F) → (⟨S32768x128, .f32⟩ : BufTy).Contents (Elt F)),
    nullary main_cst_12 (constant S_ .f32 0x3F000000#32),
    unary main_cst_12 main_v178 (broadcastInDim S32768x128 ![] bcast_S_S32768x128 : (⟨S_, .f32⟩ : BufTy).Contents (Elt F) → (⟨S32768x128, .f32⟩ : BufTy).Contents (Elt F)),
    binary main_v178 main_v177 main_v179 (mulf : (⟨S32768x128, .f32⟩ : BufTy).Contents (Elt F) → (⟨S32768x128, .f32⟩ : BufTy).Contents (Elt F) → (⟨S32768x128, .f32⟩ : BufTy).Contents (Elt F)),
    nullary main_c_13 (constantI S_ 32 128#32),
    unary main_c_13 main_v180 (broadcastInDim S1 ![] bcast_S_S1 : (⟨S_, .i32⟩ : BufTy).Contents (Elt F) → (⟨S1, .i32⟩ : BufTy).Contents (Elt F)),
    ternary main_v145 main_v180 main_v179 main_v181 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Operations 204 … 242 of 320: the sixth path. -/
abbrev q7 : List (HloOp τ sig (Elt F)) :=
  [ unary main_arg0 main_v182 ((extractStridedSlice S32768x128 ![0, 128] · slices_S32768x512_S32768x128_0_128) : (⟨S32768x512, .f32⟩ : BufTy).Contents (Elt F) → (⟨S32768x128, .f32⟩ : BufTy).Contents (Elt F)),
    unary main_arg1 main_v183 ((extractStridedSlice S4x16384 ![0, 81920] · slices_S4x131072_S4x16384_0_81920) : (⟨S4x131072, .f32⟩ : BufTy).Contents (Elt F) → (⟨S4x16384, .f32⟩ : BufTy).Contents (Elt F)),
    reshape main_v183 main_v184 rfl shapeCasts_S4x16384_S4x128x128,
    nullary main_cst_14 (constant S_ .f32 0x00000000#32),
    unary main_cst_14 main_v185 (broadcastInDim S32768x128 ![] bcast_S_S32768x128 : (⟨S_, .f32⟩ : BufTy).Contents (Elt F) → (⟨S32768x128, .f32⟩ : BufTy).Contents (Elt F)),
    unary main_v0 main_v186 ((extractStridedSlice S32768x1 ![0, 0] · slices_S32768x4_S32768x1_0_0) : (⟨S32768x4, .f32⟩ : BufTy).Contents (Elt F) → (⟨S32768x1, .f32⟩ : BufTy).Contents (Elt F)),
    unary main_v184 main_v187 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v187 main_v188 rfl shapeCasts_S1x128x128_S128x128,
    binary main_v182 main_v188 main_v189 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v186 main_v190 (broadcastInDim S32768x128 ![0, 1] bcast_S32768x1_S32768x128_0_1 : (⟨S32768x1, .f32⟩ : BufTy).Contents (Elt F) → (⟨S32768x128, .f32⟩ : BufTy).Contents (Elt F)),
    binary main_v190 main_v189 main_v191 (mulf : (⟨S32768x128, .f32⟩ : BufTy).Contents (Elt F) → (⟨S32768x128, .f32⟩ : BufTy).Contents (Elt F) → (⟨S32768x128, .f32⟩ : BufTy).Contents (Elt F)),
    binary main_v185 main_v191 main_v192 (addf : (⟨S32768x128, .f32⟩ : BufTy).Contents (Elt F) → (⟨S32768x128, .f32⟩ : BufTy).Contents (Elt F) → (⟨S32768x128, .f32⟩ : BufTy).Contents (Elt F)),
    unary main_v0 main_v193 ((extractStridedSlice S32768x1 ![0, 1] · slices_S32768x4_S32768x1_0_1) : (⟨S32768x4, .f32⟩ : BufTy).Contents (Elt F) → (⟨S32768x1, .f32⟩ : BufTy).Contents (Elt F)),
    unary main_v184 main_v194 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v194 main_v195 rfl shapeCasts_S1x128x128_S128x128,
    binary main_v182 main_v195 main_v196 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v193 main_v197 (broadcastInDim S32768x128 ![0, 1] bcast_S32768x1_S32768x128_0_1 : (⟨S32768x1, .f32⟩ : BufTy).Contents (Elt F) → (⟨S32768x128, .f32⟩ : BufTy).Contents (Elt F)),
    binary main_v197 main_v196 main_v198 (mulf : (⟨S32768x128, .f32⟩ : BufTy).Contents (Elt F) → (⟨S32768x128, .f32⟩ : BufTy).Contents (Elt F) → (⟨S32768x128, .f32⟩ : BufTy).Contents (Elt F)),
    binary main_v192 main_v198 main_v199 (addf : (⟨S32768x128, .f32⟩ : BufTy).Contents (Elt F) → (⟨S32768x128, .f32⟩ : BufTy).Contents (Elt F) → (⟨S32768x128, .f32⟩ : BufTy).Contents (Elt F)),
    unary main_v0 main_v200 ((extractStridedSlice S32768x1 ![0, 2] · slices_S32768x4_S32768x1_0_2) : (⟨S32768x4, .f32⟩ : BufTy).Contents (Elt F) → (⟨S32768x1, .f32⟩ : BufTy).Contents (Elt F)),
    unary main_v184 main_v201 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v201 main_v202 rfl shapeCasts_S1x128x128_S128x128,
    binary main_v182 main_v202 main_v203 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v200 main_v204 (broadcastInDim S32768x128 ![0, 1] bcast_S32768x1_S32768x128_0_1 : (⟨S32768x1, .f32⟩ : BufTy).Contents (Elt F) → (⟨S32768x128, .f32⟩ : BufTy).Contents (Elt F)),
    binary main_v204 main_v203 main_v205 (mulf : (⟨S32768x128, .f32⟩ : BufTy).Contents (Elt F) → (⟨S32768x128, .f32⟩ : BufTy).Contents (Elt F) → (⟨S32768x128, .f32⟩ : BufTy).Contents (Elt F)),
    binary main_v199 main_v205 main_v206 (addf : (⟨S32768x128, .f32⟩ : BufTy).Contents (Elt F) → (⟨S32768x128, .f32⟩ : BufTy).Contents (Elt F) → (⟨S32768x128, .f32⟩ : BufTy).Contents (Elt F)),
    unary main_v0 main_v207 ((extractStridedSlice S32768x1 ![0, 3] · slices_S32768x4_S32768x1_0_3) : (⟨S32768x4, .f32⟩ : BufTy).Contents (Elt F) → (⟨S32768x1, .f32⟩ : BufTy).Contents (Elt F)),
    unary main_v184 main_v208 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v208 main_v209 rfl shapeCasts_S1x128x128_S128x128,
    binary main_v182 main_v209 main_v210 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v207 main_v211 (broadcastInDim S32768x128 ![0, 1] bcast_S32768x1_S32768x128_0_1 : (⟨S32768x1, .f32⟩ : BufTy).Contents (Elt F) → (⟨S32768x128, .f32⟩ : BufTy).Contents (Elt F)),
    binary main_v211 main_v210 main_v212 (mulf : (⟨S32768x128, .f32⟩ : BufTy).Contents (Elt F) → (⟨S32768x128, .f32⟩ : BufTy).Contents (Elt F) → (⟨S32768x128, .f32⟩ : BufTy).Contents (Elt F)),
    binary main_v206 main_v212 main_v213 (addf : (⟨S32768x128, .f32⟩ : BufTy).Contents (Elt F) → (⟨S32768x128, .f32⟩ : BufTy).Contents (Elt F) → (⟨S32768x128, .f32⟩ : BufTy).Contents (Elt F)),
    nullary main_cst_15 (constant S_ .f32 0x3F000000#32),
    unary main_cst_15 main_v214 (broadcastInDim S32768x128 ![] bcast_S_S32768x128 : (⟨S_, .f32⟩ : BufTy).Contents (Elt F) → (⟨S32768x128, .f32⟩ : BufTy).Contents (Elt F)),
    binary main_v214 main_v213 main_v215 (mulf : (⟨S32768x128, .f32⟩ : BufTy).Contents (Elt F) → (⟨S32768x128, .f32⟩ : BufTy).Contents (Elt F) → (⟨S32768x128, .f32⟩ : BufTy).Contents (Elt F)),
    nullary main_c_16 (constantI S_ 32 256#32),
    unary main_c_16 main_v216 (broadcastInDim S1 ![] bcast_S_S1 : (⟨S_, .i32⟩ : BufTy).Contents (Elt F) → (⟨S1, .i32⟩ : BufTy).Contents (Elt F)),
    ternary main_v181 main_v216 main_v215 main_v217 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Operations 243 … 245 of 320: the seventh path, up to the end of the fourth window. -/
abbrev q8 : List (HloOp τ sig (Elt F)) :=
  [ unary main_arg0 main_v218 ((extractStridedSlice S32768x128 ![0, 256] · slices_S32768x512_S32768x128_0_256) : (⟨S32768x512, .f32⟩ : BufTy).Contents (Elt F) → (⟨S32768x128, .f32⟩ : BufTy).Contents (Elt F)),
    unary main_arg1 main_v219 ((extractStridedSlice S4x16384 ![0, 98304] · slices_S4x131072_S4x16384_0_98304) : (⟨S4x131072, .f32⟩ : BufTy).Contents (Elt F) → (⟨S4x16384, .f32⟩ : BufTy).Contents (Elt F)),
    reshape main_v219 main_v220 rfl shapeCasts_S4x16384_S4x128x128 ]

/-- Operations 246 … 281 of 320: the rest of the seventh path. -/
abbrev q9 : List (HloOp τ sig (Elt F)) :=
  [ nullary main_cst_17 (constant S_ .f32 0x00000000#32),
    unary main_cst_17 main_v221 (broadcastInDim S32768x128 ![] bcast_S_S32768x128 : (⟨S_, .f32⟩ : BufTy).Contents (Elt F) → (⟨S32768x128, .f32⟩ : BufTy).Contents (Elt F)),
    unary main_v0 main_v222 ((extractStridedSlice S32768x1 ![0, 0] · slices_S32768x4_S32768x1_0_0) : (⟨S32768x4, .f32⟩ : BufTy).Contents (Elt F) → (⟨S32768x1, .f32⟩ : BufTy).Contents (Elt F)),
    unary main_v220 main_v223 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v223 main_v224 rfl shapeCasts_S1x128x128_S128x128,
    binary main_v218 main_v224 main_v225 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v222 main_v226 (broadcastInDim S32768x128 ![0, 1] bcast_S32768x1_S32768x128_0_1 : (⟨S32768x1, .f32⟩ : BufTy).Contents (Elt F) → (⟨S32768x128, .f32⟩ : BufTy).Contents (Elt F)),
    binary main_v226 main_v225 main_v227 (mulf : (⟨S32768x128, .f32⟩ : BufTy).Contents (Elt F) → (⟨S32768x128, .f32⟩ : BufTy).Contents (Elt F) → (⟨S32768x128, .f32⟩ : BufTy).Contents (Elt F)),
    binary main_v221 main_v227 main_v228 (addf : (⟨S32768x128, .f32⟩ : BufTy).Contents (Elt F) → (⟨S32768x128, .f32⟩ : BufTy).Contents (Elt F) → (⟨S32768x128, .f32⟩ : BufTy).Contents (Elt F)),
    unary main_v0 main_v229 ((extractStridedSlice S32768x1 ![0, 1] · slices_S32768x4_S32768x1_0_1) : (⟨S32768x4, .f32⟩ : BufTy).Contents (Elt F) → (⟨S32768x1, .f32⟩ : BufTy).Contents (Elt F)),
    unary main_v220 main_v230 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v230 main_v231 rfl shapeCasts_S1x128x128_S128x128,
    binary main_v218 main_v231 main_v232 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v229 main_v233 (broadcastInDim S32768x128 ![0, 1] bcast_S32768x1_S32768x128_0_1 : (⟨S32768x1, .f32⟩ : BufTy).Contents (Elt F) → (⟨S32768x128, .f32⟩ : BufTy).Contents (Elt F)),
    binary main_v233 main_v232 main_v234 (mulf : (⟨S32768x128, .f32⟩ : BufTy).Contents (Elt F) → (⟨S32768x128, .f32⟩ : BufTy).Contents (Elt F) → (⟨S32768x128, .f32⟩ : BufTy).Contents (Elt F)),
    binary main_v228 main_v234 main_v235 (addf : (⟨S32768x128, .f32⟩ : BufTy).Contents (Elt F) → (⟨S32768x128, .f32⟩ : BufTy).Contents (Elt F) → (⟨S32768x128, .f32⟩ : BufTy).Contents (Elt F)),
    unary main_v0 main_v236 ((extractStridedSlice S32768x1 ![0, 2] · slices_S32768x4_S32768x1_0_2) : (⟨S32768x4, .f32⟩ : BufTy).Contents (Elt F) → (⟨S32768x1, .f32⟩ : BufTy).Contents (Elt F)),
    unary main_v220 main_v237 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v237 main_v238 rfl shapeCasts_S1x128x128_S128x128,
    binary main_v218 main_v238 main_v239 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v236 main_v240 (broadcastInDim S32768x128 ![0, 1] bcast_S32768x1_S32768x128_0_1 : (⟨S32768x1, .f32⟩ : BufTy).Contents (Elt F) → (⟨S32768x128, .f32⟩ : BufTy).Contents (Elt F)),
    binary main_v240 main_v239 main_v241 (mulf : (⟨S32768x128, .f32⟩ : BufTy).Contents (Elt F) → (⟨S32768x128, .f32⟩ : BufTy).Contents (Elt F) → (⟨S32768x128, .f32⟩ : BufTy).Contents (Elt F)),
    binary main_v235 main_v241 main_v242 (addf : (⟨S32768x128, .f32⟩ : BufTy).Contents (Elt F) → (⟨S32768x128, .f32⟩ : BufTy).Contents (Elt F) → (⟨S32768x128, .f32⟩ : BufTy).Contents (Elt F)),
    unary main_v0 main_v243 ((extractStridedSlice S32768x1 ![0, 3] · slices_S32768x4_S32768x1_0_3) : (⟨S32768x4, .f32⟩ : BufTy).Contents (Elt F) → (⟨S32768x1, .f32⟩ : BufTy).Contents (Elt F)),
    unary main_v220 main_v244 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v244 main_v245 rfl shapeCasts_S1x128x128_S128x128,
    binary main_v218 main_v245 main_v246 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v243 main_v247 (broadcastInDim S32768x128 ![0, 1] bcast_S32768x1_S32768x128_0_1 : (⟨S32768x1, .f32⟩ : BufTy).Contents (Elt F) → (⟨S32768x128, .f32⟩ : BufTy).Contents (Elt F)),
    binary main_v247 main_v246 main_v248 (mulf : (⟨S32768x128, .f32⟩ : BufTy).Contents (Elt F) → (⟨S32768x128, .f32⟩ : BufTy).Contents (Elt F) → (⟨S32768x128, .f32⟩ : BufTy).Contents (Elt F)),
    binary main_v242 main_v248 main_v249 (addf : (⟨S32768x128, .f32⟩ : BufTy).Contents (Elt F) → (⟨S32768x128, .f32⟩ : BufTy).Contents (Elt F) → (⟨S32768x128, .f32⟩ : BufTy).Contents (Elt F)),
    nullary main_cst_18 (constant S_ .f32 0x3F000000#32),
    unary main_cst_18 main_v250 (broadcastInDim S32768x128 ![] bcast_S_S32768x128 : (⟨S_, .f32⟩ : BufTy).Contents (Elt F) → (⟨S32768x128, .f32⟩ : BufTy).Contents (Elt F)),
    binary main_v250 main_v249 main_v251 (mulf : (⟨S32768x128, .f32⟩ : BufTy).Contents (Elt F) → (⟨S32768x128, .f32⟩ : BufTy).Contents (Elt F) → (⟨S32768x128, .f32⟩ : BufTy).Contents (Elt F)),
    nullary main_c_19 (constantI S_ 32 384#32),
    unary main_c_19 main_v252 (broadcastInDim S1 ![] bcast_S_S1 : (⟨S_, .i32⟩ : BufTy).Contents (Elt F) → (⟨S1, .i32⟩ : BufTy).Contents (Elt F)),
    ternary main_v217 main_v252 main_v251 main_v253 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- Operations 282 … 305 of 320: the eighth path, up to the end of the fifth window. -/
abbrev q10 : List (HloOp τ sig (Elt F)) :=
  [ unary main_arg0 main_v254 ((extractStridedSlice S32768x128 ![0, 384] · slices_S32768x512_S32768x128_0_384) : (⟨S32768x512, .f32⟩ : BufTy).Contents (Elt F) → (⟨S32768x128, .f32⟩ : BufTy).Contents (Elt F)),
    unary main_arg1 main_v255 ((extractStridedSlice S4x16384 ![0, 114688] · slices_S4x131072_S4x16384_0_114688) : (⟨S4x131072, .f32⟩ : BufTy).Contents (Elt F) → (⟨S4x16384, .f32⟩ : BufTy).Contents (Elt F)),
    reshape main_v255 main_v256 rfl shapeCasts_S4x16384_S4x128x128,
    nullary main_cst_20 (constant S_ .f32 0x00000000#32),
    unary main_cst_20 main_v257 (broadcastInDim S32768x128 ![] bcast_S_S32768x128 : (⟨S_, .f32⟩ : BufTy).Contents (Elt F) → (⟨S32768x128, .f32⟩ : BufTy).Contents (Elt F)),
    unary main_v0 main_v258 ((extractStridedSlice S32768x1 ![0, 0] · slices_S32768x4_S32768x1_0_0) : (⟨S32768x4, .f32⟩ : BufTy).Contents (Elt F) → (⟨S32768x1, .f32⟩ : BufTy).Contents (Elt F)),
    unary main_v256 main_v259 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v259 main_v260 rfl shapeCasts_S1x128x128_S128x128,
    binary main_v254 main_v260 main_v261 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v258 main_v262 (broadcastInDim S32768x128 ![0, 1] bcast_S32768x1_S32768x128_0_1 : (⟨S32768x1, .f32⟩ : BufTy).Contents (Elt F) → (⟨S32768x128, .f32⟩ : BufTy).Contents (Elt F)),
    binary main_v262 main_v261 main_v263 (mulf : (⟨S32768x128, .f32⟩ : BufTy).Contents (Elt F) → (⟨S32768x128, .f32⟩ : BufTy).Contents (Elt F) → (⟨S32768x128, .f32⟩ : BufTy).Contents (Elt F)),
    binary main_v257 main_v263 main_v264 (addf : (⟨S32768x128, .f32⟩ : BufTy).Contents (Elt F) → (⟨S32768x128, .f32⟩ : BufTy).Contents (Elt F) → (⟨S32768x128, .f32⟩ : BufTy).Contents (Elt F)),
    unary main_v0 main_v265 ((extractStridedSlice S32768x1 ![0, 1] · slices_S32768x4_S32768x1_0_1) : (⟨S32768x4, .f32⟩ : BufTy).Contents (Elt F) → (⟨S32768x1, .f32⟩ : BufTy).Contents (Elt F)),
    unary main_v256 main_v266 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v266 main_v267 rfl shapeCasts_S1x128x128_S128x128,
    binary main_v254 main_v267 main_v268 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v265 main_v269 (broadcastInDim S32768x128 ![0, 1] bcast_S32768x1_S32768x128_0_1 : (⟨S32768x1, .f32⟩ : BufTy).Contents (Elt F) → (⟨S32768x128, .f32⟩ : BufTy).Contents (Elt F)),
    binary main_v269 main_v268 main_v270 (mulf : (⟨S32768x128, .f32⟩ : BufTy).Contents (Elt F) → (⟨S32768x128, .f32⟩ : BufTy).Contents (Elt F) → (⟨S32768x128, .f32⟩ : BufTy).Contents (Elt F)),
    binary main_v264 main_v270 main_v271 (addf : (⟨S32768x128, .f32⟩ : BufTy).Contents (Elt F) → (⟨S32768x128, .f32⟩ : BufTy).Contents (Elt F) → (⟨S32768x128, .f32⟩ : BufTy).Contents (Elt F)),
    unary main_v0 main_v272 ((extractStridedSlice S32768x1 ![0, 2] · slices_S32768x4_S32768x1_0_2) : (⟨S32768x4, .f32⟩ : BufTy).Contents (Elt F) → (⟨S32768x1, .f32⟩ : BufTy).Contents (Elt F)),
    unary main_v256 main_v273 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v273 main_v274 rfl shapeCasts_S1x128x128_S128x128,
    binary main_v254 main_v274 main_v275 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v272 main_v276 (broadcastInDim S32768x128 ![0, 1] bcast_S32768x1_S32768x128_0_1 : (⟨S32768x1, .f32⟩ : BufTy).Contents (Elt F) → (⟨S32768x128, .f32⟩ : BufTy).Contents (Elt F)) ]

/-- Operations 306 … 320 of 320: the rest of the eighth path. -/
abbrev q11 : List (HloOp τ sig (Elt F)) :=
  [ binary main_v276 main_v275 main_v277 (mulf : (⟨S32768x128, .f32⟩ : BufTy).Contents (Elt F) → (⟨S32768x128, .f32⟩ : BufTy).Contents (Elt F) → (⟨S32768x128, .f32⟩ : BufTy).Contents (Elt F)),
    binary main_v271 main_v277 main_v278 (addf : (⟨S32768x128, .f32⟩ : BufTy).Contents (Elt F) → (⟨S32768x128, .f32⟩ : BufTy).Contents (Elt F) → (⟨S32768x128, .f32⟩ : BufTy).Contents (Elt F)),
    unary main_v0 main_v279 ((extractStridedSlice S32768x1 ![0, 3] · slices_S32768x4_S32768x1_0_3) : (⟨S32768x4, .f32⟩ : BufTy).Contents (Elt F) → (⟨S32768x1, .f32⟩ : BufTy).Contents (Elt F)),
    unary main_v256 main_v280 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v280 main_v281 rfl shapeCasts_S1x128x128_S128x128,
    binary main_v254 main_v281 main_v282 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_v279 main_v283 (broadcastInDim S32768x128 ![0, 1] bcast_S32768x1_S32768x128_0_1 : (⟨S32768x1, .f32⟩ : BufTy).Contents (Elt F) → (⟨S32768x128, .f32⟩ : BufTy).Contents (Elt F)),
    binary main_v283 main_v282 main_v284 (mulf : (⟨S32768x128, .f32⟩ : BufTy).Contents (Elt F) → (⟨S32768x128, .f32⟩ : BufTy).Contents (Elt F) → (⟨S32768x128, .f32⟩ : BufTy).Contents (Elt F)),
    binary main_v278 main_v284 main_v285 (addf : (⟨S32768x128, .f32⟩ : BufTy).Contents (Elt F) → (⟨S32768x128, .f32⟩ : BufTy).Contents (Elt F) → (⟨S32768x128, .f32⟩ : BufTy).Contents (Elt F)),
    nullary main_cst_21 (constant S_ .f32 0x3F000000#32),
    unary main_cst_21 main_v286 (broadcastInDim S32768x128 ![] bcast_S_S32768x128 : (⟨S_, .f32⟩ : BufTy).Contents (Elt F) → (⟨S32768x128, .f32⟩ : BufTy).Contents (Elt F)),
    binary main_v286 main_v285 main_v287 (mulf : (⟨S32768x128, .f32⟩ : BufTy).Contents (Elt F) → (⟨S32768x128, .f32⟩ : BufTy).Contents (Elt F) → (⟨S32768x128, .f32⟩ : BufTy).Contents (Elt F)),
    nullary main_c_22 (constantI S_ 32 0#32),
    unary main_c_22 main_v288 (broadcastInDim S1 ![] bcast_S_S1 : (⟨S_, .i32⟩ : BufTy).Contents (Elt F) → (⟨S1, .i32⟩ : BufTy).Contents (Elt F)),
    ternary main_v253 main_v288 main_v287 main_v289 ((fun x i u => Host.scatter scatter_S32768x512_S1_S32768x128_01_n_1_0 FloatOps.addf x i u) : (⟨S32768x512, .f32⟩ : BufTy).Contents (Elt F) → (⟨S1, .i32⟩ : BufTy).Contents (Elt F) → (⟨S32768x128, .f32⟩ : BufTy).Contents (Elt F) → (⟨S32768x512, .f32⟩ : BufTy).Contents (Elt F)) ]

/-- The 320 operations, in order. -/
abbrev ops : List (HloOp τ sig (Elt F)) :=
  q0 ++ (q1 ++ (q2 ++ (q3 ++ (q4 ++ (q5 ++ (q6 ++ (q7 ++ (q8 ++ (q9 ++ (q10 ++ (q11)))))))))))

/-! ## The program is the line of its operations

Each printed window is the line of its pieces, by unfolding; the program runs its windows in order. -/

set_option maxRecDepth 8192 in
theorem main_part0_eq (c : Dev nD) : main_part0 (F := F) c = seq (q0 ++ (q1)) := rfl
set_option maxRecDepth 8192 in
theorem main_part1_eq (c : Dev nD) : main_part1 (F := F) c = seq (q2 ++ (q3)) := rfl
set_option maxRecDepth 8192 in
theorem main_part2_eq (c : Dev nD) : main_part2 (F := F) c = seq (q4 ++ (q5)) := rfl
set_option maxRecDepth 8192 in
theorem main_part3_eq (c : Dev nD) : main_part3 (F := F) c = seq (q6 ++ (q7 ++ (q8))) := rfl
set_option maxRecDepth 8192 in
theorem main_part4_eq (c : Dev nD) : main_part4 (F := F) c = seq (q9 ++ (q10)) := rfl
set_option maxRecDepth 8192 in
theorem main_part5_eq (c : Dev nD) : main_part5 (F := F) c = seq (q11) := rfl

theorem main_eq (c : Dev nD) : main (F := F) c = seq ops := by
  unfold main
  simp only [main_part0_eq, main_part1_eq, main_part2_eq, main_part3_eq, main_part4_eq, main_part5_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

theorem q0_sub : (q0 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem q1_sub : (q1 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub ..⟩
theorem q2_sub : (q2 : List (HloOp τ sig (Elt F))).Forall fun op => op.bufs ⊆ tcRefs τ sig :=
  ⟨binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem q3_sub : (q3 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem q4_sub : (q4 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem q5_sub : (q5 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub ..⟩
theorem q6_sub : (q6 : List (HloOp τ sig (Elt F))).Forall fun op => op.bufs ⊆ tcRefs τ sig :=
  ⟨reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem q7_sub : (q7 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem q8_sub : (q8 : List (HloOp τ sig (Elt F))).Forall fun op => op.bufs ⊆ tcRefs τ sig :=
  ⟨unary_bufs_sub .., unary_bufs_sub .., reshape_bufs_sub ..⟩
theorem q9_sub : (q9 : List (HloOp τ sig (Elt F))).Forall fun op => op.bufs ⊆ tcRefs τ sig :=
  ⟨nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩
theorem q10_sub : (q10 : List (HloOp τ sig (Elt F))).Forall fun op => op.bufs ⊆ tcRefs τ sig :=
  ⟨unary_bufs_sub .., unary_bufs_sub .., reshape_bufs_sub .., nullary_bufs_sub .., unary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub .., binary_bufs_sub .., binary_bufs_sub .., unary_bufs_sub .., unary_bufs_sub .., reshape_bufs_sub .., binary_bufs_sub .., unary_bufs_sub ..⟩
theorem q11_sub : (q11 : List (HloOp τ sig (Elt F))).Forall fun op => op.bufs ⊆ tcRefs τ sig :=
  ⟨binary_bufs_sub .., binary_bufs_sub .., unary_bufs_sub .., unary_bufs_sub .., reshape_bufs_sub .., binary_bufs_sub .., unary_bufs_sub .., binary_bufs_sub .., binary_bufs_sub .., nullary_bufs_sub .., unary_bufs_sub .., binary_bufs_sub .., nullary_bufs_sub .., unary_bufs_sub .., ternary_bufs_sub ..⟩

theorem q0_fresh : (q0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem q1_fresh : (q1 : List (HloOp τ sig (Elt F))).Forall fun op => op.fresh = ∅ :=
  ⟨rfl, rfl, rfl, rfl, rfl, rfl, rfl, rfl, rfl, rfl, rfl, rfl, rfl, rfl, rfl, rfl, rfl, rfl⟩
theorem q2_fresh : (q2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem q3_fresh : (q3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem q4_fresh : (q4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem q5_fresh : (q5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem q6_fresh : (q6 : List (HloOp τ sig (Elt F))).Forall fun op => op.fresh = ∅ :=
  ⟨rfl, rfl, rfl, rfl, rfl, rfl, rfl, rfl, rfl, rfl, rfl, rfl, rfl, rfl, rfl, rfl, rfl, rfl⟩
theorem q7_fresh : (q7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem q8_fresh : (q8 : List (HloOp τ sig (Elt F))).Forall fun op => op.fresh = ∅ :=
  ⟨rfl, rfl, rfl⟩
theorem q9_fresh : (q9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem q10_fresh : (q10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem q11_fresh : (q11 : List (HloOp τ sig (Elt F))).Forall fun op => op.fresh = ∅ :=
  ⟨rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp q0_sub op h, List.forall_iff_forall_mem.mp q1_sub op h, List.forall_iff_forall_mem.mp q2_sub op h, List.forall_iff_forall_mem.mp q3_sub op h, List.forall_iff_forall_mem.mp q4_sub op h, List.forall_iff_forall_mem.mp q5_sub op h, List.forall_iff_forall_mem.mp q6_sub op h, List.forall_iff_forall_mem.mp q7_sub op h, List.forall_iff_forall_mem.mp q8_sub op h, List.forall_iff_forall_mem.mp q9_sub op h, List.forall_iff_forall_mem.mp q10_sub op h, List.forall_iff_forall_mem.mp q11_sub op h]

theorem ops_fresh : ∀ op ∈ (ops : List (HloOp τ sig (Elt F))), op.fresh = ∅ := fun op h => by
    simp only [ops, List.mem_append] at h
    rcases h with h | h | h | h | h | h | h | h | h | h | h | h
    exacts [List.forall_iff_forall_mem.mp q0_fresh op h, List.forall_iff_forall_mem.mp q1_fresh op h, List.forall_iff_forall_mem.mp q2_fresh op h, List.forall_iff_forall_mem.mp q3_fresh op h, List.forall_iff_forall_mem.mp q4_fresh op h, List.forall_iff_forall_mem.mp q5_fresh op h, List.forall_iff_forall_mem.mp q6_fresh op h, List.forall_iff_forall_mem.mp q7_fresh op h, List.forall_iff_forall_mem.mp q8_fresh op h, List.forall_iff_forall_mem.mp q9_fresh op h, List.forall_iff_forall_mem.mp q10_fresh op h, List.forall_iff_forall_mem.mp q11_fresh op h]

/-! ## What the buffers hold after each path

A path's operations write only their own results: the arguments and the one-hot table pass through unchanged, and the
path's scatter is the stage's operations applied to what the path reads. -/

section Read
set_option maxRecDepth 8192
set_option maxHeartbeats 2000000

/-- After the prologue and the first path the one-hot table is at its stage's value of the ids. -/
theorem c0_v0 (W : Valuation τ sig (Elt F)) :
    after q0 W (Proc.devRef .tc main_v0) = ReadP.val_main_v0 (F := F) (W (Proc.devRef .tc main_arg2)) := by
  simp only [q0]
  after_results_simp
  rfl

/-- … and the first scatter's result at its stage's value of the three arguments. -/
theorem c0_scat (W : Valuation τ sig (Elt F)) :
    after q0 W (Proc.devRef .tc main_v37) = ReadP.val_main_v37 (F := F) (W (Proc.devRef .tc main_arg0)) (W (Proc.devRef .tc main_arg1)) (W (Proc.devRef .tc main_arg2)) := by
  simp only [q0]
  after_results_simp
  rfl
theorem c0_arg0 (W : Valuation τ sig (Elt F)) : after q0 W (Proc.devRef .tc main_arg0) = W (Proc.devRef .tc main_arg0) := by
  simp only [q0]
  after_results_simp
theorem c0_arg1 (W : Valuation τ sig (Elt F)) : after q0 W (Proc.devRef .tc main_arg1) = W (Proc.devRef .tc main_arg1) := by
  simp only [q0]
  after_results_simp
theorem c0_arg2 (W : Valuation τ sig (Elt F)) : after q0 W (Proc.devRef .tc main_arg2) = W (Proc.devRef .tc main_arg2) := by
  simp only [q0]
  after_results_simp

/-- Path 2: from contents holding the arguments, the one-hot table and the previous scatter's result at their
    stages' values, the path's scatter ends at its stage's value. -/
theorem c1_scat (W : Valuation τ sig (Elt F)) (x0 : (⟨S32768x512, .f32⟩ : BufTy).Contents (Elt F)) (x1 : (⟨S4x131072, .f32⟩ : BufTy).Contents (Elt F)) (x2 : (⟨S32768, .i32⟩ : BufTy).Contents (Elt F))
    (h0 : W (Proc.devRef .tc main_arg0) = x0) (h1 : W (Proc.devRef .tc main_arg1) = x1) (hv : W (Proc.devRef .tc main_v0) = ReadP.val_main_v0 (F := F) x2)
    (hs : W (Proc.devRef .tc main_v37) = ReadP.val_main_v37 (F := F) x0 x1 x2) :
    after q2 (after q1 W) (Proc.devRef .tc main_v73) = ReadP.val_main_v73 (F := F) x0 x1 x2 := by
  simp only [q1, q2]
  after_results_simp
  rw [h0, h1, hv, hs]
  rfl
theorem c1_arg0 (W : Valuation τ sig (Elt F)) : after q2 (after q1 W) (Proc.devRef .tc main_arg0) = W (Proc.devRef .tc main_arg0) := by
  simp only [q1, q2]
  after_results_simp
theorem c1_arg1 (W : Valuation τ sig (Elt F)) : after q2 (after q1 W) (Proc.devRef .tc main_arg1) = W (Proc.devRef .tc main_arg1) := by
  simp only [q1, q2]
  after_results_simp
theorem c1_arg2 (W : Valuation τ sig (Elt F)) : after q2 (after q1 W) (Proc.devRef .tc main_arg2) = W (Proc.devRef .tc main_arg2) := by
  simp only [q1, q2]
  after_results_simp
theorem c1_v0 (W : Valuation τ sig (Elt F)) : after q2 (after q1 W) (Proc.devRef .tc main_v0) = W (Proc.devRef .tc main_v0) := by
  simp only [q1, q2]
  after_results_simp

/-- Path 3: from contents holding the arguments, the one-hot table and the previous scatter's result at their
    stages' values, the path's scatter ends at its stage's value. -/
theorem c2_scat (W : Valuation τ sig (Elt F)) (x0 : (⟨S32768x512, .f32⟩ : BufTy).Contents (Elt F)) (x1 : (⟨S4x131072, .f32⟩ : BufTy).Contents (Elt F)) (x2 : (⟨S32768, .i32⟩ : BufTy).Contents (Elt F))
    (h0 : W (Proc.devRef .tc main_arg0) = x0) (h1 : W (Proc.devRef .tc main_arg1) = x1) (hv : W (Proc.devRef .tc main_v0) = ReadP.val_main_v0 (F := F) x2)
    (hs : W (Proc.devRef .tc main_v73) = ReadP.val_main_v73 (F := F) x0 x1 x2) :
    after q3 W (Proc.devRef .tc main_v109) = ReadP.val_main_v109 (F := F) x0 x1 x2 := by
  simp only [q3]
  after_results_simp
  rw [h0, h1, hv, hs]
  rfl
theorem c2_arg0 (W : Valuation τ sig (Elt F)) : after q3 W (Proc.devRef .tc main_arg0) = W (Proc.devRef .tc main_arg0) := by
  simp only [q3]
  after_results_simp
theorem c2_arg1 (W : Valuation τ sig (Elt F)) : after q3 W (Proc.devRef .tc main_arg1) = W (Proc.devRef .tc main_arg1) := by
  simp only [q3]
  after_results_simp
theorem c2_arg2 (W : Valuation τ sig (Elt F)) : after q3 W (Proc.devRef .tc main_arg2) = W (Proc.devRef .tc main_arg2) := by
  simp only [q3]
  after_results_simp
theorem c2_v0 (W : Valuation τ sig (Elt F)) : after q3 W (Proc.devRef .tc main_v0) = W (Proc.devRef .tc main_v0) := by
  simp only [q3]
  after_results_simp

/-- Path 4: from contents holding the arguments, the one-hot table and the previous scatter's result at their
    stages' values, the path's scatter ends at its stage's value. -/
theorem c3_scat (W : Valuation τ sig (Elt F)) (x0 : (⟨S32768x512, .f32⟩ : BufTy).Contents (Elt F)) (x1 : (⟨S4x131072, .f32⟩ : BufTy).Contents (Elt F)) (x2 : (⟨S32768, .i32⟩ : BufTy).Contents (Elt F))
    (h0 : W (Proc.devRef .tc main_arg0) = x0) (h1 : W (Proc.devRef .tc main_arg1) = x1) (hv : W (Proc.devRef .tc main_v0) = ReadP.val_main_v0 (F := F) x2)
    (hs : W (Proc.devRef .tc main_v109) = ReadP.val_main_v109 (F := F) x0 x1 x2) :
    after q4 W (Proc.devRef .tc main_v145) = ReadP.val_main_v145 (F := F) x0 x1 x2 := by
  simp only [q4]
  after_results_simp
  rw [h0, h1, hv, hs]
  rfl
theorem c3_arg0 (W : Valuation τ sig (Elt F)) : after q4 W (Proc.devRef .tc main_arg0) = W (Proc.devRef .tc main_arg0) := by
  simp only [q4]
  after_results_simp
theorem c3_arg1 (W : Valuation τ sig (Elt F)) : after q4 W (Proc.devRef .tc main_arg1) = W (Proc.devRef .tc main_arg1) := by
  simp only [q4]
  after_results_simp
theorem c3_arg2 (W : Valuation τ sig (Elt F)) : after q4 W (Proc.devRef .tc main_arg2) = W (Proc.devRef .tc main_arg2) := by
  simp only [q4]
  after_results_simp
theorem c3_v0 (W : Valuation τ sig (Elt F)) : after q4 W (Proc.devRef .tc main_v0) = W (Proc.devRef .tc main_v0) := by
  simp only [q4]
  after_results_simp

/-- Path 5: from contents holding the arguments, the one-hot table and the previous scatter's result at their
    stages' values, the path's scatter ends at its stage's value. -/
theorem c4_scat (W : Valuation τ sig (Elt F)) (x0 : (⟨S32768x512, .f32⟩ : BufTy).Contents (Elt F)) (x1 : (⟨S4x131072, .f32⟩ : BufTy).Contents (Elt F)) (x2 : (⟨S32768, .i32⟩ : BufTy).Contents (Elt F))
    (h0 : W (Proc.devRef .tc main_arg0) = x0) (h1 : W (Proc.devRef .tc main_arg1) = x1) (hv : W (Proc.devRef .tc main_v0) = ReadP.val_main_v0 (F := F) x2)
    (hs : W (Proc.devRef .tc main_v145) = ReadP.val_main_v145 (F := F) x0 x1 x2) :
    after q6 (after q5 W) (Proc.devRef .tc main_v181) = ReadP.val_main_v181 (F := F) x0 x1 x2 := by
  simp only [q5, q6]
  after_results_simp
  rw [h0, h1, hv, hs]
  rfl
theorem c4_arg0 (W : Valuation τ sig (Elt F)) : after q6 (after q5 W) (Proc.devRef .tc main_arg0) = W (Proc.devRef .tc main_arg0) := by
  simp only [q5, q6]
  after_results_simp
theorem c4_arg1 (W : Valuation τ sig (Elt F)) : after q6 (after q5 W) (Proc.devRef .tc main_arg1) = W (Proc.devRef .tc main_arg1) := by
  simp only [q5, q6]
  after_results_simp
theorem c4_arg2 (W : Valuation τ sig (Elt F)) : after q6 (after q5 W) (Proc.devRef .tc main_arg2) = W (Proc.devRef .tc main_arg2) := by
  simp only [q5, q6]
  after_results_simp
theorem c4_v0 (W : Valuation τ sig (Elt F)) : after q6 (after q5 W) (Proc.devRef .tc main_v0) = W (Proc.devRef .tc main_v0) := by
  simp only [q5, q6]
  after_results_simp

/-- Path 6: from contents holding the arguments, the one-hot table and the previous scatter's result at their
    stages' values, the path's scatter ends at its stage's value. -/
theorem c5_scat (W : Valuation τ sig (Elt F)) (x0 : (⟨S32768x512, .f32⟩ : BufTy).Contents (Elt F)) (x1 : (⟨S4x131072, .f32⟩ : BufTy).Contents (Elt F)) (x2 : (⟨S32768, .i32⟩ : BufTy).Contents (Elt F))
    (h0 : W (Proc.devRef .tc main_arg0) = x0) (h1 : W (Proc.devRef .tc main_arg1) = x1) (hv : W (Proc.devRef .tc main_v0) = ReadP.val_main_v0 (F := F) x2)
    (hs : W (Proc.devRef .tc main_v181) = ReadP.val_main_v181 (F := F) x0 x1 x2) :
    after q7 W (Proc.devRef .tc main_v217) = ReadP.val_main_v217 (F := F) x0 x1 x2 := by
  simp only [q7]
  after_results_simp
  rw [h0, h1, hv, hs]
  rfl
theorem c5_arg0 (W : Valuation τ sig (Elt F)) : after q7 W (Proc.devRef .tc main_arg0) = W (Proc.devRef .tc main_arg0) := by
  simp only [q7]
  after_results_simp
theorem c5_arg1 (W : Valuation τ sig (Elt F)) : after q7 W (Proc.devRef .tc main_arg1) = W (Proc.devRef .tc main_arg1) := by
  simp only [q7]
  after_results_simp
theorem c5_arg2 (W : Valuation τ sig (Elt F)) : after q7 W (Proc.devRef .tc main_arg2) = W (Proc.devRef .tc main_arg2) := by
  simp only [q7]
  after_results_simp
theorem c5_v0 (W : Valuation τ sig (Elt F)) : after q7 W (Proc.devRef .tc main_v0) = W (Proc.devRef .tc main_v0) := by
  simp only [q7]
  after_results_simp

/-- Path 7: from contents holding the arguments, the one-hot table and the previous scatter's result at their
    stages' values, the path's scatter ends at its stage's value. -/
theorem c6_scat (W : Valuation τ sig (Elt F)) (x0 : (⟨S32768x512, .f32⟩ : BufTy).Contents (Elt F)) (x1 : (⟨S4x131072, .f32⟩ : BufTy).Contents (Elt F)) (x2 : (⟨S32768, .i32⟩ : BufTy).Contents (Elt F))
    (h0 : W (Proc.devRef .tc main_arg0) = x0) (h1 : W (Proc.devRef .tc main_arg1) = x1) (hv : W (Proc.devRef .tc main_v0) = ReadP.val_main_v0 (F := F) x2)
    (hs : W (Proc.devRef .tc main_v217) = ReadP.val_main_v217 (F := F) x0 x1 x2) :
    after q9 (after q8 W) (Proc.devRef .tc main_v253) = ReadP.val_main_v253 (F := F) x0 x1 x2 := by
  simp only [q8, q9]
  after_results_simp
  rw [h0, h1, hv, hs]
  rfl
theorem c6_arg0 (W : Valuation τ sig (Elt F)) : after q9 (after q8 W) (Proc.devRef .tc main_arg0) = W (Proc.devRef .tc main_arg0) := by
  simp only [q8, q9]
  after_results_simp
theorem c6_arg1 (W : Valuation τ sig (Elt F)) : after q9 (after q8 W) (Proc.devRef .tc main_arg1) = W (Proc.devRef .tc main_arg1) := by
  simp only [q8, q9]
  after_results_simp
theorem c6_arg2 (W : Valuation τ sig (Elt F)) : after q9 (after q8 W) (Proc.devRef .tc main_arg2) = W (Proc.devRef .tc main_arg2) := by
  simp only [q8, q9]
  after_results_simp
theorem c6_v0 (W : Valuation τ sig (Elt F)) : after q9 (after q8 W) (Proc.devRef .tc main_v0) = W (Proc.devRef .tc main_v0) := by
  simp only [q8, q9]
  after_results_simp

/-- Path 8: from contents holding the arguments, the one-hot table and the previous scatter's result at their
    stages' values, the path's scatter ends at its stage's value. -/
theorem c7_scat (W : Valuation τ sig (Elt F)) (x0 : (⟨S32768x512, .f32⟩ : BufTy).Contents (Elt F)) (x1 : (⟨S4x131072, .f32⟩ : BufTy).Contents (Elt F)) (x2 : (⟨S32768, .i32⟩ : BufTy).Contents (Elt F))
    (h0 : W (Proc.devRef .tc main_arg0) = x0) (h1 : W (Proc.devRef .tc main_arg1) = x1) (hv : W (Proc.devRef .tc main_v0) = ReadP.val_main_v0 (F := F) x2)
    (hs : W (Proc.devRef .tc main_v253) = ReadP.val_main_v253 (F := F) x0 x1 x2) :
    after q11 (after q10 W) (Proc.devRef .tc main_v289) = ReadP.val_main_v289 (F := F) x0 x1 x2 := by
  simp only [q10, q11]
  after_results_simp
  rw [h0, h1, hv, hs]
  rfl
theorem c7_arg0 (W : Valuation τ sig (Elt F)) : after q11 (after q10 W) (Proc.devRef .tc main_arg0) = W (Proc.devRef .tc main_arg0) := by
  simp only [q10, q11]
  after_results_simp
theorem c7_arg1 (W : Valuation τ sig (Elt F)) : after q11 (after q10 W) (Proc.devRef .tc main_arg1) = W (Proc.devRef .tc main_arg1) := by
  simp only [q10, q11]
  after_results_simp
theorem c7_arg2 (W : Valuation τ sig (Elt F)) : after q11 (after q10 W) (Proc.devRef .tc main_arg2) = W (Proc.devRef .tc main_arg2) := by
  simp only [q10, q11]
  after_results_simp
theorem c7_v0 (W : Valuation τ sig (Elt F)) : after q11 (after q10 W) (Proc.devRef .tc main_v0) = W (Proc.devRef .tc main_v0) := by
  simp only [q10, q11]
  after_results_simp

end Read

/-! ## The contents after each path, from the launch contents

Path by path: what a path reads is what the paths before left, so each scatter's result is its stage's value of the
launch contents of the three arguments. -/

/-- The buffers' contents after path 1 (and the prologue). -/
def S0 (V0 : Valuation τ sig (Elt F)) : Valuation τ sig (Elt F) := after q0 V0
/-- The buffers' contents after path 2. -/
def S1 (V0 : Valuation τ sig (Elt F)) : Valuation τ sig (Elt F) := after q2 (after q1 ((S0 V0)))
/-- The buffers' contents after path 3. -/
def S2 (V0 : Valuation τ sig (Elt F)) : Valuation τ sig (Elt F) := after q3 ((S1 V0))
/-- The buffers' contents after path 4. -/
def S3 (V0 : Valuation τ sig (Elt F)) : Valuation τ sig (Elt F) := after q4 ((S2 V0))
/-- The buffers' contents after path 5. -/
def S4 (V0 : Valuation τ sig (Elt F)) : Valuation τ sig (Elt F) := after q6 (after q5 ((S3 V0)))
/-- The buffers' contents after path 6. -/
def S5 (V0 : Valuation τ sig (Elt F)) : Valuation τ sig (Elt F) := after q7 ((S4 V0))
/-- The buffers' contents after path 7. -/
def S6 (V0 : Valuation τ sig (Elt F)) : Valuation τ sig (Elt F) := after q9 (after q8 ((S5 V0)))
/-- The buffers' contents after path 8. -/
def S7 (V0 : Valuation τ sig (Elt F)) : Valuation τ sig (Elt F) := after q11 (after q10 ((S6 V0)))

theorem S0_arg0 (V0 : Valuation τ sig (Elt F)) : S0 V0 (Proc.devRef .tc main_arg0) = V0 (Proc.devRef .tc main_arg0) := c0_arg0 V0
theorem S0_arg1 (V0 : Valuation τ sig (Elt F)) : S0 V0 (Proc.devRef .tc main_arg1) = V0 (Proc.devRef .tc main_arg1) := c0_arg1 V0
theorem S0_arg2 (V0 : Valuation τ sig (Elt F)) : S0 V0 (Proc.devRef .tc main_arg2) = V0 (Proc.devRef .tc main_arg2) := c0_arg2 V0
theorem S0_v0 (V0 : Valuation τ sig (Elt F)) : S0 V0 (Proc.devRef .tc main_v0) = ReadP.val_main_v0 (F := F) (V0 (Proc.devRef .tc main_arg2)) := c0_v0 V0
theorem S0_scat (V0 : Valuation τ sig (Elt F)) : S0 V0 (Proc.devRef .tc main_v37) = ReadP.val_main_v37 (F := F) (V0 (Proc.devRef .tc main_arg0)) (V0 (Proc.devRef .tc main_arg1)) (V0 (Proc.devRef .tc main_arg2)) := c0_scat V0

theorem S1_arg0 (V0 : Valuation τ sig (Elt F)) : S1 V0 (Proc.devRef .tc main_arg0) = V0 (Proc.devRef .tc main_arg0) := (c1_arg0 (S0 V0)).trans (S0_arg0 V0)
theorem S1_arg1 (V0 : Valuation τ sig (Elt F)) : S1 V0 (Proc.devRef .tc main_arg1) = V0 (Proc.devRef .tc main_arg1) := (c1_arg1 (S0 V0)).trans (S0_arg1 V0)
theorem S1_arg2 (V0 : Valuation τ sig (Elt F)) : S1 V0 (Proc.devRef .tc main_arg2) = V0 (Proc.devRef .tc main_arg2) := (c1_arg2 (S0 V0)).trans (S0_arg2 V0)
theorem S1_v0 (V0 : Valuation τ sig (Elt F)) : S1 V0 (Proc.devRef .tc main_v0) = ReadP.val_main_v0 (F := F) (V0 (Proc.devRef .tc main_arg2)) := (c1_v0 (S0 V0)).trans (S0_v0 V0)
theorem S1_scat (V0 : Valuation τ sig (Elt F)) : S1 V0 (Proc.devRef .tc main_v73) = ReadP.val_main_v73 (F := F) (V0 (Proc.devRef .tc main_arg0)) (V0 (Proc.devRef .tc main_arg1)) (V0 (Proc.devRef .tc main_arg2)) :=
  c1_scat (S0 V0) _ _ _ (S0_arg0 V0) (S0_arg1 V0) (S0_v0 V0) (S0_scat V0)

theorem S2_arg0 (V0 : Valuation τ sig (Elt F)) : S2 V0 (Proc.devRef .tc main_arg0) = V0 (Proc.devRef .tc main_arg0) := (c2_arg0 (S1 V0)).trans (S1_arg0 V0)
theorem S2_arg1 (V0 : Valuation τ sig (Elt F)) : S2 V0 (Proc.devRef .tc main_arg1) = V0 (Proc.devRef .tc main_arg1) := (c2_arg1 (S1 V0)).trans (S1_arg1 V0)
theorem S2_arg2 (V0 : Valuation τ sig (Elt F)) : S2 V0 (Proc.devRef .tc main_arg2) = V0 (Proc.devRef .tc main_arg2) := (c2_arg2 (S1 V0)).trans (S1_arg2 V0)
theorem S2_v0 (V0 : Valuation τ sig (Elt F)) : S2 V0 (Proc.devRef .tc main_v0) = ReadP.val_main_v0 (F := F) (V0 (Proc.devRef .tc main_arg2)) := (c2_v0 (S1 V0)).trans (S1_v0 V0)
theorem S2_scat (V0 : Valuation τ sig (Elt F)) : S2 V0 (Proc.devRef .tc main_v109) = ReadP.val_main_v109 (F := F) (V0 (Proc.devRef .tc main_arg0)) (V0 (Proc.devRef .tc main_arg1)) (V0 (Proc.devRef .tc main_arg2)) :=
  c2_scat (S1 V0) _ _ _ (S1_arg0 V0) (S1_arg1 V0) (S1_v0 V0) (S1_scat V0)

theorem S3_arg0 (V0 : Valuation τ sig (Elt F)) : S3 V0 (Proc.devRef .tc main_arg0) = V0 (Proc.devRef .tc main_arg0) := (c3_arg0 (S2 V0)).trans (S2_arg0 V0)
theorem S3_arg1 (V0 : Valuation τ sig (Elt F)) : S3 V0 (Proc.devRef .tc main_arg1) = V0 (Proc.devRef .tc main_arg1) := (c3_arg1 (S2 V0)).trans (S2_arg1 V0)
theorem S3_arg2 (V0 : Valuation τ sig (Elt F)) : S3 V0 (Proc.devRef .tc main_arg2) = V0 (Proc.devRef .tc main_arg2) := (c3_arg2 (S2 V0)).trans (S2_arg2 V0)
theorem S3_v0 (V0 : Valuation τ sig (Elt F)) : S3 V0 (Proc.devRef .tc main_v0) = ReadP.val_main_v0 (F := F) (V0 (Proc.devRef .tc main_arg2)) := (c3_v0 (S2 V0)).trans (S2_v0 V0)
theorem S3_scat (V0 : Valuation τ sig (Elt F)) : S3 V0 (Proc.devRef .tc main_v145) = ReadP.val_main_v145 (F := F) (V0 (Proc.devRef .tc main_arg0)) (V0 (Proc.devRef .tc main_arg1)) (V0 (Proc.devRef .tc main_arg2)) :=
  c3_scat (S2 V0) _ _ _ (S2_arg0 V0) (S2_arg1 V0) (S2_v0 V0) (S2_scat V0)

theorem S4_arg0 (V0 : Valuation τ sig (Elt F)) : S4 V0 (Proc.devRef .tc main_arg0) = V0 (Proc.devRef .tc main_arg0) := (c4_arg0 (S3 V0)).trans (S3_arg0 V0)
theorem S4_arg1 (V0 : Valuation τ sig (Elt F)) : S4 V0 (Proc.devRef .tc main_arg1) = V0 (Proc.devRef .tc main_arg1) := (c4_arg1 (S3 V0)).trans (S3_arg1 V0)
theorem S4_arg2 (V0 : Valuation τ sig (Elt F)) : S4 V0 (Proc.devRef .tc main_arg2) = V0 (Proc.devRef .tc main_arg2) := (c4_arg2 (S3 V0)).trans (S3_arg2 V0)
theorem S4_v0 (V0 : Valuation τ sig (Elt F)) : S4 V0 (Proc.devRef .tc main_v0) = ReadP.val_main_v0 (F := F) (V0 (Proc.devRef .tc main_arg2)) := (c4_v0 (S3 V0)).trans (S3_v0 V0)
theorem S4_scat (V0 : Valuation τ sig (Elt F)) : S4 V0 (Proc.devRef .tc main_v181) = ReadP.val_main_v181 (F := F) (V0 (Proc.devRef .tc main_arg0)) (V0 (Proc.devRef .tc main_arg1)) (V0 (Proc.devRef .tc main_arg2)) :=
  c4_scat (S3 V0) _ _ _ (S3_arg0 V0) (S3_arg1 V0) (S3_v0 V0) (S3_scat V0)

theorem S5_arg0 (V0 : Valuation τ sig (Elt F)) : S5 V0 (Proc.devRef .tc main_arg0) = V0 (Proc.devRef .tc main_arg0) := (c5_arg0 (S4 V0)).trans (S4_arg0 V0)
theorem S5_arg1 (V0 : Valuation τ sig (Elt F)) : S5 V0 (Proc.devRef .tc main_arg1) = V0 (Proc.devRef .tc main_arg1) := (c5_arg1 (S4 V0)).trans (S4_arg1 V0)
theorem S5_arg2 (V0 : Valuation τ sig (Elt F)) : S5 V0 (Proc.devRef .tc main_arg2) = V0 (Proc.devRef .tc main_arg2) := (c5_arg2 (S4 V0)).trans (S4_arg2 V0)
theorem S5_v0 (V0 : Valuation τ sig (Elt F)) : S5 V0 (Proc.devRef .tc main_v0) = ReadP.val_main_v0 (F := F) (V0 (Proc.devRef .tc main_arg2)) := (c5_v0 (S4 V0)).trans (S4_v0 V0)
theorem S5_scat (V0 : Valuation τ sig (Elt F)) : S5 V0 (Proc.devRef .tc main_v217) = ReadP.val_main_v217 (F := F) (V0 (Proc.devRef .tc main_arg0)) (V0 (Proc.devRef .tc main_arg1)) (V0 (Proc.devRef .tc main_arg2)) :=
  c5_scat (S4 V0) _ _ _ (S4_arg0 V0) (S4_arg1 V0) (S4_v0 V0) (S4_scat V0)

theorem S6_arg0 (V0 : Valuation τ sig (Elt F)) : S6 V0 (Proc.devRef .tc main_arg0) = V0 (Proc.devRef .tc main_arg0) := (c6_arg0 (S5 V0)).trans (S5_arg0 V0)
theorem S6_arg1 (V0 : Valuation τ sig (Elt F)) : S6 V0 (Proc.devRef .tc main_arg1) = V0 (Proc.devRef .tc main_arg1) := (c6_arg1 (S5 V0)).trans (S5_arg1 V0)
theorem S6_arg2 (V0 : Valuation τ sig (Elt F)) : S6 V0 (Proc.devRef .tc main_arg2) = V0 (Proc.devRef .tc main_arg2) := (c6_arg2 (S5 V0)).trans (S5_arg2 V0)
theorem S6_v0 (V0 : Valuation τ sig (Elt F)) : S6 V0 (Proc.devRef .tc main_v0) = ReadP.val_main_v0 (F := F) (V0 (Proc.devRef .tc main_arg2)) := (c6_v0 (S5 V0)).trans (S5_v0 V0)
theorem S6_scat (V0 : Valuation τ sig (Elt F)) : S6 V0 (Proc.devRef .tc main_v253) = ReadP.val_main_v253 (F := F) (V0 (Proc.devRef .tc main_arg0)) (V0 (Proc.devRef .tc main_arg1)) (V0 (Proc.devRef .tc main_arg2)) :=
  c6_scat (S5 V0) _ _ _ (S5_arg0 V0) (S5_arg1 V0) (S5_v0 V0) (S5_scat V0)

theorem S7_arg0 (V0 : Valuation τ sig (Elt F)) : S7 V0 (Proc.devRef .tc main_arg0) = V0 (Proc.devRef .tc main_arg0) := (c7_arg0 (S6 V0)).trans (S6_arg0 V0)
theorem S7_arg1 (V0 : Valuation τ sig (Elt F)) : S7 V0 (Proc.devRef .tc main_arg1) = V0 (Proc.devRef .tc main_arg1) := (c7_arg1 (S6 V0)).trans (S6_arg1 V0)
theorem S7_arg2 (V0 : Valuation τ sig (Elt F)) : S7 V0 (Proc.devRef .tc main_arg2) = V0 (Proc.devRef .tc main_arg2) := (c7_arg2 (S6 V0)).trans (S6_arg2 V0)
theorem S7_v0 (V0 : Valuation τ sig (Elt F)) : S7 V0 (Proc.devRef .tc main_v0) = ReadP.val_main_v0 (F := F) (V0 (Proc.devRef .tc main_arg2)) := (c7_v0 (S6 V0)).trans (S6_v0 V0)
theorem S7_scat (V0 : Valuation τ sig (Elt F)) : S7 V0 (Proc.devRef .tc main_v289) = ReadP.val_main_v289 (F := F) (V0 (Proc.devRef .tc main_arg0)) (V0 (Proc.devRef .tc main_arg1)) (V0 (Proc.devRef .tc main_arg2)) :=
  c7_scat (S6 V0) _ _ _ (S6_arg0 V0) (S6_arg1 V0) (S6_v0 V0) (S6_scat V0)

/-- The whole line's contents are those after the eighth path. -/
theorem after_ops (V0 : Valuation τ sig (Elt F)) : after ops V0 = S7 V0 := by
  simp only [ops, after_append]
  rfl

/-! ## The run -/

/-- The run, with the result at the last stage of the three arguments. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v289)
          = ReadP.val_main_v289 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v289).trans (by rw [after_ops]; exact S7_scat (launchContents m c)),
      (h c main_arg0).trans (by rw [after_ops]; exact S7_arg0 (launchContents m c)),
      (h c main_arg1).trans (by rw [after_ops]; exact S7_arg1 (launchContents m c)),
      (h c main_arg2).trans (by rw [after_ops]; exact S7_arg2 (launchContents m c))⟩)
    (run_seq scopedRefs_eq scopedSems_eq defs main (fun _ => ops) main_eq (fun _ => ops_sub) m ρ (fun _ => ops_fresh))

end Cert.RefSide

end
-- ==== Proof.lean ====
/-
  The certificate: a segmented, expert-selected linear layer computed through one dense 512×512 matrix per expert
  equals, over finite inputs, the same layer computed path by path.

  Both programs are read at extended reals. The kernel's host part folds each expert's eight 128×128 weight blocks
  into a dense matrix (block `s` on the diagonal, half of block `4 + s` one block to the right, cyclically) and its
  body sums, over the four experts, the row's mask times the row's product with that matrix. The reference sums, for
  each of the eight paths, the mask-weighted products of one input segment with one weight block and adds the
  weighted result into one output segment. With every input entry a real number both are the same real polynomial:
  a product with a zero block contributes zero, and the weight one half moves across the finite sums.

  The three frames are the generated kernel frames and the reference's run; nothing was idealized by rewriting, so
  the idealization conjunct is trivial.
-/
import proofs.«170114_j59356448030869_1_alg».proof.Defs
import proofs.«170114_j59356448030869_1_alg».proof.Proof.Gen.Kernel
import proofs.«170114_j59356448030869_1_alg».proof.Proof.Gen.Kernel.Skeleton
import proofs.«170114_j59356448030869_1_alg».proof.Proof.Gen.Kernel.Launch
import proofs.«170114_j59356448030869_1_alg».proof.Proof.Gen.Kernel.Points
import proofs.«170114_j59356448030869_1_alg».proof.Proof.Gen.Kernel.Frame
import proofs.«170114_j59356448030869_1_alg».proof.Proof.Gen.KernelIdeal
import proofs.«170114_j59356448030869_1_alg».proof.Proof.Gen.KernelIdeal.Skeleton
import proofs.«170114_j59356448030869_1_alg».proof.Proof.Gen.KernelIdeal.Launch
import proofs.«170114_j59356448030869_1_alg».proof.Proof.Gen.KernelIdeal.Points
import proofs.«170114_j59356448030869_1_alg».proof.Proof.Gen.KernelIdeal.Frame
import proofs.«170114_j59356448030869_1_alg».proof.Proof.Gen.KernelIdeal.Value
import proofs.«170114_j59356448030869_1_alg».proof.Proof.Gen.ReferenceIdeal
import proofs.«170114_j59356448030869_1_alg».proof.Proof.Gen.Pre_finite_inputs
import proofs.«170114_j59356448030869_1_alg».proof.Proof.Spec
import proofs.«170114_j59356448030869_1_alg».proof.Proof.Algebra
import proofs.«170114_j59356448030869_1_alg».proof.Proof.Bridge
import proofs.«170114_j59356448030869_1_alg».proof.Proof.Finite
import proofs.«170114_j59356448030869_1_alg».proof.Proof.KernelArray
import proofs.«170114_j59356448030869_1_alg».proof.Proof.DenseWeights
import proofs.«170114_j59356448030869_1_alg».proof.Proof.RefScatter
import proofs.«170114_j59356448030869_1_alg».proof.Proof.RefRun
import Idealize.ShloMosaic.Adequacy
import Idealize.ShloMosaic.Init

noncomputable section

namespace Cert.Proof

open Idealize.ShloMosaic Idealize.ShloMosaic.ValueIdx Idealize.ShloMosaic.TcCoe Idealize.SL.Sem

/-- Under the precondition, the kernel's output array after its run is the reference's last stage of the same three
    arguments: index by index, entry `v` of segment `k` of row `b`, the dense side equals the path side. -/
theorem kernel_eq_reference (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    Cert.ReferenceIdeal.ReadP.val_main_v289 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = ((Cert.KernelIdeal.Gen.dats m 0 c).arrAt 3 Cert.KernelIdeal.cfg0.N : Spec.SX.Idx → EReal) := by
  obtain ⟨hx, hw⟩ := Cert.Finite.real_of_pre _ _ _ hpre
  funext (i : Spec.SX.Idx)
  obtain ⟨b, k, v, rfl⟩ : ∃ (b : Fin 32768) (k : Fin 4) (v : Fin 128), i = Spec.xi b k v := ⟨_, _, _, Spec.eq_xi i⟩
  -- the reference's entry is the path side; over real entries that is the dense side
  refine (Cert.RefSide.ref_apply _ _ _ b k v).trans ?_
  refine (Cert.Algebra.viaDense_eq_viaPaths _ _ _ hx hw b k v).symm.trans ?_
  -- the kernel's entry is the dense side of the arrays its region finds: the arguments, unchanged by the host part
  refine Eq.trans ?_ (congrFun (Cert.KernelSide.kernel_array m c) (Spec.xi b k v)).symm
  refine Eq.trans ?_ (Cert.Bridge.kdense_eq_viaDense _ _ _ _ _ (Cert.KernelSide.dense_apply m c)
    (Cert.KernelSide.ids_apply m c) b k v).symm
  rw [Cert.KernelIdeal.Gen.V_main_arg0 m c, Cert.KernelIdeal.Gen.V_main_arg1 m c, Cert.KernelIdeal.Gen.V_main_arg2 m c]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefSide.ref_run (F := Ideal) m ρ)

/-- The kernel's run names its output array; the reference's run ends at its last stage of arguments that agree with
    the kernel's; the two are one array by `kernel_eq_reference`. -/
theorem algebraic : Cert.algebraic_KernelIdeal_ReferenceIdeal := by
  intro m ρ m' ρ' hpre hagree
  refine ⟨fun c => (Cert.KernelIdeal.Gen.dats m 0 c).arrAt 3 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.RefSide.ref_run (F := Ideal) m' ρ')
  rw [(hagree c).1, (hagree c).2.1, (hagree c).2.2]
  exact kernel_eq_reference m c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
